-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v240) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S600000 : Shape := ⟨1, ![600000]⟩
abbrev S8x128x128 : Shape := ⟨3, ![8, 128, 128]⟩
abbrev S128x128 : Shape := ⟨2, ![128, 128]⟩
abbrev S128 : Shape := ⟨1, ![128]⟩
abbrev S_ : Shape := ⟨0, ![]⟩
abbrev S1x600000 : Shape := ⟨2, ![1, 600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S8x128x128 : S_.BroadcastsInDim S8x128x128 (![] : Fin 0 → Fin S8x128x128.rank)
  reducesTo_S8x128x128_S_d0_1_2 : S8x128x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part2 {F : FTy → Type} [FloatOps F] (main_arg2 : IVec S600000 32) (main_v30 : IVec S_ 1) (main_v33 : IVec S_ 1) : IVec S_ 1 :=
  let main_v34 : IVec S_ 1 := andi main_v30 main_v33
  let main_c_12 : IVec S_ 32 := constantI S_ 32 8#32
  let main_v35 : IVec S600000 32 := broadcastInDim S600000 ![] bcast_S_S600000 main_c_12
  let main_v36 : IVec S600000 1 := cmpi .slt main_arg2 main_v35
  let main_c_13 : IVec S_ 1 := constantI S_ 1 1#1
  let main_v37 : IVec S_ 1 := (fun x v => Host.reduce IntOp.andi x v reducesTo_S600000_S_d0 h_S_) main_v36 main_c_13
  let main_v38 : IVec S_ 1 := andi main_v34 main_v37
  main_v38

def fn_part1 {F : FTy → Type} [FloatOps F] (main_arg1 : IVec S2x600000 32) (main_arg2 : IVec S600000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : IVec S1x600000 32 := (extractStridedSlice S1x600000 ![0, 0] · slices_S2x600000_S1x600000_0_0) main_arg1
  let main_v20 : IVec S600000 32 := shapeCast S600000 main_v19 shapeCasts_S1x600000_S600000
  let main_c_6 : IVec S_ 32 := constantI S_ 32 0#32
  let main_v21 : IVec S600000 32 := broadcastInDim S600000 ![] bcast_S_S600000 main_c_6
  let main_v22 : IVec S600000 1 := cmpi .sge main_v20 main_v21
  let main_c_7 : IVec S_ 1 := constantI S_ 1 1#1
  let main_v23 : IVec S_ 1 := (fun x v => Host.reduce IntOp.andi x v reducesTo_S600000_S_d0 h_S_) main_v22 main_c_7
  let main_v24 : IVec S_ 1 := andi main_v18 main_v23
  let main_v25 : IVec S1x600000 32 := (extractStridedSlice S1x600000 ![0, 0] · slices_S2x600000_S1x600000_0_0) main_arg1
  let main_v26 : IVec S600000 32 := shapeCast S600000 main_v25 shapeCasts_S1x600000_S600000
  let main_c_8 : IVec S_ 32 := constantI S_ 32 100000#32
  let main_v27 : IVec S600000 32 := broadcastInDim S600000 ![] bcast_S_S600000 main_c_8
  let main_v28 : IVec S600000 1 := cmpi .slt main_v26 main_v27
  let main_c_9 : IVec S_ 1 := constantI S_ 1 1#1
  let main_v29 : IVec S_ 1 := (fun x v => Host.reduce IntOp.andi x v reducesTo_S600000_S_d0 h_S_) main_v28 main_c_9
  let main_v30 : IVec S_ 1 := andi main_v24 main_v29
  let main_c_10 : IVec S_ 32 := constantI S_ 32 0#32
  let main_v31 : IVec S600000 32 := broadcastInDim S600000 ![] bcast_S_S600000 main_c_10
  let main_v32 : IVec S600000 1 := cmpi .sge main_arg2 main_v31
  let main_c_11 : IVec S_ 1 := constantI S_ 1 1#1
  let main_v33 : IVec S_ 1 := (fun x v => Host.reduce IntOp.andi x v reducesTo_S600000_S_d0 h_S_) main_v32 main_c_11
  fn_part2 (F := F) main_arg2 main_v30 main_v33

def fn {F : FTy → Type} [FloatOps F] (main_arg0 : FVec F S100000x128 .f32) (main_arg1 : IVec S2x600000 32) (main_arg2 : IVec S600000 32) (main_arg3 : FVec F S8x128x128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S8x128x128 .f32 := Host.absf main_arg3
  let main_cst_0 : FVec F S_ .f32 := constant S_ .f32 0x7F800000#32
  let main_v5 : FVec F S8x128x128 .f32 := broadcastInDim S8x128x128 ![] bcast_S_S8x128x128 main_cst_0
  let main_v6 : IVec S8x128x128 1 := cmpf .olt main_v4 main_v5
  let main_c_1 : IVec S_ 1 := constantI S_ 1 1#1
  let main_v7 : IVec S_ 1 := (fun x v => Host.reduce IntOp.andi x v reducesTo_S8x128x128_S_d0_1_2 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg2 main_v13 main_v16
-- ==== Kernel.lean ====
abbrev S100000x128 : Shape := ⟨2, ![100000, 128]⟩
abbrev S2x600000 : Shape := ⟨2, ![2, 600000]⟩
abbrev S600000 : Shape := ⟨1, ![600000]⟩
abbrev S8x128x128 : Shape := ⟨3, ![8, 128, 128]⟩
abbrev S128x128 : Shape := ⟨2, ![128, 128]⟩
abbrev S128 : Shape := ⟨1, ![128]⟩
abbrev S1x128x128 : Shape := ⟨3, ![1, 128, 128]⟩
abbrev S9x128x128 : Shape := ⟨3, ![9, 128, 128]⟩
abbrev S128x9x128 : Shape := ⟨3, ![128, 9, 128]⟩
abbrev S128x1152 : Shape := ⟨2, ![128, 1152]⟩
abbrev S100000x1152 : Shape := ⟨2, ![100000, 1152]⟩
abbrev S2000x128 : Shape := ⟨2, ![2000, 128]⟩
abbrev S2000x1152 : Shape := ⟨2, ![2000, 1152]⟩
abbrev S1x128 : Shape := ⟨2, ![1, 128]⟩
abbrev S100000x1024 : Shape := ⟨2, ![100000, 1024]⟩
abbrev S100000x8x128 : Shape := ⟨3, ![100000, 8, 128]⟩
abbrev S1x600000 : Shape := ⟨2, ![1, 600000]⟩
abbrev S600000x1 : Shape := ⟨2, ![600000, 1]⟩
abbrev S1x8 : Shape := ⟨2, ![1, 8]⟩
abbrev S600000x8 : Shape := ⟨2, ![600000, 8]⟩
abbrev S_ : Shape := ⟨0, ![]⟩
abbrev S100000x8 : Shape := ⟨2, ![100000, 8]⟩
abbrev S800000x128 : Shape := ⟨2, ![800000, 128]⟩
abbrev S1 : Shape := ⟨1, ![1]⟩
abbrev S1x1 : Shape := ⟨2, ![1, 1]⟩
abbrev S600000x128 : Shape := ⟨2, ![600000, 128]⟩
abbrev S800000 : Shape := ⟨1, ![800000]⟩

abbrev nBuf : Space → Nat
  | .hbm => 103
  | .vmem => 5
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000, .i32⟩
  | .hbm, ⟨3, _⟩ => ⟨S8x128x128, .f32⟩
  | .hbm, ⟨4, _⟩ => ⟨S128x128, .f32⟩
  | .hbm, ⟨5, _⟩ => ⟨S128, .f32⟩
  | .hbm, ⟨6, _⟩ => ⟨S1x128x128, .f32⟩
  | .hbm, ⟨7, _⟩ => ⟨S9x128x128, .f32⟩
  | .hbm, ⟨8, _⟩ => ⟨S128x9x128, .f32⟩
  | .hbm, ⟨9, _⟩ => ⟨S128x1152, .f32⟩
  | .hbm, ⟨10, _⟩ => ⟨S100000x1152, .f32⟩
  | .hbm, ⟨11, _⟩ => ⟨S100000x128, .f32⟩
  | .hbm, ⟨12, _⟩ => ⟨S1x128, .f32⟩
  | .hbm, ⟨13, _⟩ => ⟨S100000x128, .f32⟩
  | .hbm, ⟨14, _⟩ => ⟨S100000x128, .f32⟩
  | .hbm, ⟨15, _⟩ => ⟨S100000x1024, .f32⟩
  | .hbm, ⟨16, _⟩ => ⟨S100000x8x128, .f32⟩
  | .hbm, ⟨17, _⟩ => ⟨S1x600000, .i32⟩
  | .hbm, ⟨18, _⟩ => ⟨S600000, .i32⟩
  | .hbm, ⟨19, _⟩ => ⟨S1x600000, .i32⟩
  | .hbm, ⟨20, _⟩ => ⟨S600000, .i32⟩
  | .hbm, ⟨21, _⟩ => ⟨S600000x1, .i32⟩
  | .hbm, ⟨22, _⟩ => ⟨S1x8, .i32⟩
  | .hbm, ⟨23, _⟩ => ⟨S600000x8, .i32⟩
  | .hbm, ⟨24, _⟩ => ⟨S600000x8, .i32⟩
  | .hbm, ⟨25, _⟩ => ⟨S600000x8, .i1⟩
  | .hbm, ⟨26, _⟩ => ⟨S600000x8, .f32⟩
  | .hbm, ⟨27, _⟩ => ⟨S_, .f32⟩
  | .hbm, ⟨28, _⟩ => ⟨S100000x8, .f32⟩
  | .hbm, ⟨29, _⟩ => ⟨S600000x1, .i32⟩
  | .hbm, ⟨30, _⟩ => ⟨S100000x8, .f32⟩
  | .hbm, ⟨31, _⟩ => ⟨S800000x128, .f32⟩
  | .hbm, ⟨32, _⟩ => ⟨S_, .i32⟩
  | .hbm, ⟨33, _⟩ => ⟨S600000, .i32⟩
  | .hbm, ⟨34, _⟩ => ⟨S600000, .i32⟩
  | .hbm, ⟨35, _⟩ => ⟨S600000, .i32⟩
  | .hbm, ⟨36, _⟩ => ⟨S_, .i32⟩
  | .hbm, ⟨37, _⟩ => ⟨S600000, .i32⟩
  | .hbm, ⟨38, _⟩ => ⟨S600000, .i1⟩
  | .hbm, ⟨39, _⟩ => ⟨S_, .i32⟩
  | .hbm, ⟨40, _⟩ => ⟨S600000, .i32⟩
  | .hbm, ⟨41, _⟩ => ⟨S600000, .i32⟩
  | .hbm, ⟨42, _⟩ => ⟨S600000, .i32⟩
  | .hbm, ⟨43, _⟩ => ⟨S600000x1, .i32⟩
  | .hbm, ⟨44, _⟩ => ⟨S1, .i32⟩
  | .hbm, ⟨45, _⟩ => ⟨S_, .i32⟩
  | .hbm, ⟨46, _⟩ => ⟨S600000x1, .i32⟩
  | .hbm, ⟨47, _⟩ => ⟨S600000x1, .i1⟩
  | .hbm, ⟨48, _⟩ => ⟨S1x1, .i32⟩
  | .hbm, ⟨49, _⟩ => ⟨S600000x1, .i32⟩
  | .hbm, ⟨50, _⟩ => ⟨S600000x1, .i1⟩
  | .hbm, ⟨51, _⟩ => ⟨S600000x1, .i1⟩
  | .hbm, ⟨52, _⟩ => ⟨S_, .i1⟩
  | .hbm, ⟨53, _⟩ => ⟨S600000, .i1⟩
  | .hbm, ⟨54, _⟩ => ⟨S600000x128, .f32⟩
  | .hbm, ⟨55, _⟩ => ⟨S600000x128, .i1⟩
  | .hbm, ⟨56, _⟩ => ⟨S_, .f32⟩
  | .hbm, ⟨57, _⟩ => ⟨S600000x128, .f32⟩
  | .hbm, ⟨58, _⟩ => ⟨S600000x128, .f32⟩
  | .hbm, ⟨59, _⟩ => ⟨S800000, .f32⟩
  | .hbm, ⟨60, _⟩ => ⟨S_, .i32⟩
  | .hbm, ⟨61, _⟩ => ⟨S600000, .i32⟩
  | .hbm, ⟨62, _⟩ => ⟨S600000, .i32⟩
  | .hbm, ⟨63, _⟩ => ⟨S600000, .i32⟩
  | .hbm, ⟨64, _⟩ => ⟨S_, .i32⟩
  | .hbm, ⟨65, _⟩ => ⟨S600000, .i32⟩
  | .hbm, ⟨66, _⟩ => ⟨S600000, .i1⟩
  | .hbm, ⟨67, _⟩ => ⟨S_, .i32⟩
  | .hbm, ⟨68, _⟩ => ⟨S600000, .i32⟩
  | .hbm, ⟨69, _⟩ => ⟨S600000, .i32⟩
  | .hbm, ⟨70, _⟩ => ⟨S600000, .i32⟩
  | .hbm, ⟨71, _⟩ => ⟨S600000x1, .i32⟩
  | .hbm, ⟨72, _⟩ => ⟨S1, .i32⟩
  | .hbm, ⟨73, _⟩ => ⟨S_, .i32⟩
  | .hbm, ⟨74, _⟩ => ⟨S600000x1, .i32⟩
  | .hbm, ⟨75, _⟩ => ⟨S600000x1, .i1⟩
  | .hbm, ⟨76, _⟩ => ⟨S1x1, .i32⟩
  | .hbm, ⟨77, _⟩ => ⟨S600000x1, .i32⟩
  | .hbm, ⟨78, _⟩ => ⟨S600000x1, .i1⟩
  | .hbm, ⟨79, _⟩ => ⟨S600000x1, .i1⟩
  | .hbm, ⟨80, _⟩ => ⟨S_, .i1⟩
  | .hbm, ⟨81, _⟩ => ⟨S600000, .i1⟩
  | .hbm, ⟨82, _⟩ => ⟨S600000, .f32⟩
  | .hbm, ⟨83, _⟩ => ⟨S_, .f32⟩
  | .hbm, ⟨84, _⟩ => ⟨S600000, .f32⟩
  | .hbm, ⟨85, _⟩ => ⟨S600000, .f32⟩
  | .hbm, ⟨86, _⟩ => ⟨S_, .f32⟩
  | .hbm, ⟨87, _⟩ => ⟨S600000, .f32⟩
  | .hbm, ⟨88, _⟩ => ⟨S600000, .f32⟩
  | .hbm, ⟨89, _⟩ => ⟨S_, .f32⟩
  | .hbm, ⟨90, _⟩ => ⟨S600000, .f32⟩
  | .hbm, ⟨91, _⟩ => ⟨S600000, .f32⟩
  | .hbm, ⟨92, _⟩ => ⟨S600000x1, .f32⟩
  | .hbm, ⟨93, _⟩ => ⟨S600000x128, .f32⟩
  | .hbm, ⟨94, _⟩ => ⟨S600000x128, .f32⟩
  | .hbm, ⟨95, _⟩ => ⟨S_, .f32⟩
  | .hbm, ⟨96, _⟩ => ⟨S100000x128, .f32⟩
  | .hbm, ⟨97, _⟩ => ⟨S600000x1, .i32⟩
  | .hbm, ⟨98, _⟩ => ⟨S100000x128, .f32⟩
  | .hbm, ⟨99, _⟩ => ⟨S100000x128, .f32⟩
  | .hbm, ⟨100, _⟩ => ⟨S_, .f32⟩
  | .hbm, ⟨101, _⟩ => ⟨S100000x128, .f32⟩
  | .hbm, ⟨102, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x1152, .f32⟩
  | .local _ .vmem, ⟨3, _⟩ => ⟨S2000x1152, .f32⟩
  | .local _ .vmem, ⟨4, _⟩ => ⟨S2000x1152, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v23 : Ref sig .tc := ⟨.hbm, 58, rfl⟩
abbrev main_v24 : Ref sig .tc := ⟨.hbm, 59, rfl⟩
abbrev main_c_0 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_c_1 : Ref sig .tc := ⟨.hbm, 72, rfl⟩
abbrev main_call2_c_2 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_c_3 : Ref sig .tc := ⟨.hbm, 80, rfl⟩
abbrev main_call2_v12 : Ref sig .tc := ⟨.hbm, 81, rfl⟩
abbrev main_call2_v13 : Ref sig .tc := ⟨.hbm, 82, rfl⟩
abbrev main_call2_cst : Ref sig .tc := ⟨.hbm, 83, rfl⟩
abbrev main_call2_v14 : Ref sig .tc := ⟨.hbm, 84, rfl⟩
abbrev main_v28 : Ref sig .tc := ⟨.hbm, 85, rfl⟩
abbrev main_cst_1 : Ref sig .tc := ⟨.hbm, 86, rfl⟩
abbrev main_v29 : Ref sig .tc := ⟨.hbm, 87, rfl⟩
abbrev main_v30 : Ref sig .tc := ⟨.hbm, 88, rfl⟩
abbrev main_cst_2 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_cst_3 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_call3_cst : Ref sig .tc := ⟨.hbm, 100, rfl⟩
abbrev main_call3_v0 : Ref sig .tc := ⟨.hbm, 101, rfl⟩
abbrev main_v40 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S128x128_S1x128x128_1_2 : S128x128.BroadcastsInDim S1x128x128 (![1, 2] : Fin 2 → Fin S1x128x128.rank)
  concatenates_S1x128x128_S8x128x128_S9x128x128_d0 : Shape.Concatenates [S1x128x128, S8x128x128] S9x128x128 0
  transposes_S9x128x128_S128x9x128_1_0_2 : S9x128x128.Transposes [1, 0, 2] S128x9x128
  shapeCasts_S128x9x128_S128x1152 : S128x9x128.ShapeCasts S128x1152
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x1152_S128x1152_0_0 : ∀ a, (![0, 0] : Fin 2 → Nat) a + S128x1152.size a ≤ S128x1152.size a
  h_S128x1152 : 0 < S128x1152.numel
  shapeCasts_S128x1152_S128x1152 : S128x1152.ShapeCasts S128x1152
  inb_S2000x1152_S2000x1152_0_0 : ∀ a, (![0, 0] : Fin 2 → Nat) a + S2000x1152.size a ≤ S2000x1152.size a
  h_S2000x1152 : 0 < S2000x1152.numel
  slices_S100000x1152_S100000x128_0_0 : S100000x1152.Slices ![0, 0] S100000x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S100000x1152_S100000x1024_0_128 : S100000x1152.Slices ![0, 128] S100000x1024
  shapeCasts_S100000x1024_S100000x8x128 : S100000x1024.ShapeCasts S100000x8x128
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S600000_S600000x1_0 : S600000.BroadcastsInDim S600000x1 (![0] : Fin 1 → Fin S600000x1.rank)
  bcast_S600000x1_S600000x8_0_1 : S600000x1.BroadcastsInDim S600000x8 (![0, 1] : Fin 2 → Fin S600000x8.rank)
  bcast_S1x8_S600000x8_0_1 : S1x8.BroadcastsInDim S600000x8 (![0, 1] : Fin 2 → Fin S600000x8.rank)
  bcast_S_S100000x8 : S_.BroadcastsInDim S100000x8 (![] : Fin 0 → Fin S100000x8.rank)
  shapeCasts_S100000x8x128_S800000x128 : S100000x8x128.ShapeCasts S800000x128
  bcast_S_S600000 : S_.BroadcastsInDim S600000 (![] : Fin 0 → Fin S600000.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  shapeCasts_S100000x8_S800000 : S100000x8.ShapeCasts S800000
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  dot_S2000x128_S128x1152_S2000x1152_1_0_0_1_n_n_wf : DotDims.WF S2000x128 S128x1152 S2000x1152 [1] [0] [0] [1] [] []
  scatter_S100000x8_S600000x1_S600000x8_1_0_0_1_wf : ScatterDims.WF S100000x8 S600000x1 S600000x8 [1] [0] [0] 1
  gather_S800000x128_S600000x1_S600000x128_1_0_n_n_0_1_1128_wf : GatherDims.WF S800000x128 S600000x1 S600000x128 [1] [0] [] [0] [] 1 ![1, 128]
  gather_S800000_S600000x1_S600000_n_0_n_n_0_1_1_wf : GatherDims.WF S800000 S600000x1 S600000 [] [0] [] [0] [] 1 ![1]
  scatter_S100000x128_S600000x1_S600000x128_1_0_0_1_wf : ScatterDims.WF S100000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1152.size a ≤ S128x1152.size a
  hwx0_1 : ∀ i : grid0.Coords, EltTy.bits .f32 = 32 ∨ (Rect.block (s := S128x1152) S128x1152.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1152.size a ≤ S100000x1152.size a
  hwx0_2 : ∀ i : grid0.Coords, EltTy.bits .f32 = 32 ∨ (Rect.block (s := S100000x1152) S2000x1152.size (cc0_transform_2 i) (hinb0_2 i)).WholeWords (EltTy.packing .f32)

variable [Facts₀]

def dot_S2000x128_S128x1152_S2000x1152_1_0_0_1_n_n : DotDims S2000x128 S128x1152 S2000x1152 where
  lhsContracting := [1]
  rhsContracting := [0]
  lhsNonContracting := [0]
  rhsNonContracting := [1]
  lhsBatch := []
  rhsBatch := []
  wf := dot_S2000x128_S128x1152_S2000x1152_1_0_0_1_n_n_wf
def scatter_S100000x8_S600000x1_S600000x8_1_0_0_1 : ScatterDims S100000x8 S600000x1 S600000x8 where
  updateWindowDims := [1]
  insertedWindowDims := [0]
  scatterDimsToOperandDims := [0]
  indexVectorDim := 1
  wf := scatter_S100000x8_S600000x1_S600000x8_1_0_0_1_wf
def gather_S800000x128_S600000x1_S600000x128_1_0_n_n_0_1_1128 : GatherDims S800000x128 S600000x1 S600000x128 where
  offsetDims := [1]
  collapsedSliceDims := [0]
  operandBatchingDims := []
  startIndicesBatchingDims := []
  startIndexMap := [0]
  indexVectorDim := 1
  sliceSizes := ![1, 128]
  wf := gather_S800000x128_S600000x1_S600000x128_1_0_n_n_0_1_1128_wf
def gather_S800000_S600000x1_S600000_n_0_n_n_0_1_1 : GatherDims S800000 S600000x1 S600000 where
  offsetDims := []
  collapsedSliceDims := [0]
  operandBatchingDims := []
  startIndicesBatchingDims := []
  startIndexMap := [0]
  indexVectorDim := 1
  sliceSizes := ![1]
  wf := gather_S800000_S600000x1_S600000_n_0_n_n_0_1_1_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x1152.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x1152.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S600000 : Shape := ⟨1, ![600000]⟩
abbrev S8x128x128 : Shape := ⟨3, ![8, 128, 128]⟩
abbrev S128x128 : Shape := ⟨2, ![128, 128]⟩
abbrev S128 : Shape := ⟨1, ![128]⟩
abbrev S1x600000 : Shape := ⟨2, ![1, 600000]⟩
abbrev S1x128 : Shape := ⟨2, ![1, 128]⟩
abbrev S1x128x128 : Shape := ⟨3, ![1, 128, 128]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩

abbrev nBuf : Space → Nat
  | .hbm => 297
  | .vmem => 0
  | .smem => 0
  | _ => 0

abbrev hbmTy0_0 (i : Nat) : BufTy := match i % 128 with
  | 0 => ⟨S100000x128, .f32⟩
  | 1 => ⟨S2x600000, .i32⟩
  | 2 => ⟨S600000, .i32⟩
  | 3 => ⟨S8x128x128, .f32⟩
  | 4 => ⟨S128x128, .f32⟩
  | 5 => ⟨S128, .f32⟩
  | 6 => ⟨S1x600000, .i32⟩
  | 7 => ⟨S600000, .i32⟩
  | 8 => ⟨S1x600000, .i32⟩
  | 9 => ⟨S600000, .i32⟩
  | 10 => ⟨S100000x128, .f32⟩
  | 11 => ⟨S1x128, .f32⟩
  | 12 => ⟨S100000x128, .f32⟩
  | 13 => ⟨S100000x128, .f32⟩
  | 14 => ⟨S1x128x128, .f32⟩
  | 15 => ⟨S128x128, .f32⟩
  | 16 => ⟨S100000x128, .f32⟩
  | 17 => ⟨S_, .i32⟩
  | 18 => ⟨S600000, .i32⟩
  | 19 => ⟨S600000, .i1⟩
  | 20 => ⟨S_, .i32⟩
  | 21 => ⟨S600000, .i32⟩
  | 22 => ⟨S600000, .i1⟩
  | 23 => ⟨S_, .i32⟩
  | 24 => ⟨S600000, .i32⟩
  | 25 => ⟨S600000, .i32⟩
  | 26 => ⟨S600000, .i32⟩
  | 27 => ⟨S600000x1, .i32⟩
  | 28 => ⟨S600000x128, .f32⟩
  | 29 => ⟨S600000x1, .i1⟩
  | 30 => ⟨S600000x1, .f32⟩
  | 31 => ⟨S600000x128, .f32⟩
  | 32 => ⟨S600000x128, .f32⟩
  | 33 => ⟨S_, .f32⟩
  | 34 => ⟨S100000x128, .f32⟩
  | 35 => ⟨S600000x1, .i32⟩
  | 36 => ⟨S100000x128, .f32⟩
  | 37 => ⟨S600000, .f32⟩
  | 38 => ⟨S_, .f32⟩
  | 39 => ⟨S100000, .f32⟩
  | 40 => ⟨S600000x1, .i32⟩
  | 41 => ⟨S100000, .f32⟩
  | 42 => ⟨S_, .f32⟩
  | 43 => ⟨S100000, .f32⟩
  | 44 => ⟨S100000, .f32⟩
  | 45 => ⟨S100000x1, .f32⟩
  | 46 => ⟨S100000x128, .f32⟩
  | 47 => ⟨S100000x128, .f32⟩
  | 48 => ⟨S100000x128, .f32⟩
  | 49 => ⟨S1x128x128, .f32⟩
  | 50 => ⟨S128x128, .f32⟩
  | 51 => ⟨S100000x128, .f32⟩
  | 52 => ⟨S_, .i32⟩
  | 53 => ⟨S600000, .i32⟩
  | 54 => ⟨S600000, .i1⟩
  | 55 => ⟨S_, .i32⟩
  | 56 => ⟨S600000, .i32⟩
  | 57 => ⟨S600000, .i1⟩
  | 58 => ⟨S_, .i32⟩
  | 59 => ⟨S600000, .i32⟩
  | 60 => ⟨S600000, .i32⟩
  | 61 => ⟨S600000, .i32⟩
  | 62 => ⟨S600000x1, .i32⟩
  | 63 => ⟨S600000x128, .f32⟩
  | 64 => ⟨S600000x1, .i1⟩
  | 65 => ⟨S600000x1, .f32⟩
  | 66 => ⟨S600000x128, .f32⟩
  | 67 => ⟨S600000x128, .f32⟩
  | 68 => ⟨S_, .f32⟩
  | 69 => ⟨S100000x128, .f32⟩
  | 70 => ⟨S600000x1, .i32⟩
  | 71 => ⟨S100000x128, .f32⟩
  | 72 => ⟨S600000, .f32⟩
  | 73 => ⟨S_, .f32⟩
  | 74 => ⟨S100000, .f32⟩
  | 75 => ⟨S600000x1, .i32⟩
  | 76 => ⟨S100000, .f32⟩
  | 77 => ⟨S_, .f32⟩
  | 78 => ⟨S100000, .f32⟩
  | 79 => ⟨S100000, .f32⟩
  | 80 => ⟨S100000x1, .f32⟩
  | 81 => ⟨S100000x128, .f32⟩
  | 82 => ⟨S100000x128, .f32⟩
  | 83 => ⟨S100000x128, .f32⟩
  | 84 => ⟨S1x128x128, .f32⟩
  | 85 => ⟨S128x128, .f32⟩
  | 86 => ⟨S100000x128, .f32⟩
  | 87 => ⟨S_, .i32⟩
  | 88 => ⟨S600000, .i32⟩
  | 89 => ⟨S600000, .i1⟩
  | 90 => ⟨S_, .i32⟩
  | 91 => ⟨S600000, .i32⟩
  | 92 => ⟨S600000, .i1⟩
  | 93 => ⟨S_, .i32⟩
  | 94 => ⟨S600000, .i32⟩
  | 95 => ⟨S600000, .i32⟩
  | 96 => ⟨S600000, .i32⟩
  | 97 => ⟨S600000x1, .i32⟩
  | 98 => ⟨S600000x128, .f32⟩
  | 99 => ⟨S600000x1, .i1⟩
  | 100 => ⟨S600000x1, .f32⟩
  | 101 => ⟨S600000x128, .f32⟩
  | 102 => ⟨S600000x128, .f32⟩
  | 103 => ⟨S_, .f32⟩
  | 104 => ⟨S100000x128, .f32⟩
  | 105 => ⟨S600000x1, .i32⟩
  | 106 => ⟨S100000x128, .f32⟩
  | 107 => ⟨S600000, .f32⟩
  | 108 => ⟨S_, .f32⟩
  | 109 => ⟨S100000, .f32⟩
  | 110 => ⟨S600000x1, .i32⟩
  | 111 => ⟨S100000, .f32⟩
  | 112 => ⟨S_, .f32⟩
  | 113 => ⟨S100000, .f32⟩
  | 114 => ⟨S100000, .f32⟩
  | 115 => ⟨S100000x1, .f32⟩
  | 116 => ⟨S100000x128, .f32⟩
  | 117 => ⟨S100000x128, .f32⟩
  | 118 => ⟨S100000x128, .f32⟩
  | 119 => ⟨S1x128x128, .f32⟩
  | 120 => ⟨S128x128, .f32⟩
  | 121 => ⟨S100000x128, .f32⟩
  | 122 => ⟨S_, .i32⟩
  | 123 => ⟨S600000, .i32⟩
  | 124 => ⟨S600000, .i1⟩
  | 125 => ⟨S_, .i32⟩
  | 126 => ⟨S600000, .i32⟩
  | 127 => ⟨S600000, .i1⟩
  | _ => ⟨S100000x128, .f32⟩

abbrev hbmTy0_1 (i : Nat) : BufTy := match i % 128 with
  | 0 => ⟨S_, .i32⟩
  | 1 => ⟨S600000, .i32⟩
  | 2 => ⟨S600000, .i32⟩
  | 3 => ⟨S600000, .i32⟩
  | 4 => ⟨S600000x1, .i32⟩
  | 5 => ⟨S600000x128, .f32⟩
  | 6 => ⟨S600000x1, .i1⟩
  | 7 => ⟨S600000x1, .f32⟩
  | 8 => ⟨S600000x128, .f32⟩
  | 9 => ⟨S600000x128, .f32⟩
  | 10 => ⟨S_, .f32⟩
  | 11 => ⟨S100000x128, .f32⟩
  | 12 => ⟨S600000x1, .i32⟩
  | 13 => ⟨S100000x128, .f32⟩
  | 14 => ⟨S600000, .f32⟩
  | 15 => ⟨S_, .f32⟩
  | 16 => ⟨S100000, .f32⟩
  | 17 => ⟨S600000x1, .i32⟩
  | 18 => ⟨S100000, .f32⟩
  | 19 => ⟨S_, .f32⟩
  | 20 => ⟨S100000, .f32⟩
  | 21 => ⟨S100000, .f32⟩
  | 22 => ⟨S100000x1, .f32⟩
  | 23 => ⟨S100000x128, .f32⟩
  | 24 => ⟨S100000x128, .f32⟩
  | 25 => ⟨S100000x128, .f32⟩
  | 26 => ⟨S1x128x128, .f32⟩
  | 27 => ⟨S128x128, .f32⟩
  | 28 => ⟨S100000x128, .f32⟩
  | 29 => ⟨S_, .i32⟩
  | 30 => ⟨S600000, .i32⟩
  | 31 => ⟨S600000, .i1⟩
  | 32 => ⟨S_, .i32⟩
  | 33 => ⟨S600000, .i32⟩
  | 34 => ⟨S600000, .i1⟩
  | 35 => ⟨S_, .i32⟩
  | 36 => ⟨S600000, .i32⟩
  | 37 => ⟨S600000, .i32⟩
  | 38 => ⟨S600000, .i32⟩
  | 39 => ⟨S600000x1, .i32⟩
  | 40 => ⟨S600000x128, .f32⟩
  | 41 => ⟨S600000x1, .i1⟩
  | 42 => ⟨S600000x1, .f32⟩
  | 43 => ⟨S600000x128, .f32⟩
  | 44 => ⟨S600000x128, .f32⟩
  | 45 => ⟨S_, .f32⟩
  | 46 => ⟨S100000x128, .f32⟩
  | 47 => ⟨S600000x1, .i32⟩
  | 48 => ⟨S100000x128, .f32⟩
  | 49 => ⟨S600000, .f32⟩
  | 50 => ⟨S_, .f32⟩
  | 51 => ⟨S100000, .f32⟩
  | 52 => ⟨S600000x1, .i32⟩
  | 53 => ⟨S100000, .f32⟩
  | 54 => ⟨S_, .f32⟩
  | 55 => ⟨S100000, .f32⟩
  | 56 => ⟨S100000, .f32⟩
  | 57 => ⟨S100000x1, .f32⟩
  | 58 => ⟨S100000x128, .f32⟩
  | 59 => ⟨S100000x128, .f32⟩
  | 60 => ⟨S100000x128, .f32⟩
  | 61 => ⟨S1x128x128, .f32⟩
  | 62 => ⟨S128x128, .f32⟩
  | 63 => ⟨S100000x128, .f32⟩
  | 64 => ⟨S_, .i32⟩
  | 65 => ⟨S600000, .i32⟩
  | 66 => ⟨S600000, .i1⟩
  | 67 => ⟨S_, .i32⟩
  | 68 => ⟨S600000, .i32⟩
  | 69 => ⟨S600000, .i1⟩
  | 70 => ⟨S_, .i32⟩
  | 71 => ⟨S600000, .i32⟩
  | 72 => ⟨S600000, .i32⟩
  | 73 => ⟨S600000, .i32⟩
  | 74 => ⟨S600000x1, .i32⟩
  | 75 => ⟨S600000x128, .f32⟩
  | 76 => ⟨S600000x1, .i1⟩
  | 77 => ⟨S600000x1, .f32⟩
  | 78 => ⟨S600000x128, .f32⟩
  | 79 => ⟨S600000x128, .f32⟩
  | 80 => ⟨S_, .f32⟩
  | 81 => ⟨S100000x128, .f32⟩
  | 82 => ⟨S600000x1, .i32⟩
  | 83 => ⟨S100000x128, .f32⟩
  | 84 => ⟨S600000, .f32⟩
  | 85 => ⟨S_, .f32⟩
  | 86 => ⟨S100000, .f32⟩
  | 87 => ⟨S600000x1, .i32⟩
  | 88 => ⟨S100000, .f32⟩
  | 89 => ⟨S_, .f32⟩
  | 90 => ⟨S100000, .f32⟩
  | 91 => ⟨S100000, .f32⟩
  | 92 => ⟨S100000x1, .f32⟩
  | 93 => ⟨S100000x128, .f32⟩
  | 94 => ⟨S100000x128, .f32⟩
  | 95 => ⟨S100000x128, .f32⟩
  | 96 => ⟨S1x128x128, .f32⟩
  | 97 => ⟨S128x128, .f32⟩
  | 98 => ⟨S100000x128, .f32⟩
  | 99 => ⟨S_, .i32⟩
  | 100 => ⟨S600000, .i32⟩
  | 101 => ⟨S600000, .i1⟩
  | 102 => ⟨S_, .i32⟩
  | 103 => ⟨S600000, .i32⟩
  | 104 => ⟨S600000, .i1⟩
  | 105 => ⟨S_, .i32⟩
  | 106 => ⟨S600000, .i32⟩
  | 107 => ⟨S600000, .i32⟩
  | 108 => ⟨S600000, .i32⟩
  | 109 => ⟨S600000x1, .i32⟩
  | 110 => ⟨S600000x128, .f32⟩
  | 111 => ⟨S600000x1, .i1⟩
  | 112 => ⟨S600000x1, .f32⟩
  | 113 => ⟨S600000x128, .f32⟩
  | 114 => ⟨S600000x128, .f32⟩
  | 115 => ⟨S_, .f32⟩
  | 116 => ⟨S100000x128, .f32⟩
  | 117 => ⟨S600000x1, .i32⟩
  | 118 => ⟨S100000x128, .f32⟩
  | 119 => ⟨S600000, .f32⟩
  | 120 => ⟨S_, .f32⟩
  | 121 => ⟨S100000, .f32⟩
  | 122 => ⟨S600000x1, .i32⟩
  | 123 => ⟨S100000, .f32⟩
  | 124 => ⟨S_, .f32⟩
  | 125 => ⟨S100000, .f32⟩
  | 126 => ⟨S100000, .f32⟩
  | 127 => ⟨S100000x1, .f32⟩
  | _ => ⟨S100000x128, .f32⟩

abbrev hbmTy0_2 (i : Nat) : BufTy := match i % 128 with
  | 0 => ⟨S100000x128, .f32⟩
  | 1 => ⟨S100000x128, .f32⟩
  | 2 => ⟨S100000x128, .f32⟩
  | 3 => ⟨S1x128x128, .f32⟩
  | 4 => ⟨S128x128, .f32⟩
  | 5 => ⟨S100000x128, .f32⟩
  | 6 => ⟨S_, .i32⟩
  | 7 => ⟨S600000, .i32⟩
  | 8 => ⟨S600000, .i1⟩
  | 9 => ⟨S_, .i32⟩
  | 10 => ⟨S600000, .i32⟩
  | 11 => ⟨S600000, .i1⟩
  | 12 => ⟨S_, .i32⟩
  | 13 => ⟨S600000, .i32⟩
  | 14 => ⟨S600000, .i32⟩
  | 15 => ⟨S600000, .i32⟩
  | 16 => ⟨S600000x1, .i32⟩
  | 17 => ⟨S600000x128, .f32⟩
  | 18 => ⟨S600000x1, .i1⟩
  | 19 => ⟨S600000x1, .f32⟩
  | 20 => ⟨S600000x128, .f32⟩
  | 21 => ⟨S600000x128, .f32⟩
  | 22 => ⟨S_, .f32⟩
  | 23 => ⟨S100000x128, .f32⟩
  | 24 => ⟨S600000x1, .i32⟩
  | 25 => ⟨S100000x128, .f32⟩
  | 26 => ⟨S600000, .f32⟩
  | 27 => ⟨S_, .f32⟩
  | 28 => ⟨S100000, .f32⟩
  | 29 => ⟨S600000x1, .i32⟩
  | 30 => ⟨S100000, .f32⟩
  | 31 => ⟨S_, .f32⟩
  | 32 => ⟨S100000, .f32⟩
  | 33 => ⟨S100000, .f32⟩
  | 34 => ⟨S100000x1, .f32⟩
  | 35 => ⟨S100000x128, .f32⟩
  | 36 => ⟨S100000x128, .f32⟩
  | 37 => ⟨S100000x128, .f32⟩
  | 38 => ⟨S_, .f32⟩
  | 39 => ⟨S100000x128, .f32⟩
  | 40 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c_4 : Ref sig .tc := ⟨.hbm, 52, rfl⟩
abbrev main_v40 : Ref sig .tc := ⟨.hbm, 53, rfl⟩
abbrev main_v41 : Ref sig .tc := ⟨.hbm, 54, rfl⟩
abbrev main_c_5 : Ref sig .tc := ⟨.hbm, 55, rfl⟩
abbrev main_v42 : Ref sig .tc := ⟨.hbm, 56, rfl⟩
abbrev main_v43 : Ref sig .tc := ⟨.hbm, 57, rfl⟩
abbrev main_c_6 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_7 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_8 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_9 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_c_10 : Ref sig .tc := ⟨.hbm, 87, rfl⟩
abbrev main_v69 : Ref sig .tc := ⟨.hbm, 88, rfl⟩
abbrev main_v70 : Ref sig .tc := ⟨.hbm, 89, rfl⟩
abbrev main_c_11 : Ref sig .tc := ⟨.hbm, 90, rfl⟩
abbrev main_v71 : Ref sig .tc := ⟨.hbm, 91, rfl⟩
abbrev main_v72 : Ref sig .tc := ⟨.hbm, 92, rfl⟩
abbrev main_c_12 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_13 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_cst_14 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_cst_15 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_c_16 : Ref sig .tc := ⟨.hbm, 122, rfl⟩
abbrev main_v98 : Ref sig .tc := ⟨.hbm, 123, rfl⟩
abbrev main_v99 : Ref sig .tc := ⟨.hbm, 124, rfl⟩
abbrev main_c_17 : Ref sig .tc := ⟨.hbm, 125, rfl⟩
abbrev main_v100 : Ref sig .tc := ⟨.hbm, 126, rfl⟩
abbrev main_v101 : Ref sig .tc := ⟨.hbm, 127, rfl⟩
abbrev main_c_18 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_cst_19 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_cst_20 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_cst_21 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_c_22 : Ref sig .tc := ⟨.hbm, 157, rfl⟩
abbrev main_v127 : Ref sig .tc := ⟨.hbm, 158, rfl⟩
abbrev main_v128 : Ref sig .tc := ⟨.hbm, 159, rfl⟩
abbrev main_c_23 : Ref sig .tc := ⟨.hbm, 160, rfl⟩
abbrev main_v129 : Ref sig .tc := ⟨.hbm, 161, rfl⟩
abbrev main_v130 : Ref sig .tc := ⟨.hbm, 162, rfl⟩
abbrev main_c_24 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_cst_25 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_cst_26 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_cst_27 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_c_28 : Ref sig .tc := ⟨.hbm, 192, rfl⟩
abbrev main_v156 : Ref sig .tc := ⟨.hbm, 193, rfl⟩
abbrev main_v157 : Ref sig .tc := ⟨.hbm, 194, rfl⟩
abbrev main_c_29 : Ref sig .tc := ⟨.hbm, 195, rfl⟩
abbrev main_v158 : Ref sig .tc := ⟨.hbm, 196, rfl⟩
abbrev main_v159 : Ref sig .tc := ⟨.hbm, 197, rfl⟩
abbrev main_c_30 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_cst_31 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_cst_32 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_cst_33 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_c_34 : Ref sig .tc := ⟨.hbm, 227, rfl⟩
abbrev main_v185 : Ref sig .tc := ⟨.hbm, 228, rfl⟩
abbrev main_v186 : Ref sig .tc := ⟨.hbm, 229, rfl⟩
abbrev main_c_35 : Ref sig .tc := ⟨.hbm, 230, rfl⟩
abbrev main_v187 : Ref sig .tc := ⟨.hbm, 231, rfl⟩
abbrev main_v188 : Ref sig .tc := ⟨.hbm, 232, rfl⟩
abbrev main_c_36 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_cst_37 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_cst_38 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_cst_39 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_v209 : Ref sig .tc := ⟨.hbm, 257, rfl⟩
abbrev main_v210 : Ref sig .tc := ⟨.hbm, 258, rfl⟩
abbrev main_v211 : Ref sig .tc := ⟨.hbm, 259, rfl⟩
abbrev main_v212 : Ref sig .tc := ⟨.hbm, 260, rfl⟩
abbrev main_v213 : Ref sig .tc := ⟨.hbm, 261, rfl⟩
abbrev main_c_40 : Ref sig .tc := ⟨.hbm, 262, rfl⟩
abbrev main_v214 : Ref sig .tc := ⟨.hbm, 263, rfl⟩
abbrev main_v215 : Ref sig .tc := ⟨.hbm, 264, rfl⟩
abbrev main_c_41 : Ref sig .tc := ⟨.hbm, 265, rfl⟩
abbrev main_v216 : Ref sig .tc := ⟨.hbm, 266, rfl⟩
abbrev main_v217 : Ref sig .tc := ⟨.hbm, 267, rfl⟩
abbrev main_c_42 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_v224 : Ref sig .tc := ⟨.hbm, 275, rfl⟩
abbrev main_v225 : Ref sig .tc := ⟨.hbm, 276, rfl⟩
abbrev main_v226 : Ref sig .tc := ⟨.hbm, 277, rfl⟩
abbrev main_cst_43 : Ref sig .tc := ⟨.hbm, 278, rfl⟩
abbrev main_v227 : Ref sig .tc := ⟨.hbm, 279, rfl⟩
abbrev main_v228 : Ref sig .tc := ⟨.hbm, 280, rfl⟩
abbrev main_v229 : Ref sig .tc := ⟨.hbm, 281, rfl⟩
abbrev main_v230 : Ref sig .tc := ⟨.hbm, 282, rfl⟩
abbrev main_cst_44 : Ref sig .tc := ⟨.hbm, 283, rfl⟩
abbrev main_v231 : Ref sig .tc := ⟨.hbm, 284, rfl⟩
abbrev main_v232 : Ref sig .tc := ⟨.hbm, 285, rfl⟩
abbrev main_v233 : Ref sig .tc := ⟨.hbm, 286, rfl⟩
abbrev main_cst_45 : Ref sig .tc := ⟨.hbm, 287, rfl⟩
abbrev main_v234 : Ref sig .tc := ⟨.hbm, 288, rfl⟩
abbrev main_v235 : Ref sig .tc := ⟨.hbm, 289, rfl⟩
abbrev main_v236 : Ref sig .tc := ⟨.hbm, 290, rfl⟩
abbrev main_v237 : Ref sig .tc := ⟨.hbm, 291, rfl⟩
abbrev main_v238 : Ref sig .tc := ⟨.hbm, 292, rfl⟩
abbrev main_v239 : Ref sig .tc := ⟨.hbm, 293, rfl⟩
abbrev main_call0_cst : Ref sig .tc := ⟨.hbm, 294, rfl⟩
abbrev main_call0_v0 : Ref sig .tc := ⟨.hbm, 295, rfl⟩
abbrev main_v240 : Ref sig .tc := ⟨.hbm, 296, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S8x128x128_S1x128x128_0_0_0 : S8x128x128.Slices ![0, 0, 0] S1x128x128
  shapeCasts_S1x128x128_S128x128 : S1x128x128.ShapeCasts S128x128
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S8x128x128_S1x128x128_1_0_0 : S8x128x128.Slices ![1, 0, 0] S1x128x128
  slices_S8x128x128_S1x128x128_2_0_0 : S8x128x128.Slices ![2, 0, 0] S1x128x128
  slices_S8x128x128_S1x128x128_3_0_0 : S8x128x128.Slices ![3, 0, 0] S1x128x128
  slices_S8x128x128_S1x128x128_4_0_0 : S8x128x128.Slices ![4, 0, 0] S1x128x128
  slices_S8x128x128_S1x128x128_5_0_0 : S8x128x128.Slices ![5, 0, 0] S1x128x128
  slices_S8x128x128_S1x128x128_6_0_0 : S8x128x128.Slices ![6, 0, 0] S1x128x128
  slices_S8x128x128_S1x128x128_7_0_0 : S8x128x128.Slices ![7, 0, 0] S1x128x128
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf

class Facts : Prop extends Facts₀ where

variable [Facts]
-- ==== Proof.KernelFrame.lean ====
/- The frame run of the kernel program, at any float instance: @main is four host operations, one pipelined
   matmul region over a grid of fifty points, and ninety-two further host operations in eight stretches. This module
   proves that every weakly fair execution of @main terminates without fault, with every array of the pipeline at what
   the proof data compute and every other unscoped buffer at what the later host operations leave, and from it that
   the six argument arrays end as launched. -/
import proofs.«418642_j27049704030600_1_alg».proof.Proof.Gen.Kernel.Launch
import proofs.«418642_j27049704030600_1_alg».proof.Proof.Gen.Kernel.Skeleton
import proofs.«418642_j27049704030600_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The eight stretches of host operations that follow the region, in order. -/
abbrev tailOps : List (List (HloOp τ sig (Elt F))) :=
  [hostOps1, hostOps1_1, hostOps1_2, hostOps1_3, hostOps1_4, hostOps1_5, hostOps1_6, hostOps1_7]

/-- Core `c`'s TensorCore buffer contents when the region is entered, as a valuation: the launch contents after the
    four host operations that precede the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-! ### No host operation allocates, and each writes exactly its result buffer -/

theorem hostOps0_fresh : (hostOps0 : List (HloOp τ sig (Elt F))).Forall fun op => op.fresh = ∅ := by
  simp only [List.Forall]; repeat' constructor
/-- The references `hostOps0`'s operations write: one result buffer each. -/
abbrev hostOps0_W : List (Ref sig .tc) := [main_v0, main_v1, main_v2, main_v3]
theorem hostOps0_writes : (hostOps0 : List (HloOp τ sig (Elt F))).Forall fun op => op.writes ⊆ (hostOps0_W.map (Proc.devRef (τ := τ) .tc)).toFinset := by
  simp only [List.Forall]
  refine ⟨?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_fresh : (hostOps1 : List (HloOp τ sig (Elt F))).Forall fun op => op.fresh = ∅ := by
  simp only [List.Forall]; repeat' constructor
/-- The references `hostOps1`'s operations write: one result buffer each. -/
abbrev hostOps1_W : List (Ref sig .tc) := [main_v5, main_v6, main_v7, main_v8, main_v9, main_v10, main_v11, main_v12, main_v13, main_v14]
theorem hostOps1_writes : (hostOps1 : List (HloOp τ sig (Elt F))).Forall fun op => op.writes ⊆ (hostOps1_W.map (Proc.devRef (τ := τ) .tc)).toFinset := by
  simp only [List.Forall]
  refine ⟨?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_1_fresh : (hostOps1_1 : List (HloOp τ sig (Elt F))).Forall fun op => op.fresh = ∅ := by
  simp only [List.Forall]; repeat' constructor
/-- The references `hostOps1_1`'s operations write: one result buffer each. -/
abbrev hostOps1_1_W : List (Ref sig .tc) := [main_call0_v0, main_call0_v1, main_call0_v2, main_call0_v3, main_call0_v4, main_v15]
theorem hostOps1_1_writes : (hostOps1_1 : List (HloOp τ sig (Elt F))).Forall fun op => op.writes ⊆ (hostOps1_1_W.map (Proc.devRef (τ := τ) .tc)).toFinset := by
  simp only [List.Forall]
  refine ⟨?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_2_fresh : (hostOps1_2 : List (HloOp τ sig (Elt F))).Forall fun op => op.fresh = ∅ := by
  simp only [List.Forall]; repeat' constructor
/-- The references `hostOps1_2`'s operations write: one result buffer each. -/
abbrev hostOps1_2_W : List (Ref sig .tc) := [main_cst, main_v16, main_v17, main_v18, main_v19, main_c, main_v20, main_v21, main_v22]
theorem hostOps1_2_writes : (hostOps1_2 : List (HloOp τ sig (Elt F))).Forall fun op => op.writes ⊆ (hostOps1_2_W.map (Proc.devRef (τ := τ) .tc)).toFinset := by
  simp only [List.Forall]
  refine ⟨?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_3_fresh : (hostOps1_3 : List (HloOp τ sig (Elt F))).Forall fun op => op.fresh = ∅ := by
  simp only [List.Forall]; repeat' constructor
/-- The references `hostOps1_3`'s operations write: one result buffer each. -/
abbrev hostOps1_3_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v23]
theorem hostOps1_3_writes : (hostOps1_3 : List (HloOp τ sig (Elt F))).Forall fun op => op.writes ⊆ (hostOps1_3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_4_fresh : (hostOps1_4 : List (HloOp τ sig (Elt F))).Forall fun op => op.fresh = ∅ := by
  simp only [List.Forall]; repeat' constructor
/-- The references `hostOps1_4`'s operations write: one result buffer each. -/
abbrev hostOps1_4_W : List (Ref sig .tc) := [main_v24, main_c_0, main_v25, main_v26, main_v27]
theorem hostOps1_4_writes : (hostOps1_4 : List (HloOp τ sig (Elt F))).Forall fun op => op.writes ⊆ (hostOps1_4_W.map (Proc.devRef (τ := τ) .tc)).toFinset := by
  simp only [List.Forall]
  refine ⟨?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_5_fresh : (hostOps1_5 : List (HloOp τ sig (Elt F))).Forall fun op => op.fresh = ∅ := by
  simp only [List.Forall]; repeat' constructor
/-- The references `hostOps1_5`'s operations write: one result buffer each. -/
abbrev hostOps1_5_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_cst, main_call2_v14, main_v28]
theorem hostOps1_5_writes : (hostOps1_5 : List (HloOp τ sig (Elt F))).Forall fun op => op.writes ⊆ (hostOps1_5_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_6_fresh : (hostOps1_6 : List (HloOp τ sig (Elt F))).Forall fun op => op.fresh = ∅ := by
  simp only [List.Forall]; repeat' constructor
/-- The references `hostOps1_6`'s operations write: one result buffer each. -/
abbrev hostOps1_6_W : List (Ref sig .tc) := [main_cst_1, main_v29, main_v30, main_cst_2, main_v31, main_v32, main_v33, main_v34, main_v35, main_cst_3, main_v36, main_v37, main_v38, main_v39]
theorem hostOps1_6_writes : (hostOps1_6 : List (HloOp τ sig (Elt F))).Forall fun op => op.writes ⊆ (hostOps1_6_W.map (Proc.devRef (τ := τ) .tc)).toFinset := by
  simp only [List.Forall]
  refine ⟨?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_7_fresh : (hostOps1_7 : List (HloOp τ sig (Elt F))).Forall fun op => op.fresh = ∅ := by
  simp only [List.Forall]; repeat' constructor
/-- The references `hostOps1_7`'s operations write: one result buffer each. -/
abbrev hostOps1_7_W : List (Ref sig .tc) := [main_call3_cst, main_call3_v0, main_v40]
theorem hostOps1_7_writes : (hostOps1_7 : List (HloOp τ sig (Elt F))).Forall fun op => op.writes ⊆ (hostOps1_7_W.map (Proc.devRef (τ := τ) .tc)).toFinset := by
  simp only [List.Forall]
  refine ⟨?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A reference outside a list holding every reference a stretch writes is written by no operation of the stretch. -/
theorem not_mem_writes_of {W : List (Ref sig .tc)} {ops : List (HloOp τ sig (Elt F))}
    (hW : ops.Forall fun op => op.writes ⊆ (W.map (Proc.devRef (τ := τ) .tc)).toFinset) {r : Ref sig .tc} (hr : r ∉ W) :
    ∀ op ∈ ops, Proc.devRef (τ := τ) .tc r ∉ op.writes := fun op hop hb => by
  obtain ⟨y, hy, he⟩ := List.mem_map.mp (List.mem_toFinset.mp ((List.forall_iff_forall_mem.mp hW) op hop hb))
  exact hr (Proc.devRef_injective _ he ▸ hy)

/-- Every reference the stretches after the region write. -/
abbrev tailW : List (Ref sig .tc) :=
  hostOps1_W ++ hostOps1_1_W ++ hostOps1_2_W ++ hostOps1_3_W ++ hostOps1_4_W ++ hostOps1_5_W ++ hostOps1_6_W ++ hostOps1_7_W

/-- A reference none of the later stretches writes is written by no operation after the region. -/
theorem tail_not_writes {r : Ref sig .tc} (hr : r ∉ tailW) :
    ∀ ops ∈ (tailOps : List (List (HloOp τ sig (Elt F)))), ∀ op ∈ ops, Proc.devRef (τ := τ) .tc r ∉ op.writes := by
  intro ops hops
  simp only [tailW, List.mem_append, not_or] at hr
  obtain ⟨⟨⟨⟨⟨⟨⟨h0, h1⟩, h2⟩, h3⟩, h4⟩, h5⟩, h6⟩, h7⟩ := hr
  simp only [tailOps, List.mem_cons, List.mem_nil_iff, or_false] at hops
  rcases hops with rfl | rfl | rfl | rfl | rfl | rfl | rfl | rfl
  · exact not_mem_writes_of hostOps1_writes h0
  · exact not_mem_writes_of hostOps1_1_writes h1
  · exact not_mem_writes_of hostOps1_2_writes h2
  · exact not_mem_writes_of hostOps1_3_writes h3
  · exact not_mem_writes_of hostOps1_4_writes h4
  · exact not_mem_writes_of hostOps1_5_writes h5
  · exact not_mem_writes_of hostOps1_6_writes h6
  · exact not_mem_writes_of hostOps1_7_writes h7

/-- @main around the region: the host operations before it, the region, the eight stretches after it; it reduces to
    the region continued by the later stretches, at the contents the earlier operations leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The operations after the region touch the pipeline's arrays and the bypassing buffers only: each operation's buffers
    are unscoped TensorCore references, and with nothing prefetched every such reference is one or the other. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
/-- And write no array of the pipeline: each writes only its own result buffer, which is none of the three arrays. -/
theorem sfx_keeps : ∀ ops ∈ (tailOps : List (List (HloOp τ sig (Elt F)))), ∀ op ∈ ops,
    ∀ w, Proc.devRef .tc (Pipeline.arrRef spec0 w) ∉ op.writes := by
  intro ops hops op hop w
  fin_cases w
  · exact tail_not_writes (r := main_arg0) (by decide) ops hops op hop
  · exact tail_not_writes (r := main_v3) (by decide) ops hops op hop
  · exact tail_not_writes (r := main_v4) (by decide) ops hops op hop

/-- No host operation before the region writes `main_arg0`: the region finds it as launched. -/
theorem V_main_arg0 (c : Dev nD) : V m c main_arg0 = m ((c : Thread nD τ).loc main_arg0) :=
  StableHlo.after_of_writes_sub (r := main_arg0) _ _ (by simp only [List.flatten_cons, List.flatten_nil, List.append_nil]; exact hostOps0_writes) (by decide)
/-- No host operation before the region writes `main_arg1`: the region finds it as launched. -/
theorem V_main_arg1 (c : Dev nD) : V m c main_arg1 = m ((c : Thread nD τ).loc main_arg1) :=
  StableHlo.after_of_writes_sub (r := main_arg1) _ _ (by simp only [List.flatten_cons, List.flatten_nil, List.append_nil]; exact hostOps0_writes) (by decide)
/-- No host operation before the region writes `main_arg2`: the region finds it as launched. -/
theorem V_main_arg2 (c : Dev nD) : V m c main_arg2 = m ((c : Thread nD τ).loc main_arg2) :=
  StableHlo.after_of_writes_sub (r := main_arg2) _ _ (by simp only [List.flatten_cons, List.flatten_nil, List.append_nil]; exact hostOps0_writes) (by decide)
/-- No host operation before the region writes `main_arg3`: the region finds it as launched. -/
theorem V_main_arg3 (c : Dev nD) : V m c main_arg3 = m ((c : Thread nD τ).loc main_arg3) :=
  StableHlo.after_of_writes_sub (r := main_arg3) _ _ (by simp only [List.flatten_cons, List.flatten_nil, List.append_nil]; exact hostOps0_writes) (by decide)
/-- No host operation before the region writes `main_arg4`: the region finds it as launched. -/
theorem V_main_arg4 (c : Dev nD) : V m c main_arg4 = m ((c : Thread nD τ).loc main_arg4) :=
  StableHlo.after_of_writes_sub (r := main_arg4) _ _ (by simp only [List.flatten_cons, List.flatten_nil, List.append_nil]; exact hostOps0_writes) (by decide)
/-- No host operation before the region writes `main_arg5`: the region finds it as launched. -/
theorem V_main_arg5 (c : Dev nD) : V m c main_arg5 = m ((c : Thread nD τ).loc main_arg5) :=
  StableHlo.after_of_writes_sub (r := main_arg5) _ _ (by simp only [List.flatten_cons, List.flatten_nil, List.append_nil]; exact hostOps0_writes) (by decide)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0 (the row block of the left operand, fetched at every point): its current staging buffer holds its
    block at every point, for any proof data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1 (the whole weight, fetched at the first point only): at a later point the block index has not moved,
    so the buffer still holds the block; the same statement. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole left-operand block, the whole weight and the whole result block, each as one unit rectangle. -/
abbrev r_x : Rect S2000x128 := Rect.unit (s := S2000x128) ![0, 0] S2000x128.size inb_S2000x128_S2000x128_0_0
abbrev r_w : Rect S128x1152 := Rect.unit (s := S128x1152) ![0, 0] S128x1152.size inb_S128x1152_S128x1152_0_0
abbrev r_out : Rect S2000x1152 := Rect.unit (s := S2000x1152) ![0, 0] S2000x1152.size inb_S2000x1152_S2000x1152_0_0

/-! ## What the body leaves in the output window's buffer -/

/-- Window 2's staging buffer after the body, from the input windows' blocks: the one store's payload (the product of
    the two loaded operands) laid over the whole buffer. -/
def out0_2 (x0 : Vec F S2000x128 .f32) (x1 : Vec F S128x1152 .f32) : Vec F S2000x1152 .f32 :=
  View.canon [⟨r_out, k0_pay1 (View.ld x0 r_x) (View.ld x1 r_w)⟩]

/-- The one store covers the buffer. -/
theorem cover0_2 (p0 : Vec F S2000x1152 .f32) (y : S2000x1152.Idx) :
    ∃ pc ∈ ([⟨r_out, p0⟩] : List (View.Piece (Elt F) S2000x1152 .f32)), y ∈ pc.1.set :=
  View.cover_of_tiled [⟨r_out, p0⟩] S2000x1152.size (by rfl) y

/-! ## The body's triple -/

set_option maxHeartbeats 1000000 in
/-- The kernel body on whole staging memrefs, the inputs' at read contents `x0`, `x1` and the output's at anything, runs to
    the continuation holding the inputs' as they were and the output's at `out0_2 x0 x1`. The body also loads the output
    buffer before storing into it; the loaded value is used nowhere, and a buffer held at some contents can be loaded. -/
theorem sound_kernel (c : Dev nD) (E : Set ℕ) (i : grid0.Coords) (arg1 : Memref sig .tc .vmem S2000x128 .f32) (harg1 : arg1.IsWhole) (arg2 : Memref sig .tc .vmem S128x1152 .f32) (harg2 : arg2.IsWhole) (arg3 : Memref sig .tc .vmem S2000x1152 .f32) (harg3 : arg3.IsWhole)
    (x0 : Vec F S2000x128 .f32) (x1 : Vec F S128x1152 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the one pipeline on core `c`: the arrays as the region finds them (`V`); after the body at point
    `t` each input's buffer at its block and the output's at `out0_2` of the two input blocks; the invariant the plain
    class's (the scoped rest and the generator register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents (the definition projected; `V` is never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

-- the launch theorem's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the library computes from the
    proof data and every other unscoped buffer as the eight stretches after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-! ## The argument arrays at the end -/

/-- A reference that no stretch after the region writes and that is no array of the pipeline ends at its region-entry
    contents. -/
theorem afterTail_of_not_written (c : Dev nD) (r : Ref sig .tc) (hr : r ∉ tailW) (ha : ∀ w, Pipeline.arrRef spec0 w ≠ r) :
    Pipeline.afterTail₀ cfgs (dats m) 0 (V0 m) tailOps c r = V m c r := by
  unfold Pipeline.afterTail₀
  rw [StableHlo.after_of_forall_not_mem (b := Proc.devRef .tc r) _ _ (fun op hop => by
      obtain ⟨ops, hops, hop'⟩ := List.mem_flatten.mp hop
      exact tail_not_writes hr ops hops op hop'),
    Pipeline.withArrays_of_ne _ c (V0 m c) _ r ha]

/-- `main_arg0` is the array of input window 0: the stretches after the region do not write it, the pipeline leaves an
    input's array as it found it, and no operation before the region writes it. -/
theorem W_main_arg0 (c : Dev nD) :
    Pipeline.afterTail₀ cfgs (dats m) 0 (V0 m) tailOps c main_arg0 = m ((c : Thread nD τ).loc main_arg0) := by
  unfold Pipeline.afterTail₀
  rw [StableHlo.after_of_forall_not_mem (b := Proc.devRef .tc main_arg0) _ _ (fun op hop => by
      obtain ⟨ops, hops, hop'⟩ := List.mem_flatten.mp hop
      exact tail_not_writes (r := main_arg0) (by decide) ops hops op hop')]
  exact (Pipeline.withArrays_arr (cfgs 0).spec launch0.win.arr_inj c (V0 m c) _ (0 : Fin 3)).trans
    (((dats m 0 c).arrAt_in 0 rfl _).trans ((A_eq m c 0).trans (V_main_arg0 m c)))
/-- No operation after the region writes `main_arg1`, no window stages it, and none before the region writes it. -/
theorem W_main_arg1 (c : Dev nD) :
    Pipeline.afterTail₀ cfgs (dats m) 0 (V0 m) tailOps c main_arg1 = m ((c : Thread nD τ).loc main_arg1) :=
  (afterTail_of_not_written m c main_arg1 (by decide) (by decide)).trans (V_main_arg1 m c)
/-- No operation after the region writes `main_arg2`, no window stages it, and none before the region writes it. -/
theorem W_main_arg2 (c : Dev nD) :
    Pipeline.afterTail₀ cfgs (dats m) 0 (V0 m) tailOps c main_arg2 = m ((c : Thread nD τ).loc main_arg2) :=
  (afterTail_of_not_written m c main_arg2 (by decide) (by decide)).trans (V_main_arg2 m c)
/-- No operation after the region writes `main_arg3`, no window stages it, and none before the region writes it. -/
theorem W_main_arg3 (c : Dev nD) :
    Pipeline.afterTail₀ cfgs (dats m) 0 (V0 m) tailOps c main_arg3 = m ((c : Thread nD τ).loc main_arg3) :=
  (afterTail_of_not_written m c main_arg3 (by decide) (by decide)).trans (V_main_arg3 m c)
/-- No operation after the region writes `main_arg4`, no window stages it, and none before the region writes it. -/
theorem W_main_arg4 (c : Dev nD) :
    Pipeline.afterTail₀ cfgs (dats m) 0 (V0 m) tailOps c main_arg4 = m ((c : Thread nD τ).loc main_arg4) :=
  (afterTail_of_not_written m c main_arg4 (by decide) (by decide)).trans (V_main_arg4 m c)
/-- No operation after the region writes `main_arg5`, no window stages it, and none before the region writes it. -/
theorem W_main_arg5 (c : Dev nD) :
    Pipeline.afterTail₀ cfgs (dats m) 0 (V0 m) tailOps c main_arg5 = m ((c : Thread nD τ).loc main_arg5) :=
  (afterTail_of_not_written m c main_arg5 (by decide) (by decide)).trans (V_main_arg5 m c)

/-! ## The frame -/

/-- THE FRAME, at any float instance: @main runs to the end without fault and its six argument arrays end as launched —
    the staged input by what the pipeline leaves of an input's array, the others by the run's clause on the buffers
    that bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans (((dats m 0 c).arrAt_in 0 rfl _).trans ((A_eq m c 0).trans (V_main_arg0 m c))),
     ((h c).2 main_arg1 (Pipeline.mem_restRefs_of main_arg1 (by decide) (by decide))).trans (W_main_arg1 m c),
     ((h c).2 main_arg2 (Pipeline.mem_restRefs_of main_arg2 (by decide) (by decide))).trans (W_main_arg2 m c),
     ((h c).2 main_arg3 (Pipeline.mem_restRefs_of main_arg3 (by decide) (by decide))).trans (W_main_arg3 m c),
     ((h c).2 main_arg4 (Pipeline.mem_restRefs_of main_arg4 (by decide) (by decide))).trans (W_main_arg4 m c),
     ((h c).2 main_arg5 (Pipeline.mem_restRefs_of main_arg5 (by decide) (by decide))).trans (W_main_arg5 m c)⟩)
    (run_main m ρ)

end Cert.Kernel.Hand

end
-- ==== Proof.KernelIdealFrame.lean ====
/- The frame run of the kernel program, at any float instance: @main is four host operations, one pipelined
   matmul region over a grid of fifty points, and ninety-two further host operations in eight stretches. This module
   proves that every weakly fair execution of @main terminates without fault, with every array of the pipeline at what
   the proof data compute and every other unscoped buffer at what the later host operations leave, and from it that
   the six argument arrays end as launched. -/
import proofs.«418642_j27049704030600_1_alg».proof.Proof.Gen.KernelIdeal.Launch
import proofs.«418642_j27049704030600_1_alg».proof.Proof.Gen.KernelIdeal.Skeleton
import proofs.«418642_j27049704030600_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The eight stretches of host operations that follow the region, in order. -/
abbrev tailOps : List (List (HloOp τ sig (Elt F))) :=
  [hostOps1, hostOps1_1, hostOps1_2, hostOps1_3, hostOps1_4, hostOps1_5, hostOps1_6, hostOps1_7]

/-- Core `c`'s TensorCore buffer contents when the region is entered, as a valuation: the launch contents after the
    four host operations that precede the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-! ### No host operation allocates, and each writes exactly its result buffer -/

theorem hostOps0_fresh : (hostOps0 : List (HloOp τ sig (Elt F))).Forall fun op => op.fresh = ∅ := by
  simp only [List.Forall]; repeat' constructor
/-- The references `hostOps0`'s operations write: one result buffer each. -/
abbrev hostOps0_W : List (Ref sig .tc) := [main_v0, main_v1, main_v2, main_v3]
theorem hostOps0_writes : (hostOps0 : List (HloOp τ sig (Elt F))).Forall fun op => op.writes ⊆ (hostOps0_W.map (Proc.devRef (τ := τ) .tc)).toFinset := by
  simp only [List.Forall]
  refine ⟨?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_fresh : (hostOps1 : List (HloOp τ sig (Elt F))).Forall fun op => op.fresh = ∅ := by
  simp only [List.Forall]; repeat' constructor
/-- The references `hostOps1`'s operations write: one result buffer each. -/
abbrev hostOps1_W : List (Ref sig .tc) := [main_v5, main_v6, main_v7, main_v8, main_v9, main_v10, main_v11, main_v12, main_v13, main_v14]
theorem hostOps1_writes : (hostOps1 : List (HloOp τ sig (Elt F))).Forall fun op => op.writes ⊆ (hostOps1_W.map (Proc.devRef (τ := τ) .tc)).toFinset := by
  simp only [List.Forall]
  refine ⟨?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_1_fresh : (hostOps1_1 : List (HloOp τ sig (Elt F))).Forall fun op => op.fresh = ∅ := by
  simp only [List.Forall]; repeat' constructor
/-- The references `hostOps1_1`'s operations write: one result buffer each. -/
abbrev hostOps1_1_W : List (Ref sig .tc) := [main_call0_v0, main_call0_v1, main_call0_v2, main_call0_v3, main_call0_v4, main_v15]
theorem hostOps1_1_writes : (hostOps1_1 : List (HloOp τ sig (Elt F))).Forall fun op => op.writes ⊆ (hostOps1_1_W.map (Proc.devRef (τ := τ) .tc)).toFinset := by
  simp only [List.Forall]
  refine ⟨?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_2_fresh : (hostOps1_2 : List (HloOp τ sig (Elt F))).Forall fun op => op.fresh = ∅ := by
  simp only [List.Forall]; repeat' constructor
/-- The references `hostOps1_2`'s operations write: one result buffer each. -/
abbrev hostOps1_2_W : List (Ref sig .tc) := [main_cst, main_v16, main_v17, main_v18, main_v19, main_c, main_v20, main_v21, main_v22]
theorem hostOps1_2_writes : (hostOps1_2 : List (HloOp τ sig (Elt F))).Forall fun op => op.writes ⊆ (hostOps1_2_W.map (Proc.devRef (τ := τ) .tc)).toFinset := by
  simp only [List.Forall]
  refine ⟨?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_3_fresh : (hostOps1_3 : List (HloOp τ sig (Elt F))).Forall fun op => op.fresh = ∅ := by
  simp only [List.Forall]; repeat' constructor
/-- The references `hostOps1_3`'s operations write: one result buffer each. -/
abbrev hostOps1_3_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v23]
theorem hostOps1_3_writes : (hostOps1_3 : List (HloOp τ sig (Elt F))).Forall fun op => op.writes ⊆ (hostOps1_3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_4_fresh : (hostOps1_4 : List (HloOp τ sig (Elt F))).Forall fun op => op.fresh = ∅ := by
  simp only [List.Forall]; repeat' constructor
/-- The references `hostOps1_4`'s operations write: one result buffer each. -/
abbrev hostOps1_4_W : List (Ref sig .tc) := [main_v24, main_c_0, main_v25, main_v26, main_v27]
theorem hostOps1_4_writes : (hostOps1_4 : List (HloOp τ sig (Elt F))).Forall fun op => op.writes ⊆ (hostOps1_4_W.map (Proc.devRef (τ := τ) .tc)).toFinset := by
  simp only [List.Forall]
  refine ⟨?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_5_fresh : (hostOps1_5 : List (HloOp τ sig (Elt F))).Forall fun op => op.fresh = ∅ := by
  simp only [List.Forall]; repeat' constructor
/-- The references `hostOps1_5`'s operations write: one result buffer each. -/
abbrev hostOps1_5_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_cst, main_call2_v14, main_v28]
theorem hostOps1_5_writes : (hostOps1_5 : List (HloOp τ sig (Elt F))).Forall fun op => op.writes ⊆ (hostOps1_5_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_6_fresh : (hostOps1_6 : List (HloOp τ sig (Elt F))).Forall fun op => op.fresh = ∅ := by
  simp only [List.Forall]; repeat' constructor
/-- The references `hostOps1_6`'s operations write: one result buffer each. -/
abbrev hostOps1_6_W : List (Ref sig .tc) := [main_cst_1, main_v29, main_v30, main_cst_2, main_v31, main_v32, main_v33, main_v34, main_v35, main_cst_3, main_v36, main_v37, main_v38, main_v39]
theorem hostOps1_6_writes : (hostOps1_6 : List (HloOp τ sig (Elt F))).Forall fun op => op.writes ⊆ (hostOps1_6_W.map (Proc.devRef (τ := τ) .tc)).toFinset := by
  simp only [List.Forall]
  refine ⟨?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_7_fresh : (hostOps1_7 : List (HloOp τ sig (Elt F))).Forall fun op => op.fresh = ∅ := by
  simp only [List.Forall]; repeat' constructor
/-- The references `hostOps1_7`'s operations write: one result buffer each. -/
abbrev hostOps1_7_W : List (Ref sig .tc) := [main_call3_cst, main_call3_v0, main_v40]
theorem hostOps1_7_writes : (hostOps1_7 : List (HloOp τ sig (Elt F))).Forall fun op => op.writes ⊆ (hostOps1_7_W.map (Proc.devRef (τ := τ) .tc)).toFinset := by
  simp only [List.Forall]
  refine ⟨?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A reference outside a list holding every reference a stretch writes is written by no operation of the stretch. -/
theorem not_mem_writes_of {W : List (Ref sig .tc)} {ops : List (HloOp τ sig (Elt F))}
    (hW : ops.Forall fun op => op.writes ⊆ (W.map (Proc.devRef (τ := τ) .tc)).toFinset) {r : Ref sig .tc} (hr : r ∉ W) :
    ∀ op ∈ ops, Proc.devRef (τ := τ) .tc r ∉ op.writes := fun op hop hb => by
  obtain ⟨y, hy, he⟩ := List.mem_map.mp (List.mem_toFinset.mp ((List.forall_iff_forall_mem.mp hW) op hop hb))
  exact hr (Proc.devRef_injective _ he ▸ hy)

/-- Every reference the stretches after the region write. -/
abbrev tailW : List (Ref sig .tc) :=
  hostOps1_W ++ hostOps1_1_W ++ hostOps1_2_W ++ hostOps1_3_W ++ hostOps1_4_W ++ hostOps1_5_W ++ hostOps1_6_W ++ hostOps1_7_W

/-- A reference none of the later stretches writes is written by no operation after the region. -/
theorem tail_not_writes {r : Ref sig .tc} (hr : r ∉ tailW) :
    ∀ ops ∈ (tailOps : List (List (HloOp τ sig (Elt F)))), ∀ op ∈ ops, Proc.devRef (τ := τ) .tc r ∉ op.writes := by
  intro ops hops
  simp only [tailW, List.mem_append, not_or] at hr
  obtain ⟨⟨⟨⟨⟨⟨⟨h0, h1⟩, h2⟩, h3⟩, h4⟩, h5⟩, h6⟩, h7⟩ := hr
  simp only [tailOps, List.mem_cons, List.mem_nil_iff, or_false] at hops
  rcases hops with rfl | rfl | rfl | rfl | rfl | rfl | rfl | rfl
  · exact not_mem_writes_of hostOps1_writes h0
  · exact not_mem_writes_of hostOps1_1_writes h1
  · exact not_mem_writes_of hostOps1_2_writes h2
  · exact not_mem_writes_of hostOps1_3_writes h3
  · exact not_mem_writes_of hostOps1_4_writes h4
  · exact not_mem_writes_of hostOps1_5_writes h5
  · exact not_mem_writes_of hostOps1_6_writes h6
  · exact not_mem_writes_of hostOps1_7_writes h7

/-- @main around the region: the host operations before it, the region, the eight stretches after it; it reduces to
    the region continued by the later stretches, at the contents the earlier operations leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The operations after the region touch the pipeline's arrays and the bypassing buffers only: each operation's buffers
    are unscoped TensorCore references, and with nothing prefetched every such reference is one or the other. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
/-- And write no array of the pipeline: each writes only its own result buffer, which is none of the three arrays. -/
theorem sfx_keeps : ∀ ops ∈ (tailOps : List (List (HloOp τ sig (Elt F)))), ∀ op ∈ ops,
    ∀ w, Proc.devRef .tc (Pipeline.arrRef spec0 w) ∉ op.writes := by
  intro ops hops op hop w
  fin_cases w
  · exact tail_not_writes (r := main_arg0) (by decide) ops hops op hop
  · exact tail_not_writes (r := main_v3) (by decide) ops hops op hop
  · exact tail_not_writes (r := main_v4) (by decide) ops hops op hop

/-- No host operation before the region writes `main_arg0`: the region finds it as launched. -/
theorem V_main_arg0 (c : Dev nD) : V m c main_arg0 = m ((c : Thread nD τ).loc main_arg0) :=
  StableHlo.after_of_writes_sub (r := main_arg0) _ _ (by simp only [List.flatten_cons, List.flatten_nil, List.append_nil]; exact hostOps0_writes) (by decide)
/-- No host operation before the region writes `main_arg1`: the region finds it as launched. -/
theorem V_main_arg1 (c : Dev nD) : V m c main_arg1 = m ((c : Thread nD τ).loc main_arg1) :=
  StableHlo.after_of_writes_sub (r := main_arg1) _ _ (by simp only [List.flatten_cons, List.flatten_nil, List.append_nil]; exact hostOps0_writes) (by decide)
/-- No host operation before the region writes `main_arg2`: the region finds it as launched. -/
theorem V_main_arg2 (c : Dev nD) : V m c main_arg2 = m ((c : Thread nD τ).loc main_arg2) :=
  StableHlo.after_of_writes_sub (r := main_arg2) _ _ (by simp only [List.flatten_cons, List.flatten_nil, List.append_nil]; exact hostOps0_writes) (by decide)
/-- No host operation before the region writes `main_arg3`: the region finds it as launched. -/
theorem V_main_arg3 (c : Dev nD) : V m c main_arg3 = m ((c : Thread nD τ).loc main_arg3) :=
  StableHlo.after_of_writes_sub (r := main_arg3) _ _ (by simp only [List.flatten_cons, List.flatten_nil, List.append_nil]; exact hostOps0_writes) (by decide)
/-- No host operation before the region writes `main_arg4`: the region finds it as launched. -/
theorem V_main_arg4 (c : Dev nD) : V m c main_arg4 = m ((c : Thread nD τ).loc main_arg4) :=
  StableHlo.after_of_writes_sub (r := main_arg4) _ _ (by simp only [List.flatten_cons, List.flatten_nil, List.append_nil]; exact hostOps0_writes) (by decide)
/-- No host operation before the region writes `main_arg5`: the region finds it as launched. -/
theorem V_main_arg5 (c : Dev nD) : V m c main_arg5 = m ((c : Thread nD τ).loc main_arg5) :=
  StableHlo.after_of_writes_sub (r := main_arg5) _ _ (by simp only [List.flatten_cons, List.flatten_nil, List.append_nil]; exact hostOps0_writes) (by decide)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0 (the row block of the left operand, fetched at every point): its current staging buffer holds its
    block at every point, for any proof data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1 (the whole weight, fetched at the first point only): at a later point the block index has not moved,
    so the buffer still holds the block; the same statement. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole left-operand block, the whole weight and the whole result block, each as one unit rectangle. -/
abbrev r_x : Rect S2000x128 := Rect.unit (s := S2000x128) ![0, 0] S2000x128.size inb_S2000x128_S2000x128_0_0
abbrev r_w : Rect S128x1152 := Rect.unit (s := S128x1152) ![0, 0] S128x1152.size inb_S128x1152_S128x1152_0_0
abbrev r_out : Rect S2000x1152 := Rect.unit (s := S2000x1152) ![0, 0] S2000x1152.size inb_S2000x1152_S2000x1152_0_0

/-! ## What the body leaves in the output window's buffer -/

/-- Window 2's staging buffer after the body, from the input windows' blocks: the one store's payload (the product of
    the two loaded operands) laid over the whole buffer. -/
def out0_2 (x0 : Vec F S2000x128 .f32) (x1 : Vec F S128x1152 .f32) : Vec F S2000x1152 .f32 :=
  View.canon [⟨r_out, k0_pay1 (View.ld x0 r_x) (View.ld x1 r_w)⟩]

/-- The one store covers the buffer. -/
theorem cover0_2 (p0 : Vec F S2000x1152 .f32) (y : S2000x1152.Idx) :
    ∃ pc ∈ ([⟨r_out, p0⟩] : List (View.Piece (Elt F) S2000x1152 .f32)), y ∈ pc.1.set :=
  View.cover_of_tiled [⟨r_out, p0⟩] S2000x1152.size (by rfl) y

/-! ## The body's triple -/

set_option maxHeartbeats 1000000 in
/-- The kernel body on whole staging memrefs, the inputs' at read contents `x0`, `x1` and the output's at anything, runs to
    the continuation holding the inputs' as they were and the output's at `out0_2 x0 x1`. The body also loads the output
    buffer before storing into it; the loaded value is used nowhere, and a buffer held at some contents can be loaded. -/
theorem sound_kernel (c : Dev nD) (E : Set ℕ) (i : grid0.Coords) (arg1 : Memref sig .tc .vmem S2000x128 .f32) (harg1 : arg1.IsWhole) (arg2 : Memref sig .tc .vmem S128x1152 .f32) (harg2 : arg2.IsWhole) (arg3 : Memref sig .tc .vmem S2000x1152 .f32) (harg3 : arg3.IsWhole)
    (x0 : Vec F S2000x128 .f32) (x1 : Vec F S128x1152 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the one pipeline on core `c`: the arrays as the region finds them (`V`); after the body at point
    `t` each input's buffer at its block and the output's at `out0_2` of the two input blocks; the invariant the plain
    class's (the scoped rest and the generator register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents (the definition projected; `V` is never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

-- the launch theorem's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the library computes from the
    proof data and every other unscoped buffer as the eight stretches after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-! ## The argument arrays at the end -/

/-- A reference that no stretch after the region writes and that is no array of the pipeline ends at its region-entry
    contents. -/
theorem afterTail_of_not_written (c : Dev nD) (r : Ref sig .tc) (hr : r ∉ tailW) (ha : ∀ w, Pipeline.arrRef spec0 w ≠ r) :
    Pipeline.afterTail₀ cfgs (dats m) 0 (V0 m) tailOps c r = V m c r := by
  unfold Pipeline.afterTail₀
  rw [StableHlo.after_of_forall_not_mem (b := Proc.devRef .tc r) _ _ (fun op hop => by
      obtain ⟨ops, hops, hop'⟩ := List.mem_flatten.mp hop
      exact tail_not_writes hr ops hops op hop'),
    Pipeline.withArrays_of_ne _ c (V0 m c) _ r ha]

/-- `main_arg0` is the array of input window 0: the stretches after the region do not write it, the pipeline leaves an
    input's array as it found it, and no operation before the region writes it. -/
theorem W_main_arg0 (c : Dev nD) :
    Pipeline.afterTail₀ cfgs (dats m) 0 (V0 m) tailOps c main_arg0 = m ((c : Thread nD τ).loc main_arg0) := by
  unfold Pipeline.afterTail₀
  rw [StableHlo.after_of_forall_not_mem (b := Proc.devRef .tc main_arg0) _ _ (fun op hop => by
      obtain ⟨ops, hops, hop'⟩ := List.mem_flatten.mp hop
      exact tail_not_writes (r := main_arg0) (by decide) ops hops op hop')]
  exact (Pipeline.withArrays_arr (cfgs 0).spec launch0.win.arr_inj c (V0 m c) _ (0 : Fin 3)).trans
    (((dats m 0 c).arrAt_in 0 rfl _).trans ((A_eq m c 0).trans (V_main_arg0 m c)))
/-- No operation after the region writes `main_arg1`, no window stages it, and none before the region writes it. -/
theorem W_main_arg1 (c : Dev nD) :
    Pipeline.afterTail₀ cfgs (dats m) 0 (V0 m) tailOps c main_arg1 = m ((c : Thread nD τ).loc main_arg1) :=
  (afterTail_of_not_written m c main_arg1 (by decide) (by decide)).trans (V_main_arg1 m c)
/-- No operation after the region writes `main_arg2`, no window stages it, and none before the region writes it. -/
theorem W_main_arg2 (c : Dev nD) :
    Pipeline.afterTail₀ cfgs (dats m) 0 (V0 m) tailOps c main_arg2 = m ((c : Thread nD τ).loc main_arg2) :=
  (afterTail_of_not_written m c main_arg2 (by decide) (by decide)).trans (V_main_arg2 m c)
/-- No operation after the region writes `main_arg3`, no window stages it, and none before the region writes it. -/
theorem W_main_arg3 (c : Dev nD) :
    Pipeline.afterTail₀ cfgs (dats m) 0 (V0 m) tailOps c main_arg3 = m ((c : Thread nD τ).loc main_arg3) :=
  (afterTail_of_not_written m c main_arg3 (by decide) (by decide)).trans (V_main_arg3 m c)
/-- No operation after the region writes `main_arg4`, no window stages it, and none before the region writes it. -/
theorem W_main_arg4 (c : Dev nD) :
    Pipeline.afterTail₀ cfgs (dats m) 0 (V0 m) tailOps c main_arg4 = m ((c : Thread nD τ).loc main_arg4) :=
  (afterTail_of_not_written m c main_arg4 (by decide) (by decide)).trans (V_main_arg4 m c)
/-- No operation after the region writes `main_arg5`, no window stages it, and none before the region writes it. -/
theorem W_main_arg5 (c : Dev nD) :
    Pipeline.afterTail₀ cfgs (dats m) 0 (V0 m) tailOps c main_arg5 = m ((c : Thread nD τ).loc main_arg5) :=
  (afterTail_of_not_written m c main_arg5 (by decide) (by decide)).trans (V_main_arg5 m c)

/-! ## The frame -/

/-- THE FRAME, at any float instance: @main runs to the end without fault and its six argument arrays end as launched —
    the staged input by what the pipeline leaves of an input's array, the others by the run's clause on the buffers
    that bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans (((dats m 0 c).arrAt_in 0 rfl _).trans ((A_eq m c 0).trans (V_main_arg0 m c))),
     ((h c).2 main_arg1 (Pipeline.mem_restRefs_of main_arg1 (by decide) (by decide))).trans (W_main_arg1 m c),
     ((h c).2 main_arg2 (Pipeline.mem_restRefs_of main_arg2 (by decide) (by decide))).trans (W_main_arg2 m c),
     ((h c).2 main_arg3 (Pipeline.mem_restRefs_of main_arg3 (by decide) (by decide))).trans (W_main_arg3 m c),
     ((h c).2 main_arg4 (Pipeline.mem_restRefs_of main_arg4 (by decide) (by decide))).trans (W_main_arg4 m c),
     ((h c).2 main_arg5 (Pipeline.mem_restRefs_of main_arg5 (by decide) (by decide))).trans (W_main_arg5 m c)⟩)
    (run_main m ρ)

end Cert.KernelIdeal.Hand

end
-- ==== Proof.KernelWeights.lean ====
/-
  Two facts about the region of the kernel program, read at an index over the extended reals.

  THE BODY. At a grid point the body multiplies a 2000 × 128 block of the features by the whole 128 × 1152 weight matrix
  into a zero accumulator (the narrowing of the operands to a shorter float format is the identity on real values): entry
  (p, q) of what it stores is Σ_k x0(p, k) · x1(k, q).

  THE WEIGHT MATRIX. The 128 × 1152 matrix is the self weight and the eight relation weights laid side by side: stack
  root (as a 1 × 128 × 128 array) on top of W (8 × 128 × 128), exchange the first two axes (128 × 9 × 128), and flatten the
  last two. So column j < 128 of row k is root(k, j), and column 128 + 128 r + j is W(r, k, j).
-/
import proofs.«418642_j27049704030600_1_alg».proof.Proof.Gen.KernelIdeal.Skeleton
import Idealize.ShloMosaic.Lib.Pipeline.Value
import Idealize.ShloMosaic.Lib.ValueIdx
import Idealize.ShloMosaic.PureOps.Ideal.Laws

open scoped BigOperators

noncomputable section

namespace Cert.KernelIdeal.Weights

open Cert.KernelIdeal Cert.KernelIdeal.Gen Idealize.ShloMosaic Idealize.ShloMosaic.ValueIdx

/-! ## The body's product at an index -/

theorem lhs_0 (i : S2000x1152.Idx) (q : dot_S2000x128_S128x1152_S2000x1152_1_0_0_1_n_n.contr.Idx) : (dot_S2000x128_S128x1152_S2000x1152_1_0_0_1_n_n.lhsIdx i q 0).val = (i 0).val := by
  unfold DotDims.lhsIdx
  rw [dif_neg (show ¬(0 : Fin S2000x128.rank) ∈ dot_S2000x128_S128x1152_S2000x1152_1_0_0_1_n_n.lhsBatch by decide),
    dif_pos (show (0 : Fin S2000x128.rank) ∈ dot_S2000x128_S128x1152_S2000x1152_1_0_0_1_n_n.lhsNonContracting by decide)]
  rfl
theorem lhs_1 (i : S2000x1152.Idx) (q : dot_S2000x128_S128x1152_S2000x1152_1_0_0_1_n_n.contr.Idx) : (dot_S2000x128_S128x1152_S2000x1152_1_0_0_1_n_n.lhsIdx i q 1).val = (q ⟨0, by decide⟩).val :=
  dot_S2000x128_S128x1152_S2000x1152_1_0_0_1_n_n.lhsIdx_val_of_single rfl i q
theorem rhs_0 (i : S2000x1152.Idx) (q : dot_S2000x128_S128x1152_S2000x1152_1_0_0_1_n_n.contr.Idx) : (dot_S2000x128_S128x1152_S2000x1152_1_0_0_1_n_n.rhsIdx i q 0).val = (q ⟨0, by decide⟩).val :=
  dot_S2000x128_S128x1152_S2000x1152_1_0_0_1_n_n.rhsIdx_val_of_single rfl i q
theorem rhs_1 (i : S2000x1152.Idx) (q : dot_S2000x128_S128x1152_S2000x1152_1_0_0_1_n_n.contr.Idx) : (dot_S2000x128_S128x1152_S2000x1152_1_0_0_1_n_n.rhsIdx i q 1).val = (i 1).val := by
  unfold DotDims.rhsIdx
  rw [dif_neg (show ¬(1 : Fin S128x1152.rank) ∈ dot_S2000x128_S128x1152_S2000x1152_1_0_0_1_n_n.rhsBatch by decide),
    dif_pos (show (1 : Fin S128x1152.rank) ∈ dot_S2000x128_S128x1152_S2000x1152_1_0_0_1_n_n.rhsNonContracting by decide)]
  rfl

/-- Entry `(p, q)` of the body's product: the contraction over the 128 shared coordinates. -/
theorem pay_apply (x0 : Vec Ideal S2000x128 .f32) (x1 : Vec Ideal S128x1152 .f32) (p : Fin 2000) (q : Fin 1152) :
    k0_pay1 (F := Ideal) x0 x1 (ix2 p q) = ∑ k : Fin 128, x0 (ix2 p k) * x1 (ix2 k q) := by
  unfold k0_pay1
  rw [shapeCast_self]
  refine (Ideal.matmul_constant_zero_apply (φ₁ := .bf16) (φ₂ := .bf16) dot_S2000x128_S128x1152_S2000x1152_1_0_0_1_n_n none _ _ (ix2 p q)).trans ?_
  rw [← Equiv.sum_comp (ValueIdx.contrEquiv1 dot_S2000x128_S128x1152_S2000x1152_1_0_0_1_n_n 128 rfl rfl).symm]
  refine Finset.sum_congr rfl fun k _ => ?_
  have hk := ValueIdx.contrEquiv1_symm_val dot_S2000x128_S128x1152_S2000x1152_1_0_0_1_n_n 128 rfl rfl k
  have el : dot_S2000x128_S128x1152_S2000x1152_1_0_0_1_n_n.lhsIdx (ix2 p q) ((ValueIdx.contrEquiv1 dot_S2000x128_S128x1152_S2000x1152_1_0_0_1_n_n 128 rfl rfl).symm k) = ix2 p k := funext fun a => Fin.ext (by
    match a with
    | ⟨0, _⟩ => exact lhs_0 _ _
    | ⟨1, _⟩ => exact (lhs_1 _ _).trans hk)
  have er : dot_S2000x128_S128x1152_S2000x1152_1_0_0_1_n_n.rhsIdx (ix2 p q) ((ValueIdx.contrEquiv1 dot_S2000x128_S128x1152_S2000x1152_1_0_0_1_n_n 128 rfl rfl).symm k) = ix2 k q := funext fun a => Fin.ext (by
    match a with
    | ⟨0, _⟩ => exact (rhs_0 _ _).trans hk
    | ⟨1, _⟩ => exact rhs_1 _ _)
  rw [el, er]
  rfl

/-! ## The weight matrix at a column -/

/-- The self weight and the eight relation weights side by side. -/
def wcat (root : FVec Ideal S128x128 .f32) (W : FVec Ideal S8x128x128 .f32) : FVec Ideal S128x1152 .f32 :=
  shapeCast S128x1152
    (transpose S128x9x128 [1, 0, 2]
      (concatenate S9x128x128 0
        [⟨S1x128x128, broadcastInDim S1x128x128 ![1, 2] bcast_S128x128_S1x128x128_1_2 root⟩, ⟨S8x128x128, W⟩]
        concatenates_S1x128x128_S8x128x128_S9x128x128_d0)
      transposes_S9x128x128_S128x9x128_1_0_2)
    shapeCasts_S128x9x128_S128x1152

/-- Row `k`, column `128 g + j` of the flattened matrix is entry `(g, k, j)` of the stack. -/
theorem wcat_stack (root : FVec Ideal S128x128 .f32) (W : FVec Ideal S8x128x128 .f32) (k : Fin 128) (g : Fin 9) (j : Fin 128) :
    wcat root W (ix2 k ⟨128 * g.val + j.val, by omega⟩)
      = concatenate S9x128x128 0
          [⟨S1x128x128, broadcastInDim S1x128x128 ![1, 2] bcast_S128x128_S1x128x128_1_2 root⟩, ⟨S8x128x128, W⟩]
          concatenates_S1x128x128_S8x128x128_S9x128x128_d0 (ix3 g k j) := by
  unfold wcat
  rw [shapeCast_apply _ _ _ (ix3 k g j)
    (by rw [Shape.rowMajor_val_three, Shape.rowMajor_val_two]; show (k.val * 9 + g.val) * 128 + j.val = k.val * 1152 + (128 * g.val + j.val); omega)]
  refine transpose_apply _ _ _ _ (ix3 g k j) fun b => ?_
  match b with
  | ⟨0, _⟩ => rfl
  | ⟨1, _⟩ => rfl
  | ⟨2, _⟩ => rfl

/-- Column `j < 128` is the self weight's column `j`. -/
theorem wcat_root (root : FVec Ideal S128x128 .f32) (W : FVec Ideal S8x128x128 .f32) (k : Fin 128) (j : Fin 128) :
    wcat root W (ix2 k ⟨j.val, by omega⟩) = root (ix2 k j) := by
  have h := wcat_stack root W k 0 j
  simp only [Fin.val_zero, Nat.mul_zero, Nat.zero_add] at h
  rw [h]
  rw [concatenate_pair_apply_left (t := S9x128x128) (s₁ := S1x128x128) (s₂ := S8x128x128) (0 : Fin 3) _ _ _
    (ix3 (0 : Fin 9) k j) rfl (ix3 (0 : Fin 1) k j)
    (fun b => by match b with | ⟨0, _⟩ => rfl | ⟨1, _⟩ => rfl | ⟨2, _⟩ => rfl)]
  refine broadcastInDim_apply _ _ _ _ (ix2 k j) fun a => ?_
  match a with
  | ⟨0, _⟩ => rfl
  | ⟨1, _⟩ => rfl

/-- Column `128 + 128 r + j` is relation `r`'s weight's column `j`. -/
theorem wcat_rel (root : FVec Ideal S128x128 .f32) (W : FVec Ideal S8x128x128 .f32) (k : Fin 128) (r : Fin 8) (j : Fin 128) :
    wcat root W (ix2 k ⟨128 + 128 * r.val + j.val, by omega⟩) = W (ix3 r k j) := by
  have h := wcat_stack root W k ⟨r.val + 1, by omega⟩ j
  have e : (⟨128 * (r.val + 1) + j.val, by omega⟩ : Fin 1152) = ⟨128 + 128 * r.val + j.val, by omega⟩ := Fin.ext (by simp only []; omega)
  rw [e] at h
  rw [h]
  exact concatenate_pair_apply_right (t := S9x128x128) (s₁ := S1x128x128) (s₂ := S8x128x128) (0 : Fin 3) _ _ _
    (ix3 (⟨r.val + 1, by omega⟩ : Fin 9) k j) rfl rfl (ix3 r k j)
    (fun b hb => by
      match b with
      | ⟨0, _⟩ => exact absurd rfl hb
      | ⟨1, _⟩ => rfl
      | ⟨2, _⟩ => rfl)
    (by show r.val + 1 = r.val + 1; rfl)

end Cert.KernelIdeal.Weights

end
-- ==== Proof.Region.lean ====
/-
  What the region of the kernel program leaves in its result array, over the extended reals.

  The grid has 50 points; point t multiplies rows 2000 t … 2000 t + 1999 of the features by the whole 128 × 1152 weight
  matrix and writes the 2000 × 1152 product back as row band t of the result. The 50 bands tile the 100000 rows, so after
  the region entry (i, q) of the result array is Σ_k X(i, k) · Wc(k, q), where X and Wc are the features and the weight
  matrix as the region finds them. The host operations before the region build Wc from the self weight and the eight
  relation weights laid side by side.
-/
import proofs.«418642_j27049704030600_1_alg».proof.Proof.KernelIdealFrame
import proofs.«418642_j27049704030600_1_alg».proof.Proof.KernelWeights
import Idealize.ShloMosaic.Lib.Pipeline.Value
import Idealize.ShloMosaic.Lib.StableHlo.Run

open scoped BigOperators

noncomputable section

namespace Cert.KernelIdeal.Region

open Cert.KernelIdeal Cert.KernelIdeal.Gen Cert.KernelIdeal.Hand Cert.KernelIdeal.Weights
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The product of a 100000 × 128 array and a 128 × 1152 matrix, entry by entry. -/
def prod (X : FVec Ideal S100000x128 .f32) (Wc : FVec Ideal S128x1152 .f32) : FVec Ideal S100000x1152 .f32 :=
  fun i => ∑ k : Fin 128, X (ix2 ⟨(i 0).val, (i 0).isLt⟩ k) * Wc (ix2 k ⟨(i 1).val, (i 1).isLt⟩)

/-- The index maps over the 50 grid points: the features' block moves with the result's block down the rows; the weight
    matrix is one block; the result's blocks are the 50 row bands. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 49 :=
  (by decide +kernel : ∀ t : Fin grid0.N, _)

/-- Every row band is some point's block. -/
theorem idx_onto : ∀ q0 : Fin 50, ∃ t : Fin cfg0.N, win0_2.index t = ![q0.val, 0] :=
  (by decide +kernel : ∀ q0 : Fin 50, ∃ t : Fin grid0.N, win0_2.index t = ![q0.val, 0])

/-- What point `t` writes back is its row band of the product of the features and the weight matrix as the region finds them. -/
theorem flushed_eq (c : Dev nD) (t : Fin cfg0.N) :
    (dats m 0 c).flushed 2 t = ((cfg0.win 2).blk t).view.read (Elt Ideal) (prod (V m c main_arg0) (V m c main_v3)) := by
  show (cfg0.win 2).cut (grid0.coords t) ((dats m 0 c).after 2 t) = _
  rw [after0_2]
  unfold out0_2
  rw [View.canon_unit_zero hz]
  simp only [View.ld_unit_zero (S := S2000x128) hz, View.ld_unit_zero (S := S128x1152) hz]
  obtain ⟨e0, e1, e2, e3, e4, e5⟩ := idx_facts t
  funext j
  obtain ⟨p, q, rfl⟩ : ∃ (p : Fin 2000) (q : Fin 1152), j = ix2 p q := ⟨j 0, j 1, eq_ix2 j⟩
  refine (pay_apply _ _ p q).trans ?_
  show _ = prod (V m c main_arg0) (V m c main_v3) (((cfg0.win 2).blk t).view.emb (ix2 p q))
  unfold prod
  refine Finset.sum_congr rfl fun k _ => ?_
  have h0 : ((cfg0.win 0).blk t).view.emb (ix2 p k)
      = ix2 ⟨((((cfg0.win 2).blk t).view.emb (ix2 p q)) 0).val, ((((cfg0.win 2).blk t).view.emb (ix2 p q)) 0).isLt⟩ k := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * k.val = k.val; omega
  have h1 : ((cfg0.win 1).blk t).view.emb (ix2 k q)
      = ix2 k ⟨((((cfg0.win 2).blk t).view.emb (ix2 p q)) 1).val, ((((cfg0.win 2).blk t).view.emb (ix2 p q)) 1).isLt⟩ := by
    funext a; apply Fin.ext
    match a with
    | ⟨0, _⟩ => show win0_1.index t (0 : Fin 2) * 128 + 1 * k.val = k.val; omega
    | ⟨1, _⟩ => show win0_1.index t (1 : Fin 2) * 1152 + 1 * q.val = win0_2.index t (1 : Fin 2) * 1152 + 1 * q.val; omega
  have hA : (iblk m c 0 t (ix2 p k) : EReal)
      = (V m c main_arg0 (ix2 ⟨((((cfg0.win 2).blk t).view.emb (ix2 p q)) 0).val, ((((cfg0.win 2).blk t).view.emb (ix2 p q)) 0).isLt⟩ k) : EReal) :=
    congrArg (V m c main_arg0) h0
  have hB : (iblk m c 1 t (ix2 k q) : EReal)
      = (V m c main_v3 (ix2 k ⟨((((cfg0.win 2).blk t).view.emb (ix2 p q)) 1).val, ((((cfg0.win 2).blk t).view.emb (ix2 p q)) 1).isLt⟩) : EReal) :=
    congrArg (V m c main_v3) h1
  exact congrArg₂ (fun a b : EReal => a * b) hA hB

/-- An index of the result array is in point `t`'s block iff each coordinate is in the block's range on its axis. -/
theorem mem_blk (t : Fin cfg0.N) (i : S100000x1152.Idx) :
    i ∈ ((cfg0.win 2).blk t).view.set ↔ ∀ a : Fin 2, win0_2.index t a * S2000x1152.size a ≤ (i a).val
      ∧ (i a).val < win0_2.index t a * S2000x1152.size a + S2000x1152.size a := by
  show i ∈ ((View.whole main_v4).slice (win0_2.rect t)).set ↔ _
  rw [View.set_slice_whole, Rect.mem_set_unit]
  exact Iff.rfl

/-- Every index of the result array is in the block of the point of its row band. -/
theorem cover (i : S100000x1152.Idx) : ∃ t : Fin cfg0.N, (cfg0.win 2).flush t = true ∧ i ∈ ((cfg0.win 2).blk t).view.set := by
  have hi0 : (i 0).val < 100000 := (i 0).isLt
  have hi1 : (i 1).val < 1152 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 1152 ≤ (i 1).val ∧ (i 1).val < win0_2.index t (1 : Fin 2) * 1152 + 1152; omega

/-- The result array after the region: the product of the features and the weight matrix as the region finds them. -/
theorem final (c : Dev nD) : (dats m 0 c).arrAt 2 cfg0.N = prod (V m c main_arg0) (V m c main_v3) :=
  (dats m 0 c).arrAt_eq_of_cover 2 (prod (V m c main_arg0) (V m c main_v3)) (fun t _ => flushed_eq m c t) cover

/-- The weight matrix as the region finds it: the host operations before the region lay the self weight and the relation
    weights side by side. -/
theorem V_main_v3 (c : Dev nD) :
    (V m c main_v3 : S128x1152.Idx → EReal)
      = wcat (m ((c : Thread nD τ).loc main_arg4)) (m ((c : Thread nD τ).loc main_arg3)) := by
  dsimp only [V, V0]
  simp only [hostOps0, List.flatten_cons, List.flatten_nil, List.append_nil]
  after_results
  rfl

end Cert.KernelIdeal.Region

end
-- ==== Proof.Spec.lean ====
/-
  A relational graph convolution with mean aggregation and a rectifier, as a function of its six arrays:
  node features `x` (100000 × 128), the edges' endpoints `ei` (row 0 the sources, row 1 the destinations) and relation
  labels `et` (600000 edges, 8 relations), one 128 × 128 weight per relation `W`, the self weight `root` and `bias`.

  Node `n`'s output at column `j` is  max(x[n]·root[:, j] + bias[j] + A(n, j), 0),  where the aggregate A(n, j) adds, for
  every relation r, the MEAN over the edges e of relation r that end at n of x[src e]·W[r][:, j]; a relation with no such
  edge contributes 0 (the mean divides by max(count, 1)).

  The aggregate is written in two arrangements. EDGE BY EDGE: each edge that ends at n adds its message already divided by
  the number of edges of its own relation that end at n. RELATION BY RELATION: for r = 0, …, 7 in turn, the messages of
  the edges of relation r that end at n are added up (the others masked to 0) and the total is divided by the count.
  Their agreement is a statement about finite sums of real numbers; it is proved elsewhere.
-/
import Idealize.ShloMosaic.PureOps.Ideal
import Idealize.ShloMosaic.Lib.ValueIdx

open scoped BigOperators

noncomputable section

namespace Cert.RelConv

open Idealize.ShloMosaic Idealize.ShloMosaic.ValueIdx

variable (x : (⟨2, ![100000, 128]⟩ : Shape).Idx → EReal) (ei : (⟨2, ![2, 600000]⟩ : Shape).Idx → BitVec 32)
  (et : (⟨1, ![600000]⟩ : Shape).Idx → BitVec 32) (W : (⟨3, ![8, 128, 128]⟩ : Shape).Idx → EReal)
  (root : (⟨2, ![128, 128]⟩ : Shape).Idx → EReal) (bias : (⟨1, ![128]⟩ : Shape).Idx → EReal)

/-- Edge `e` ends at node `n`: its destination word, read as a signed integer, is `n`. (A destination outside
    `[0, 100000)` ends at no node.) -/
def endsAt (e : Fin 600000) (n : Fin 100000) : Prop := (ei (ix2 (1 : Fin 2) e)).toInt = (n.val : ℤ)

instance (e : Fin 600000) (n : Fin 100000) : Decidable (endsAt ei e n) := by unfold endsAt; infer_instance

/-- The source node of edge `e`: its source word read signed and clamped into `[0, 99999]` (the word itself when it is
    a node number). -/
def srcOf (e : Fin 600000) : Fin 100000 := ⟨min (ei (ix2 (0 : Fin 2) e)).toInt.toNat 99999, by omega⟩

/-- The relation of edge `e`: its label read signed and clamped into `[0, 7]` (the label itself when it is a relation). -/
def typOf (e : Fin 600000) : Fin 8 := ⟨min (et (ix1 e)).toInt.toNat 7, by omega⟩

/-- 1 if edge `e` carries relation `r`, else 0. -/
def hasType (e : Fin 600000) (r : Fin 8) : EReal := if et (ix1 e) = BitVec.ofNat 32 r.val then 1 else 0

/-- The number of edges of relation `r` that end at node `n`. -/
def count (n : Fin 100000) (r : Fin 8) : EReal := ∑ e : Fin 600000, if endsAt ei e n then hasType et e r else 0

/-- Row `s` of `x` times relation `r`'s weight, at column `j`. -/
def msg (s : Fin 100000) (r : Fin 8) (j : Fin 128) : EReal := ∑ k : Fin 128, x (ix2 s k) * W (ix3 r k j)

/-- Row `n` of `x` times the self weight, at column `j`. -/
def selfTerm (n : Fin 100000) (j : Fin 128) : EReal := ∑ k : Fin 128, x (ix2 n k) * root (ix2 k j)

/-- EDGE BY EDGE: every edge that ends at `n` adds its message times the reciprocal of the number (at least 1) of edges of
    its relation that end at `n`. -/
def edgeOut (n : Fin 100000) (j : Fin 128) : EReal :=
  max ((selfTerm x root n j + bias (ix1 j))
    + ∑ e : Fin 600000, if endsAt ei e n then
        msg x W (srcOf ei e) (typOf et e) j * Ideal.div 1 (max (count ei et n (typOf et e)) 1) else 0) 0

/-- Relation `r`'s mean at node `n`, column `j`: the masked messages of the edges that end at `n`, added up and divided by
    the number (at least 1) of edges of relation `r` that end at `n`. -/
def relMean (n : Fin 100000) (j : Fin 128) (r : Fin 8) : EReal :=
  Ideal.div (∑ e : Fin 600000, if endsAt ei e n then msg x W (srcOf ei e) r j * hasType et e r else 0)
    (max (count ei et n r) 1)

/-- RELATION BY RELATION: the means of relations 0, …, 7 added one after the other onto the self term. -/
def relOut (n : Fin 100000) (j : Fin 128) : EReal :=
  max ((((((((((selfTerm x root n j + bias (ix1 j)) + relMean x ei et W n j 0) + relMean x ei et W n j 1)
    + relMean x ei et W n j 2) + relMean x ei et W n j 3) + relMean x ei et W n j 4) + relMean x ei et W n j 5)
    + relMean x ei et W n j 6) + relMean x ei et W n j 7)) 0

end Cert.RelConv

end
-- ==== Proof.LibSegmentScatter.lean ====
/-
  An accumulating scatter along axis 0, read at one element of its result over the extended reals.

  Two shapes that a segment sum lowers to. ROWS: the operand is `[B, D]`, the scatter indices a column `[N, 1]`, the
  updates `[N, D]`; update row `n` is added into operand row `idx n`, column by column. ELEMENTS: the operand is `[B]`,
  the scatter indices `[N, 1]`, the updates `[N]`; update `n` is added into element `idx n`. The index is read signed and
  not clamped, and an update whose index falls outside `[0, B)` is dropped. So the result at row `b` is the operand there
  plus the sum of the updates whose index is `b`.

  The dimension numbers are spelt field by field as a printed program's record is, so that record is one of these by `rfl`.
-/
import Idealize.ShloMosaic.PureOps.Ideal
import Idealize.ShloMosaic.Lib.ValueIdx
import Idealize.ShloMosaic.Lib.ValueIdxRank1

open scoped BigOperators

noncomputable section

namespace Idealize.ShloMosaic.SegmentScatter

open Idealize.ShloMosaic Idealize.ShloMosaic.ValueIdx

/-- The dimension numbers of a row scatter: operand `[B, D]`, scatter indices `[N, 1]`, updates `[N, D]`. -/
abbrev rowDims (B D N : Nat)
    (wf : ScatterDims.WF ⟨2, ![B, D]⟩ ⟨2, ![N, 1]⟩ ⟨2, ![N, D]⟩ [1] [0] [0] 1) :
    ScatterDims ⟨2, ![B, D]⟩ ⟨2, ![N, 1]⟩ ⟨2, ![N, D]⟩ where
  updateWindowDims := [1]
  insertedWindowDims := [0]
  scatterDimsToOperandDims := [0]
  indexVectorDim := 1
  wf := wf

/-! ### Rows: start, window and landing index of update `(n, d')` -/

section Rows
variable {B D N w : Nat} (wf : ScatterDims.WF ⟨2, ![B, D]⟩ ⟨2, ![N, 1]⟩ ⟨2, ![N, D]⟩ [1] [0] [0] 1)
  (idx : IVec ⟨2, ![N, 1]⟩ w)

/-- On axis 0 the window of update `(n, d')` starts at the signed value of scatter index `(n, 0)`. -/
theorem row_start0 (n : Fin N) (d' : Fin D) :
    (rowDims B D N wf).start (ix2 n d') idx 0 = (idx (ix2 n (0 : Fin 1))).toInt := by
  unfold ScatterDims.start
  rw [dif_pos (show (0 : Fin 2) ∈ (rowDims B D N wf).scatterDimsToOperandDims from List.mem_singleton.mpr rfl)]
  have hsi : (rowDims B D N wf).siIdx (ix2 n d') ⟨List.idxOf (0 : Fin 2) (rowDims B D N wf).scatterDimsToOperandDims,
      List.idxOf_lt_length_iff.2 (List.mem_singleton.mpr rfl)⟩ = ix2 n (0 : Fin 1) := by
    funext a; refine Fin.ext ?_
    match a with
    | ⟨0, _⟩ => rfl
    | ⟨1, _⟩ => rfl
  rw [hsi]

/-- Axis 1 is not named by the scatter-dims-to-operand-dims map, so the window starts at `0` there. -/
theorem row_start1 (j : (⟨2, ![N, D]⟩ : Shape).Idx) :
    (rowDims B D N wf).start j idx 1 = 0 := by
  unfold ScatterDims.start
  rw [dif_neg (show (1 : Fin 2) ∉ ([0] : List (Fin 2)) by decide)]

/-- Axis 0 is an inserted window axis: the window coordinate there is `0`. -/
theorem row_window0 (j : (⟨2, ![N, D]⟩ : Shape).Idx) :
    (rowDims B D N wf).window j 0 = 0 := by
  unfold ScatterDims.window
  have h : (0 : Fin 2) ∉ (rowDims B D N wf).sKept := (show (0 : Fin 2) ∉ ([1] : List (Fin 2)) by decide)
  rw [dif_neg h]

/-- Axis 1 is the one kept axis, read by update window axis 1: the window coordinate of `(n, d')` is `d'`. -/
theorem row_window1 (n : Fin N) (d' : Fin D) :
    (rowDims B D N wf).window (ix2 n d') 1 = d'.val := by
  unfold ScatterDims.window
  have h : (1 : Fin 2) ∈ (rowDims B D N wf).sKept := (show (1 : Fin 2) ∈ ([1] : List (Fin 2)) by decide)
  rw [dif_pos h]
  rfl

/-- Update `(n, d')` lands at `(b, d)` exactly when its scatter index, read signed, is `b` and `d' = d`; the range
    conditions then hold because `b < B` and `d < D`. -/
theorem row_resultIdx?_eq_some_iff (n : Fin N) (d' : Fin D) (b : Fin B) (d : Fin D) :
    (rowDims B D N wf).resultIdx? (ix2 n d') idx = some (ix2 b d)
      ↔ (idx (ix2 n (0 : Fin 1))).toInt = (b.val : ℤ) ∧ d' = d := by
  unfold ScatterDims.resultIdx?
  constructor
  · intro h
    split at h
    · rename_i hc
      have hf := Option.some.inj h
      have h0 := congrArg (fun f => (f 0).val) hf
      have h1 := congrArg (fun f => (f 1).val) hf
      simp only [row_start0, row_start1, row_window0, row_window1] at h0 h1
      have hc0 := (hc 0).1
      rw [row_start0, row_window0] at hc0
      change ((idx (ix2 n (0 : Fin 1))).toInt + ((0 : ℕ) : ℤ)).toNat = b.val at h0
      change ((0 : ℤ) + (d'.val : ℤ)).toNat = d.val at h1
      refine ⟨by omega, Fin.ext (by omega)⟩
    · exact absurd h (by simp)
  · rintro ⟨ht, rfl⟩
    have hc : ∀ a, 0 ≤ (rowDims B D N wf).start (ix2 n d') idx a + (rowDims B D N wf).window (ix2 n d') a ∧
        (rowDims B D N wf).start (ix2 n d') idx a + (rowDims B D N wf).window (ix2 n d') a
          < (⟨2, ![B, D]⟩ : Shape).size a := by
      intro a
      match a with
      | ⟨0, _⟩ =>
        change 0 ≤ (rowDims B D N wf).start (ix2 n d') idx 0 + ((rowDims B D N wf).window (ix2 n d') 0 : ℕ) ∧
          (rowDims B D N wf).start (ix2 n d') idx 0 + ((rowDims B D N wf).window (ix2 n d') 0 : ℕ) < (B : ℤ)
        rw [row_start0, row_window0, ht]
        have := b.isLt
        omega
      | ⟨1, _⟩ =>
        change 0 ≤ (rowDims B D N wf).start (ix2 n d') idx 1 + ((rowDims B D N wf).window (ix2 n d') 1 : ℕ) ∧
          (rowDims B D N wf).start (ix2 n d') idx 1 + ((rowDims B D N wf).window (ix2 n d') 1 : ℕ) < (D : ℤ)
        rw [row_start1, row_window1]
        have := d'.isLt
        omega
    rw [dif_pos hc]
    congr 1
    funext a; refine Fin.ext ?_
    match a with
    | ⟨0, _⟩ =>
      change ((rowDims B D N wf).start (ix2 n d') idx 0 + ((rowDims B D N wf).window (ix2 n d') 0 : ℕ)).toNat = b.val
      rw [row_start0, row_window0, ht]; omega
    | ⟨1, _⟩ =>
      change ((rowDims B D N wf).start (ix2 n d') idx 1 + ((rowDims B D N wf).window (ix2 n d') 1 : ℕ)).toNat = d'.val
      rw [row_start1, row_window1]; omega

end Rows

/-- A row scatter-add read at `(b, d)`: the operand there plus column `d` of every update row whose index is `b`. -/
theorem rowScatterAdd_apply {B D N w : Nat}
    (wf : ScatterDims.WF ⟨2, ![B, D]⟩ ⟨2, ![N, 1]⟩ ⟨2, ![N, D]⟩ [1] [0] [0] 1)
    (x : (⟨2, ![B, D]⟩ : Shape).Idx → EReal) (idx : IVec ⟨2, ![N, 1]⟩ w) (upd : (⟨2, ![N, D]⟩ : Shape).Idx → EReal)
    (b : Fin B) (d : Fin D) :
    Ideal.hostScatterAdd (rowDims B D N wf) x idx upd (ix2 b d)
      = x (ix2 b d) + ∑ n : Fin N, if (idx (ix2 n (0 : Fin 1))).toInt = (b.val : ℤ) then upd (ix2 n d) else 0 := by
  unfold Ideal.hostScatterAdd
  congr 1
  rw [Finset.sum_filter]
  refine (sum_idx2 _).trans ?_
  refine Finset.sum_congr rfl fun n _ => ?_
  simp only [row_resultIdx?_eq_some_iff]
  by_cases ht : (idx (ix2 n (0 : Fin 1))).toInt = (b.val : ℤ)
  · simp only [ht, true_and, if_true]
    rw [Finset.sum_ite_eq' Finset.univ d (fun d' => upd (ix2 n d'))]
    simp
  · simp only [ht, false_and, if_false]
    exact Finset.sum_const_zero

/-- The dimension numbers of an element scatter: operand `[B]`, scatter indices `[N, 1]`, updates `[N]`. -/
abbrev elemDims (B N : Nat)
    (wf : ScatterDims.WF ⟨1, ![B]⟩ ⟨2, ![N, 1]⟩ ⟨1, ![N]⟩ [] [0] [0] 1) :
    ScatterDims ⟨1, ![B]⟩ ⟨2, ![N, 1]⟩ ⟨1, ![N]⟩ where
  updateWindowDims := []
  insertedWindowDims := [0]
  scatterDimsToOperandDims := [0]
  indexVectorDim := 1
  wf := wf

/-! ### Elements: start, window and landing index of update `n` -/

section Elements
variable {B N w : Nat} (wf : ScatterDims.WF ⟨1, ![B]⟩ ⟨2, ![N, 1]⟩ ⟨1, ![N]⟩ [] [0] [0] 1)
  (idx : IVec ⟨2, ![N, 1]⟩ w)

/-- The window of update `n` starts at the signed value of scatter index `(n, 0)`. -/
theorem elem_start0 (n : Fin N) :
    (elemDims B N wf).start (ix1 n) idx 0 = (idx (ix2 n (0 : Fin 1))).toInt := by
  unfold ScatterDims.start
  rw [dif_pos (show (0 : Fin 1) ∈ (elemDims B N wf).scatterDimsToOperandDims from List.mem_singleton.mpr rfl)]
  have hsi : (elemDims B N wf).siIdx (ix1 n) ⟨List.idxOf (0 : Fin 1) (elemDims B N wf).scatterDimsToOperandDims,
      List.idxOf_lt_length_iff.2 (List.mem_singleton.mpr rfl)⟩ = ix2 n (0 : Fin 1) := by
    funext a; refine Fin.ext ?_
    match a with
    | ⟨0, _⟩ => rfl
    | ⟨1, _⟩ => rfl
  rw [hsi]

/-- The operand's one axis is an inserted window axis: the window coordinate is `0`. -/
theorem elem_window0 (j : (⟨1, ![N]⟩ : Shape).Idx) :
    (elemDims B N wf).window j 0 = 0 := by
  unfold ScatterDims.window
  have h : (0 : Fin 1) ∉ (elemDims B N wf).sKept := (show (0 : Fin 1) ∉ ([] : List (Fin 1)) from List.not_mem_nil)
  rw [dif_neg h]

/-- Update `n` lands at `b` exactly when its scatter index, read signed, is `b`. -/
theorem elem_resultIdx?_eq_some_iff (n : Fin N) (b : Fin B) :
    (elemDims B N wf).resultIdx? (ix1 n) idx = some (ix1 b)
      ↔ (idx (ix2 n (0 : Fin 1))).toInt = (b.val : ℤ) := by
  unfold ScatterDims.resultIdx?
  constructor
  · intro h
    split at h
    · rename_i hc
      have hf := Option.some.inj h
      have h0 := congrArg (fun f => (f 0).val) hf
      have hc0 := (hc 0).1
      rw [elem_start0, elem_window0] at hc0
      simp only [elem_start0, elem_window0] at h0
      change ((idx (ix2 n (0 : Fin 1))).toInt + ((0 : ℕ) : ℤ)).toNat = b.val at h0
      omega
    · exact absurd h (by simp)
  · intro ht
    have hc : ∀ a, 0 ≤ (elemDims B N wf).start (ix1 n) idx a + (elemDims B N wf).window (ix1 n) a ∧
        (elemDims B N wf).start (ix1 n) idx a + (elemDims B N wf).window (ix1 n) a
          < (⟨1, ![B]⟩ : Shape).size a := by
      intro a
      match a with
      | ⟨0, _⟩ =>
        change 0 ≤ (elemDims B N wf).start (ix1 n) idx 0 + ((elemDims B N wf).window (ix1 n) 0 : ℕ) ∧
          (elemDims B N wf).start (ix1 n) idx 0 + ((elemDims B N wf).window (ix1 n) 0 : ℕ) < (B : ℤ)
        rw [elem_start0, elem_window0, ht]
        have := b.isLt
        omega
    rw [dif_pos hc]
    congr 1
    funext a; refine Fin.ext ?_
    match a with
    | ⟨0, _⟩ =>
      change ((elemDims B N wf).start (ix1 n) idx 0 + ((elemDims B N wf).window (ix1 n) 0 : ℕ)).toNat = b.val
      rw [elem_start0, elem_window0, ht]; omega

end Elements

/-- An element scatter-add read at `b`: the operand there plus every update whose index is `b`. -/
theorem elemScatterAdd_apply {B N w : Nat}
    (wf : ScatterDims.WF ⟨1, ![B]⟩ ⟨2, ![N, 1]⟩ ⟨1, ![N]⟩ [] [0] [0] 1)
    (x : (⟨1, ![B]⟩ : Shape).Idx → EReal) (idx : IVec ⟨2, ![N, 1]⟩ w) (upd : (⟨1, ![N]⟩ : Shape).Idx → EReal)
    (b : Fin B) :
    Ideal.hostScatterAdd (elemDims B N wf) x idx upd (ix1 b)
      = x (ix1 b) + ∑ n : Fin N, if (idx (ix2 n (0 : Fin 1))).toInt = (b.val : ℤ) then upd (ix1 n) else 0 := by
  unfold Ideal.hostScatterAdd
  congr 1
  rw [Finset.sum_filter]
  refine (Equiv.sum_comp (idxEquiv1 (n := N)).symm _).symm.trans ?_
  refine Finset.sum_congr rfl fun n _ => ?_
  change (if (elemDims B N wf).resultIdx? (ix1 n) idx = some (ix1 b) then upd (ix1 n) else 0) = _
  simp only [elem_resultIdx?_eq_some_iff]

end Idealize.ShloMosaic.SegmentScatter

end
-- ==== Proof.LibTakeRows.lean ====
/-
  Two shapes of `stablehlo.gather` that jnp's indexing by an integer vector lowers to, each read at one result index.

  * ROWS OF A TABLE (`jnp.take(table, idx, axis=0)` of a table `[N, D]` at `n` positions, the start indices an
    `[n, 1]` column): result element `(i, k)` is the table's element `(r, k)`, where `r` is the start index of position
    `i` read signed and clamped into `[0, N - 1]`.
  * ONE ELEMENT PER ROW (`jnp.take_along_axis(a, idx[:, None], axis=1)` of `a : [n, M]`, row `i` being a batch of its
    own, the start indices `[n, 1, 1]`): result element `(i, q)` is `a`'s element `(i, r)`, where `r` is the start
    index at `(i, q, 0)` read signed and clamped into `[0, M - 1]`.

  The dimension numbers are spelt field by field as a printed program's record is, so that record is one of these by `rfl`.
-/
import Idealize.ShloMosaic.Lib.ValueIdx

namespace Idealize.ShloMosaic.TakeRows

open Idealize.ShloMosaic Idealize.ShloMosaic.ValueIdx

variable {α : Type}

/-! ## Rows of a table -/

/-- The dimension numbers of a row take: operand `[N, D]`, start indices `[n, 1]`, result `[n, D]`. -/
abbrev rowDims (N D n : Nat)
    (wf : GatherDims.WF ⟨2, ![N, D]⟩ ⟨2, ![n, 1]⟩ ⟨2, ![n, D]⟩ [1] [0] [] [0] [] 1 ![1, D]) :
    GatherDims ⟨2, ![N, D]⟩ ⟨2, ![n, 1]⟩ ⟨2, ![n, D]⟩ where
  offsetDims := [1]
  collapsedSliceDims := [0]
  operandBatchingDims := []
  startIndicesBatchingDims := []
  startIndexMap := [0]
  indexVectorDim := 1
  sliceSizes := ![1, D]
  wf := wf

/-- A row take read at `(i, k)`: column `k` of the row the clamped start index of position `i` names. -/
theorem rowTake_apply {N D n w : Nat} (hN : 0 < N)
    (wf : GatherDims.WF ⟨2, ![N, D]⟩ ⟨2, ![n, 1]⟩ ⟨2, ![n, D]⟩ [1] [0] [] [0] [] 1 ![1, D])
    (x : (⟨2, ![N, D]⟩ : Shape).Idx → α) (idx : IVec ⟨2, ![n, 1]⟩ w) (i : Fin n) (k : Fin D) :
    Host.gather (rowDims N D n wf) x idx (ix2 i k)
      = x (ix2 ⟨min (idx (ix2 i (0 : Fin 1))).toInt.toNat (N - 1), by omega⟩ k) := by
  unfold Host.gather
  congr 1
  funext a
  refine Fin.ext ?_
  match a with
  | ⟨0, _⟩ =>
    show (rowDims N D n wf).start (ix2 i k) idx 0 + (rowDims N D n wf).batchCoord (ix2 i k) 0
      + (rowDims N D n wf).offCoord (ix2 i k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D n wf).startIndexMap from List.mem_singleton.mpr rfl)]
    have hsi : (rowDims N D n wf).siIdx (ix2 i k) ⟨List.idxOf (0 : Fin 2) (rowDims N D n wf).startIndexMap,
        List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  | ⟨1, _⟩ =>
    show (rowDims N D n wf).start (ix2 i k) idx 1 + (rowDims N D n wf).batchCoord (ix2 i k) 1
      + (rowDims N D n wf).offCoord (ix2 i k) 1 = k.val
    rw [GatherDims.batchCoord_eq_zero _ _ _ List.not_mem_nil]
    unfold GatherDims.start
    rw [dif_neg (show ¬(1 : Fin 2) ∈ (rowDims N D n wf).startIndexMap from (by decide : (1 : Fin 2) ∉ ([0] : List (Fin 2))))]
    simp only [Nat.add_zero, Nat.zero_add]
    rfl

/-! ## One element per row -/

/-- The dimension numbers of `take_along_axis` along axis 1 with one index per row: operand `[n, M]`, start
    indices `[n, Q, 1]`, result `[n, Q]`; axis 0 is a batching axis of both. -/
abbrev alongDims (n M Q : Nat)
    (wf : GatherDims.WF ⟨2, ![n, M]⟩ ⟨3, ![n, Q, 1]⟩ ⟨2, ![n, Q]⟩ [] [1] [0] [1] [0] 2 ![1, 1]) :
    GatherDims ⟨2, ![n, M]⟩ ⟨3, ![n, Q, 1]⟩ ⟨2, ![n, Q]⟩ where
  offsetDims := []
  collapsedSliceDims := [1]
  operandBatchingDims := [0]
  startIndicesBatchingDims := [0]
  startIndexMap := [1]
  indexVectorDim := 2
  sliceSizes := ![1, 1]
  wf := wf

/-- That gather read at `(i, q)`: row `i` of the operand at the clamped start index at `(i, q, 0)`. -/
theorem alongTake_apply {n M Q w : Nat} (hM : 0 < M)
    (wf : GatherDims.WF ⟨2, ![n, M]⟩ ⟨3, ![n, Q, 1]⟩ ⟨2, ![n, Q]⟩ [] [1] [0] [1] [0] 2 ![1, 1])
    (x : (⟨2, ![n, M]⟩ : Shape).Idx → α) (idx : IVec ⟨3, ![n, Q, 1]⟩ w) (i : Fin n) (q : Fin Q) :
    Host.gather (alongDims n M Q wf) x idx (ix2 i q)
      = x (ix2 i ⟨min (idx (ix3 i q (0 : Fin 1))).toInt.toNat (M - 1), by omega⟩) := by
  unfold Host.gather
  congr 1
  funext a
  refine Fin.ext ?_
  match a with
  | ⟨0, _⟩ =>
    show (alongDims n M Q wf).start (ix2 i q) idx 0 + (alongDims n M Q wf).batchCoord (ix2 i q) 0
      + (alongDims n M Q wf).offCoord (ix2 i q) 0 = i.val
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    rfl
  | ⟨1, _⟩ =>
    show (alongDims n M Q wf).start (ix2 i q) idx 1 + (alongDims n M Q wf).batchCoord (ix2 i q) 1
      + (alongDims n M Q wf).offCoord (ix2 i q) 1 = _
    rw [GatherDims.batchCoord_eq_zero _ _ _ (show ¬(1 : Fin 2) ∈ (alongDims n M Q wf).operandBatchingDims from (by decide : (1 : Fin 2) ∉ ([0] : List (Fin 2)))),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims n M Q wf).startIndexMap from List.mem_singleton.mpr rfl)]
    have hsi : (alongDims n M Q wf).siIdx (ix2 i q) ⟨List.idxOf (1 : Fin 2) (alongDims n M Q wf).startIndexMap,
        List.idxOf_lt_length_iff.2 (List.mem_singleton.mpr rfl)⟩ = ix3 i q (0 : Fin 1) := by
      funext b; refine Fin.ext ?_
      match b with
      | ⟨0, _⟩ => rfl
      | ⟨1, _⟩ => rfl
      | ⟨2, _⟩ => rfl
    rw [hsi]
    rfl

end Idealize.ShloMosaic.TakeRows
-- ==== Proof.LibTakeElems.lean ====
/-
  The shape of `stablehlo.gather` that indexing a flat array by an integer vector lowers to, read at one result index.

  ELEMENTS OF A VECTOR (`x[idx]` of `x : [N]` at `n` positions, the start indices an `[n, 1]` column): result element
  `i` is the operand's element `r`, where `r` is the start index of position `i` read signed and clamped into
  `[0, N - 1]`. The operand's one axis is collapsed, so the result has no offset axis.

  The dimension numbers are spelt field by field as a printed program's record is, so that record is one of these by `rfl`.
-/
import Idealize.ShloMosaic.Lib.ValueIdx

namespace Idealize.ShloMosaic.TakeElems

open Idealize.ShloMosaic Idealize.ShloMosaic.ValueIdx

variable {α : Type}

/-- The dimension numbers of an element take: operand `[N]`, start indices `[n, 1]`, result `[n]`. -/
abbrev elemDims (N n : Nat)
    (wf : GatherDims.WF ⟨1, ![N]⟩ ⟨2, ![n, 1]⟩ ⟨1, ![n]⟩ [] [0] [] [0] [] 1 ![1]) :
    GatherDims ⟨1, ![N]⟩ ⟨2, ![n, 1]⟩ ⟨1, ![n]⟩ where
  offsetDims := []
  collapsedSliceDims := [0]
  operandBatchingDims := []
  startIndicesBatchingDims := []
  startIndexMap := [0]
  indexVectorDim := 1
  sliceSizes := ![1]
  wf := wf

/-- An element take read at `i`: the operand at the clamped start index of position `i`. -/
theorem elemTake_apply {N n w : Nat} (hN : 0 < N)
    (wf : GatherDims.WF ⟨1, ![N]⟩ ⟨2, ![n, 1]⟩ ⟨1, ![n]⟩ [] [0] [] [0] [] 1 ![1])
    (x : (⟨1, ![N]⟩ : Shape).Idx → α) (idx : IVec ⟨2, ![n, 1]⟩ w) (i : Fin n) :
    Host.gather (elemDims N n wf) x idx (ix1 i)
      = x (ix1 ⟨min (idx (ix2 i (0 : Fin 1))).toInt.toNat (N - 1), by omega⟩) := by
  unfold Host.gather
  congr 1
  funext a
  obtain rfl : a = 0 := Subsingleton.elim _ _
  refine Fin.ext ?_
  show (elemDims N n wf).start (ix1 i) idx 0 + (elemDims N n wf).batchCoord (ix1 i) 0
    + (elemDims N n wf).offCoord (ix1 i) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemDims N n wf).startIndexMap from List.mem_singleton.mpr rfl)]
  have hsi : (elemDims N n wf).siIdx (ix1 i) ⟨List.idxOf (0 : Fin 1) (elemDims N n wf).startIndexMap,
      List.idxOf_lt_length_iff.2 (List.mem_singleton.mpr rfl)⟩ = ix2 i (0 : Fin 1) := by
    funext b; refine Fin.ext ?_
    match b with
    | ⟨0, _⟩ => rfl
    | ⟨1, _⟩ => rfl
  rw [hsi]
  rfl

end Idealize.ShloMosaic.TakeElems
-- ==== Proof.LibIndexRange.lean ====
/-
  Two general facts a proof meets when an integer input indexes an array.

  Words: a 32-bit word `w` with `0 ≤ w` and `w < n` as signed comparisons (`n` below 2³¹) has a signed value in
  `[0, n)`; for such a word the signed test `w < 0` fails, `w ≤ n - 1` holds, and the value read signed and clamped
  into `[0, n - 1]` is the value itself.

  Conjunctions: a `reduce` by `and` of one-bit words, started at 1, over an operand that is 1 everywhere is 1 at every
  result index (the converse of "a conjunction that is 1 met only 1s").
-/
import Idealize.ShloMosaic.Lib.ReduceAll
import Idealize.ShloMosaic.Lib.StableHlo.Predicate

namespace Idealize.ShloMosaic.IndexRange

open Idealize.ShloMosaic Idealize.ShloMosaic.StableHlo.Predicate

/-! ## Words in a range -/

/-- The signed value of a word that passes `0 ≤ w` and `w < n`. -/
theorem toInt_mem_of_cmpi {w : BitVec 32} (n : Nat) (hn : n < 2 ^ 31)
    (h0 : IntOp.cmpi .sge w 0#32 = 1#1) (h1 : IntOp.cmpi .slt w (BitVec.ofNat 32 n) = 1#1) :
    0 ≤ w.toInt ∧ w.toInt < n := by
  unfold IntOp.cmpi at h0 h1
  rw [ofBool_eq_one_iff] at h0 h1
  simp only [BitVec.sle, BitVec.slt, decide_eq_true_eq] at h0 h1
  rw [toInt_ofNat_small n hn] at h1
  exact ⟨by simpa using h0, h1⟩

/-- A word with a non-negative signed value fails the signed test `w < 0`. -/
theorem slt_zero_eq_zero {w : BitVec 32} (h : 0 ≤ w.toInt) : IntOp.cmpi .slt w 0#32 = 0#1 := by
  unfold IntOp.cmpi
  have : w.slt 0#32 = false := by
    simp only [BitVec.slt, decide_eq_false_iff_not, not_lt]
    simpa using h
  rw [this]; rfl

/-- A word with a non-negative signed value passes the signed test `0 ≤ w`. -/
theorem sge_zero_eq_one {w : BitVec 32} (h : 0 ≤ w.toInt) : IntOp.cmpi .sge w 0#32 = 1#1 := by
  unfold IntOp.cmpi
  rw [ofBool_eq_one_iff]
  simp only [BitVec.sle, decide_eq_true_eq]
  simpa using h

/-- For such a word the select "`w + n` if `w < 0`, else `w`" (an index counted from the end made absolute) is `w`. -/
theorem select_wrap_eq {w : BitVec 32} (n : BitVec 32) (h : 0 ≤ w.toInt) :
    Scalar.select (IntOp.cmpi .slt w 0#32) (IntOp.addi w n) w = w := by
  rw [slt_zero_eq_zero h]
  exact if_neg (by decide)

/-- A word whose signed value is at most `k` passes the signed test `w ≤ k`. -/
theorem sle_eq_one {w : BitVec 32} (k : Nat) (hk : k < 2 ^ 31) (h : w.toInt ≤ k) :
    IntOp.cmpi .sle w (BitVec.ofNat 32 k) = 1#1 := by
  unfold IntOp.cmpi
  rw [ofBool_eq_one_iff]
  simp only [BitVec.sle, decide_eq_true_eq]
  rw [toInt_ofNat_small k hk]
  exact h

/-- Read signed and clamped into `[0, k]`, a word whose signed value lies there is its own value. -/
theorem clamp_toNat {w : BitVec 32} (k : Nat) (h0 : 0 ≤ w.toInt) (h1 : w.toInt ≤ k) :
    min w.toInt.toNat k = w.toInt.toNat := by
  omega

/-! ## A conjunction of ones -/

/-- A left fold by `and` from 1 over one-bit words that are all 1 is 1. -/
theorem foldl_andi_of_forall {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), show IntOp.andi 1#1 1#1 = 1#1 from by decide]
    exact foldl_andi_of_forall f l fun n hn => h n (List.mem_cons_of_mem _ hn)

/-- A `reduce` by `and` from an initial 1 over an operand that is 1 everywhere is 1 at every result index. -/
theorem reduce_andi_of_forall {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_of_forall x _ fun n _ => hx n

end Idealize.ShloMosaic.IndexRange
-- ==== Proof.KernelTail.lean ====
/-
  The value of the kernel program's host tail at an index.

  After its one matrix product — which leaves, in an array h of 100000 rows and 1152 columns, the self term x·root in
  columns 0 … 127 and relation r's messages x·W[r] in columns 128 + 128 r … 128 + 128 r + 127 — the program runs
  ninety-two host operations in eight stretches: the one-hot rows of the relation labels; the per-(node, relation) counts,
  an accumulating scatter of those rows at the edges' destinations; the flat index source · 8 + label and the rows of h,
  viewed as a table of 800000 rows of 128, taken there; the flat index destination · 8 + label and the counts, viewed as
  800000 numbers, taken there; the reciprocal of max(count, 1); the messages times it, added up at the destinations by a
  second accumulating scatter; the sum with x·root + bias; and the maximum with 0.

  This module names that composition as a function tailOut of the four arrays it reads (the edge array, the labels, h and
  the bias), proves that the run of the operations leaves exactly it in the result buffer (stretch by stretch: what each
  stretch leaves in the buffers a later one reads), and reads it at an index (n, j): for sources that are node numbers and
  labels that are relations it is the EDGE BY EDGE arrangement of the convolution with h's entries for the products. An edge
  whose destination is no node lands nowhere in either scatter; for an edge that ends at n the flat count index is
  n · 8 + label, in range, so neither take's out-of-bounds filler is ever read where it matters, and the 32-bit arithmetic of
  the flat indices does not wrap.
-/
import proofs.«418642_j27049704030600_1_alg».proof.Proof.Gen.KernelIdeal.Launch
import proofs.«418642_j27049704030600_1_alg».proof.Proof.Spec
import proofs.«418642_j27049704030600_1_alg».proof.Proof.LibSegmentScatter
import proofs.«418642_j27049704030600_1_alg».proof.Proof.LibTakeRows
import proofs.«418642_j27049704030600_1_alg».proof.Proof.LibTakeElems
import proofs.«418642_j27049704030600_1_alg».proof.Proof.LibIndexRange
import Idealize.ShloMosaic.Lib.StableHlo.Run
import Idealize.ShloMosaic.Lib.Pipeline.Value
import Idealize.ShloMosaic.Lib.ValueIdx
import Idealize.ShloMosaic.PureOps.Ideal.Laws
import Idealize.ShloMosaic.Lib.IdealHost
import Idealize.ShloMosaic.Lib.ReduceAll

open scoped BigOperators

noncomputable section

namespace Cert.KernelIdeal.Tail

open Cert.KernelIdeal Cert.KernelIdeal.Gen Cert.RelConv
open Idealize.ShloMosaic Idealize.ShloMosaic.ValueIdx

abbrev tailList : List (HloOp τ sig (Elt Ideal)) := List.flatten [hostOps1, hostOps1_1, hostOps1_2, hostOps1_3, hostOps1_4, hostOps1_5, hostOps1_6, hostOps1_7]

/-! ## The host operations after the matrix product, as functions of the four arrays they read

Throughout, a1 is the edge array (row 0 the sources, row 1 the destinations), a2 the relation labels, h the matrix
product's result (column block 0 the self term, block 1 + r relation r's messages) and b the bias. -/

section Defs

variable (a1 : IVec S2x600000 32) (a2 : IVec S600000 32) (h : FVec Ideal S100000x1152 .f32) (b : FVec Ideal S128 .f32)

/-- Row 0 of the edge array: the source words. -/
def srcW : IVec S600000 32 := fun i =>
  shapeCast S600000 (extractStridedSlice S1x600000 ![0, 0] a1 slices_S2x600000_S1x600000_0_0) shapeCasts_S1x600000_S600000 i

/-- Row 1 of the edge array: the destination words. -/
def dstW : IVec S600000 32 := fun i =>
  shapeCast S600000 (extractStridedSlice S1x600000 ![1, 0] a1 slices_S2x600000_S1x600000_1_0) shapeCasts_S1x600000_S600000 i

/-- The flat index hi · 8 + lo, in 32-bit words. -/
def flatIdx (hi lo : IVec S600000 32) : IVec S600000 32 :=
  addi (muli hi (broadcastInDim S600000 ![] bcast_S_S600000 (constantI S_ 32 8#32))) lo

/-- A vector of words as a one-column array. -/
def colOf (w : IVec S600000 32) : IVec S600000x1 32 := broadcastInDim S600000x1 ![0] bcast_S600000_S600000x1_0 w

/-- The one-hot rows of the labels: 1 at (e, r) when edge e carries label r, else 0. -/
def oneHot : FVec Ideal S600000x8 .f32 :=
  uitofp .f32 (cmpi .eq
    (broadcastInDim S600000x8 ![0, 1] bcast_S600000x1_S600000x8_0_1 (broadcastInDim S600000x1 ![0] bcast_S600000_S600000x1_0 a2))
    (broadcastInDim S600000x8 ![0, 1] bcast_S1x8_S600000x8_0_1 (iotaInDim S1x8 32 1)))

/-- The per-(node, relation) counts: the one-hot rows added up at the destinations. -/
def counts : FVec Ideal S100000x8 .f32 :=
  Host.scatterAdd scatter_S100000x8_S600000x1_S600000x8_1_0_0_1
    (broadcastInDim S100000x8 ![] bcast_S_S100000x8 (constant S_ .f32 0x00000000#32)) (colOf (dstW a1)) (oneHot a2)

/-- The counts as a flat vector, position n · 8 + r. -/
def cntFlat : FVec Ideal S800000 .f32 := fun i => shapeCast S800000 (counts a1 a2) shapeCasts_S100000x8_S800000 i

/-- The messages as a table of 800000 rows: row s · 8 + r is row s of h, columns 128 + 128 r and on. -/
def hTab : FVec Ideal S800000x128 .f32 := fun i =>
  shapeCast S800000x128
    (fun i => shapeCast S100000x8x128 (extractStridedSlice S100000x1024 ![0, 128] h slices_S100000x1152_S100000x1024_0_128)
      shapeCasts_S100000x1024_S100000x8x128 i)
    shapeCasts_S100000x8x128_S800000x128 i

/-- An index counted from the end made absolute: w + 800000 where w is negative, else w. -/
def wrapW (w : IVec S600000 32) : IVec S600000 32 :=
  select (cmpi .slt w (broadcastInDim S600000 ![] bcast_S_S600000 (constantI S_ 32 0#32)))
    (addi w (broadcastInDim S600000 ![] bcast_S_S600000 (constantI S_ 32 800000#32))) w

/-- The in-bounds test of a column of indices: 0 ≤ c ≤ 799999, row by row. -/
def inBounds (c : IVec S600000x1 32) : IVec S600000 1 :=
  Host.reduce IntOp.andi
    (andi (cmpi .sge c (broadcastInDim S600000x1 ![] bcast_S_S600000x1 (constantI S_ 32 0#32)))
      (cmpi .sle c (broadcastInDim S600000x1 ![0, 1] bcast_S1x1_S600000x1_0_1
        (broadcastInDim S1x1 ![1] bcast_S1_S1x1_1 (constantI S1 32 799999#32)))))
    (constantI S_ 1 1#1) reducesTo_S600000x1_S600000_d1 h_S_

/-- Rows of a table taken at a vector of indices; a not-a-number row where the index is out of bounds. -/
def takeRows (table : FVec Ideal S800000x128 .f32) (w : IVec S600000 32) : FVec Ideal S600000x128 .f32 :=
  select (broadcastInDim S600000x128 ![0] bcast_S600000_S600000x128_0 (inBounds (colOf (wrapW w))))
    (Host.gather gather_S800000x128_S600000x1_S600000x128_1_0_n_n_0_1_1128 table (colOf (wrapW w)))
    (broadcastInDim S600000x128 ![] bcast_S_S600000x128 (constant S_ .f32 0x7FC00000#32))

/-- Elements of a flat table taken at a vector of indices; a not-a-number where the index is out of bounds. -/
def takeElems (table : FVec Ideal S800000 .f32) (w : IVec S600000 32) : FVec Ideal S600000 .f32 :=
  select (inBounds (colOf (wrapW w)))
    (Host.gather gather_S800000_S600000x1_S600000_n_0_n_n_0_1_1 table (colOf (wrapW w)))
    (broadcastInDim S600000 ![] bcast_S_S600000 (constant S_ .f32 0x7FC00000#32))

/-- The reciprocal of max(c, 1), element by element. -/
def recip (c : FVec Ideal S600000 .f32) : FVec Ideal S600000 .f32 :=
  Host.divf (broadcastInDim S600000 ![] bcast_S_S600000 (constant S_ .f32 0x3F800000#32))
    (maximumf c (broadcastInDim S600000 ![] bcast_S_S600000 (constant S_ .f32 0x3F800000#32)))

/-- The weighted messages: each edge's message row times the reciprocal of its (destination, relation) count. -/
def weighted : FVec Ideal S600000x128 .f32 :=
  mulf (takeRows (hTab h) (flatIdx (srcW a1) a2))
    (broadcastInDim S600000x128 ![0, 1] bcast_S600000x1_S600000x128_0_1
      (broadcastInDim S600000x1 ![0] bcast_S600000_S600000x1_0
        (recip (takeElems (cntFlat a1 a2) (flatIdx (dstW a1) a2)))))

/-- The whole tail: self term plus bias, plus the weighted messages added up at the destinations, rectified. -/
def tailOut : FVec Ideal S100000x128 .f32 :=
  maximumf
    (addf
      (addf (extractStridedSlice S100000x128 ![0, 0] h slices_S100000x1152_S100000x128_0_0)
        (broadcastInDim S100000x128 ![0, 1] bcast_S1x128_S100000x128_0_1 (broadcastInDim S1x128 ![1] bcast_S128_S1x128_1 b)))
      (Host.scatterAdd scatter_S100000x128_S600000x1_S600000x128_1_0_0_1
        (broadcastInDim S100000x128 ![] bcast_S_S100000x128 (constant S_ .f32 0x00000000#32)) (colOf (dstW a1))
        (weighted a1 a2 h)))
    (broadcastInDim S100000x128 ![] bcast_S_S100000x128 (constant S_ .f32 0x00000000#32))

end Defs

/-! ## The eight stretches, one at a time

For each stretch of host operations, what it leaves in the buffers a later stretch reads, from any contents V: a buffer
the stretch writes holds its operation's value of the contents before; a buffer it does not write keeps its contents. -/

/-- Running two lists of operations one after the other is running their concatenation. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

section Stages
variable (V : Valuation τ sig (Elt Ideal))

theorem st1_v8 : StableHlo.after (hostOps1 : List (HloOp τ sig (Elt Ideal))) V (no_index (Proc.devRef .tc main_v8)) = (addf (extractStridedSlice S100000x128 ![0, 0] (V (Proc.devRef .tc main_v4)) slices_S100000x1152_S100000x128_0_0)
        (broadcastInDim S100000x128 ![0, 1] bcast_S1x128_S100000x128_0_1 (broadcastInDim S1x128 ![1] bcast_S128_S1x128_1 (V (Proc.devRef .tc main_arg5)))) : FVec Ideal S100000x128 .f32) := by
  simp only [hostOps1]
  after_results_simp
  try rfl

theorem st1_v10 : StableHlo.after (hostOps1 : List (HloOp τ sig (Elt Ideal))) V (no_index (Proc.devRef .tc main_v10)) = (fun i => shapeCast S100000x8x128 (extractStridedSlice S100000x1024 ![0, 128] (V (Proc.devRef .tc main_v4)) slices_S100000x1152_S100000x1024_0_128) shapeCasts_S100000x1024_S100000x8x128 i : FVec Ideal S100000x8x128 .f32) := by
  simp only [hostOps1]
  after_results_simp
  try rfl

theorem st1_v12 : StableHlo.after (hostOps1 : List (HloOp τ sig (Elt Ideal))) V (no_index (Proc.devRef .tc main_v12)) = srcW (V (Proc.devRef .tc main_arg1)) := by
  simp only [hostOps1]
  after_results_simp
  try rfl

theorem st1_v14 : StableHlo.after (hostOps1 : List (HloOp τ sig (Elt Ideal))) V (no_index (Proc.devRef .tc main_v14)) = dstW (V (Proc.devRef .tc main_arg1)) := by
  simp only [hostOps1]
  after_results_simp
  try rfl

theorem st1_arg2 : StableHlo.after (hostOps1 : List (HloOp τ sig (Elt Ideal))) V (no_index (Proc.devRef .tc main_arg2)) = V (Proc.devRef .tc main_arg2) := by
  simp only [hostOps1]
  after_results_simp

set_option maxRecDepth 4096 in
theorem st2_v15 : StableHlo.after (hostOps1_1 : List (HloOp τ sig (Elt Ideal))) V (no_index (Proc.devRef .tc main_v15)) = oneHot (V (Proc.devRef .tc main_arg2)) := by
  simp only [hostOps1_1]
  after_results_simp
  simp only [StableHlo.TRef.toBuf, StableHlo.TRef.ofBuf, cast_eq]
  unfold oneHot
  rfl

theorem st2_v8 : StableHlo.after (hostOps1_1 : List (HloOp τ sig (Elt Ideal))) V (no_index (Proc.devRef .tc main_v8)) = V (Proc.devRef .tc main_v8) := by
  simp only [hostOps1_1]
  after_results_simp

theorem st2_v10 : StableHlo.after (hostOps1_1 : List (HloOp τ sig (Elt Ideal))) V (no_index (Proc.devRef .tc main_v10)) = V (Proc.devRef .tc main_v10) := by
  simp only [hostOps1_1]
  after_results_simp

theorem st2_v12 : StableHlo.after (hostOps1_1 : List (HloOp τ sig (Elt Ideal))) V (no_index (Proc.devRef .tc main_v12)) = V (Proc.devRef .tc main_v12) := by
  simp only [hostOps1_1]
  after_results_simp

theorem st2_v14 : StableHlo.after (hostOps1_1 : List (HloOp τ sig (Elt Ideal))) V (no_index (Proc.devRef .tc main_v14)) = V (Proc.devRef .tc main_v14) := by
  simp only [hostOps1_1]
  after_results_simp

theorem st2_arg2 : StableHlo.after (hostOps1_1 : List (HloOp τ sig (Elt Ideal))) V (no_index (Proc.devRef .tc main_arg2)) = V (Proc.devRef .tc main_arg2) := by
  simp only [hostOps1_1]
  after_results_simp

theorem st3_v18 : StableHlo.after (hostOps1_2 : List (HloOp τ sig (Elt Ideal))) V (no_index (Proc.devRef .tc main_v18)) = (Host.scatterAdd scatter_S100000x8_S600000x1_S600000x8_1_0_0_1
      (broadcastInDim S100000x8 ![] bcast_S_S100000x8 (constant S_ .f32 0x00000000#32)) (colOf (V (Proc.devRef .tc main_v14))) (V (Proc.devRef .tc main_v15)) : FVec Ideal S100000x8 .f32) := by
  simp only [hostOps1_2]
  after_results_simp
  try rfl

theorem st3_v19 : StableHlo.after (hostOps1_2 : List (HloOp τ sig (Elt Ideal))) V (no_index (Proc.devRef .tc main_v19)) = (fun i => shapeCast S800000x128 (V (Proc.devRef .tc main_v10)) shapeCasts_S100000x8x128_S800000x128 i : FVec Ideal S800000x128 .f32) := by
  simp only [hostOps1_2]
  after_results_simp
  try rfl

theorem st3_v22 : StableHlo.after (hostOps1_2 : List (HloOp τ sig (Elt Ideal))) V (no_index (Proc.devRef .tc main_v22)) = flatIdx (V (Proc.devRef .tc main_v12)) (V (Proc.devRef .tc main_arg2)) := by
  simp only [hostOps1_2]
  after_results_simp
  try rfl

theorem st3_v8 : StableHlo.after (hostOps1_2 : List (HloOp τ sig (Elt Ideal))) V (no_index (Proc.devRef .tc main_v8)) = V (Proc.devRef .tc main_v8) := by
  simp only [hostOps1_2]
  after_results_simp

theorem st3_v14 : StableHlo.after (hostOps1_2 : List (HloOp τ sig (Elt Ideal))) V (no_index (Proc.devRef .tc main_v14)) = V (Proc.devRef .tc main_v14) := by
  simp only [hostOps1_2]
  after_results_simp

theorem st3_arg2 : StableHlo.after (hostOps1_2 : List (HloOp τ sig (Elt Ideal))) V (no_index (Proc.devRef .tc main_arg2)) = V (Proc.devRef .tc main_arg2) := by
  simp only [hostOps1_2]
  after_results_simp

set_option maxRecDepth 4096 in
theorem st4_v23 : StableHlo.after (hostOps1_3 : List (HloOp τ sig (Elt Ideal))) V (no_index (Proc.devRef .tc main_v23)) = takeRows (V (Proc.devRef .tc main_v19)) (V (Proc.devRef .tc main_v22)) := by
  simp only [hostOps1_3]
  after_results_simp
  simp only [StableHlo.TRef.toBuf, StableHlo.TRef.ofBuf, cast_eq]
  unfold takeRows inBounds colOf wrapW
  rfl

theorem st4_v8 : StableHlo.after (hostOps1_3 : List (HloOp τ sig (Elt Ideal))) V (no_index (Proc.devRef .tc main_v8)) = V (Proc.devRef .tc main_v8) := by
  simp only [hostOps1_3]
  after_results_simp

theorem st4_v14 : StableHlo.after (hostOps1_3 : List (HloOp τ sig (Elt Ideal))) V (no_index (Proc.devRef .tc main_v14)) = V (Proc.devRef .tc main_v14) := by
  simp only [hostOps1_3]
  after_results_simp

theorem st4_arg2 : StableHlo.after (hostOps1_3 : List (HloOp τ sig (Elt Ideal))) V (no_index (Proc.devRef .tc main_arg2)) = V (Proc.devRef .tc main_arg2) := by
  simp only [hostOps1_3]
  after_results_simp

theorem st4_v18 : StableHlo.after (hostOps1_3 : List (HloOp τ sig (Elt Ideal))) V (no_index (Proc.devRef .tc main_v18)) = V (Proc.devRef .tc main_v18) := by
  simp only [hostOps1_3]
  after_results_simp

theorem st5_v24 : StableHlo.after (hostOps1_4 : List (HloOp τ sig (Elt Ideal))) V (no_index (Proc.devRef .tc main_v24)) = (fun i => shapeCast S800000 (V (Proc.devRef .tc main_v18)) shapeCasts_S100000x8_S800000 i : FVec Ideal S800000 .f32) := by
  simp only [hostOps1_4]
  after_results_simp
  try rfl

theorem st5_v27 : StableHlo.after (hostOps1_4 : List (HloOp τ sig (Elt Ideal))) V (no_index (Proc.devRef .tc main_v27)) = flatIdx (V (Proc.devRef .tc main_v14)) (V (Proc.devRef .tc main_arg2)) := by
  simp only [hostOps1_4]
  after_results_simp
  try rfl

theorem st5_v8 : StableHlo.after (hostOps1_4 : List (HloOp τ sig (Elt Ideal))) V (no_index (Proc.devRef .tc main_v8)) = V (Proc.devRef .tc main_v8) := by
  simp only [hostOps1_4]
  after_results_simp

theorem st5_v14 : StableHlo.after (hostOps1_4 : List (HloOp τ sig (Elt Ideal))) V (no_index (Proc.devRef .tc main_v14)) = V (Proc.devRef .tc main_v14) := by
  simp only [hostOps1_4]
  after_results_simp

theorem st5_v23 : StableHlo.after (hostOps1_4 : List (HloOp τ sig (Elt Ideal))) V (no_index (Proc.devRef .tc main_v23)) = V (Proc.devRef .tc main_v23) := by
  simp only [hostOps1_4]
  after_results_simp

set_option maxRecDepth 4096 in
theorem st6_v28 : StableHlo.after (hostOps1_5 : List (HloOp τ sig (Elt Ideal))) V (no_index (Proc.devRef .tc main_v28)) = takeElems (V (Proc.devRef .tc main_v24)) (V (Proc.devRef .tc main_v27)) := by
  simp only [hostOps1_5]
  after_results_simp
  simp only [StableHlo.TRef.toBuf, StableHlo.TRef.ofBuf, cast_eq]
  unfold takeElems inBounds colOf wrapW
  rfl

theorem st6_v8 : StableHlo.after (hostOps1_5 : List (HloOp τ sig (Elt Ideal))) V (no_index (Proc.devRef .tc main_v8)) = V (Proc.devRef .tc main_v8) := by
  simp only [hostOps1_5]
  after_results_simp

theorem st6_v14 : StableHlo.after (hostOps1_5 : List (HloOp τ sig (Elt Ideal))) V (no_index (Proc.devRef .tc main_v14)) = V (Proc.devRef .tc main_v14) := by
  simp only [hostOps1_5]
  after_results_simp

theorem st6_v23 : StableHlo.after (hostOps1_5 : List (HloOp τ sig (Elt Ideal))) V (no_index (Proc.devRef .tc main_v23)) = V (Proc.devRef .tc main_v23) := by
  simp only [hostOps1_5]
  after_results_simp

theorem st7_v39 : StableHlo.after (hostOps1_6 : List (HloOp τ sig (Elt Ideal))) V (no_index (Proc.devRef .tc main_v39)) = (addf (V (Proc.devRef .tc main_v8))
      (Host.scatterAdd scatter_S100000x128_S600000x1_S600000x128_1_0_0_1
        (broadcastInDim S100000x128 ![] bcast_S_S100000x128 (constant S_ .f32 0x00000000#32)) (colOf (V (Proc.devRef .tc main_v14)))
        (mulf (V (Proc.devRef .tc main_v23))
          (broadcastInDim S600000x128 ![0, 1] bcast_S600000x1_S600000x128_0_1
            (broadcastInDim S600000x1 ![0] bcast_S600000_S600000x1_0 (recip (V (Proc.devRef .tc main_v28))))))) : FVec Ideal S100000x128 .f32) := by
  simp only [hostOps1_6]
  after_results_simp
  try rfl

set_option maxRecDepth 4096 in
theorem st8_v40 : StableHlo.after (hostOps1_7 : List (HloOp τ sig (Elt Ideal))) V (no_index (Proc.devRef .tc main_v40)) = (maximumf (V (Proc.devRef .tc main_v39)) (broadcastInDim S100000x128 ![] bcast_S_S100000x128 (constant S_ .f32 0x00000000#32)) : FVec Ideal S100000x128 .f32) := by
  simp only [hostOps1_7]
  after_results_simp
  simp only [StableHlo.TRef.toBuf, StableHlo.TRef.ofBuf, cast_eq]

end Stages

/-- The run of the ninety-two host operations leaves tailOut of the four arrays in the result buffer. -/
theorem after_tail (Wv : Valuation τ sig (Elt Ideal)) :
    StableHlo.after tailList Wv (Proc.devRef .tc main_v40)
      = tailOut (Wv (Proc.devRef .tc main_arg1)) (Wv (Proc.devRef .tc main_arg2)) (Wv (Proc.devRef .tc main_v4))
          (Wv (Proc.devRef .tc main_arg5)) := by
  have e : (tailList : List (HloOp τ sig (Elt Ideal))) = hostOps1 ++ (hostOps1_1 ++ (hostOps1_2 ++ (hostOps1_3 ++ (hostOps1_4 ++ (hostOps1_5 ++ (hostOps1_6 ++ hostOps1_7)))))) := by
    simp only [tailList, List.flatten_cons, List.flatten_nil, List.append_nil]
  rw [e]
  simp only [after_append]
  simp only [st1_v8, st1_v10, st1_v12, st1_v14, st1_arg2, st2_v15, st2_v8, st2_v10, st2_v12, st2_v14, st2_arg2, st3_v18, st3_v19, st3_v22, st3_v8, st3_v14, st3_arg2, st4_v23, st4_v8, st4_v14, st4_arg2, st4_v18, st5_v24, st5_v27, st5_v8, st5_v14, st5_v23, st6_v28, st6_v8, st6_v14, st6_v23, st7_v39, st8_v40]
  rfl

/-! ## Words that index an array -/

/-- A word whose signed value lies in [0, n), n at most 2³¹, has that value unsigned too. -/
theorem toNat_of_toInt_range {w : BitVec 32} {n : Nat} (hn : n ≤ 2147483648) (h0 : 0 ≤ w.toInt) (h1 : w.toInt < n) :
    w.toNat < n ∧ w.toInt = w.toNat := by
  have hw : w.toNat < 4294967296 := w.isLt
  rw [BitVec.toInt_eq_toNat_cond] at h0 h1 ⊢
  split_ifs at h0 h1 ⊢ <;> omega

/-- The flat index a · 8 + t of a node word a and a label word t does not wrap: its signed value is the integers' . -/
theorem flat_toInt {a t : BitVec 32} (ha0 : 0 ≤ a.toInt) (ha1 : a.toInt < 100000) (ht0 : 0 ≤ t.toInt) (ht1 : t.toInt < 8) :
    (a * 8#32 + t).toInt = a.toInt * 8 + t.toInt := by
  obtain ⟨han, hai⟩ := toNat_of_toInt_range (n := 100000) (by norm_num) ha0 ha1
  obtain ⟨htn, hti⟩ := toNat_of_toInt_range (n := 8) (by norm_num) ht0 ht1
  have hN : (a * 8#32 + t).toNat = a.toNat * 8 + t.toNat := by
    rw [BitVec.toNat_add, BitVec.toNat_mul]
    simp only [BitVec.toNat_ofNat]
    omega
  rw [StableHlo.Predicate.toInt_eq_toNat_of_lt (by rw [hN]; omega), hN, hai, hti]
  omega

/-! ## The pieces read at an index -/

section Apply

variable (a1 : IVec S2x600000 32) (a2 : IVec S600000 32) (h : FVec Ideal S100000x1152 .f32) (b : FVec Ideal S128 .f32)

theorem srcW_apply (e : Fin 600000) : srcW a1 (ix1 e) = a1 (ix2 (0 : Fin 2) e) := by
  unfold srcW
  refine (shapeCast_apply (s := S1x600000) (t := S600000) _ shapeCasts_S1x600000_S600000 (ix1 e) (ix2 (0 : Fin 1) e) ?_).trans ?_
  · rw [Shape.rowMajor_val_two, Shape.rowMajor_val_one]
    show 0 * 600000 + e.val = e.val
    omega
  · exact extractStridedSlice_apply _ _ _ _ (ix2 (0 : Fin 2) e) fun a => match a with
      | ⟨0, _⟩ => rfl
      | ⟨1, _⟩ => by show e.val = 0 + e.val; omega

theorem dstW_apply (e : Fin 600000) : dstW a1 (ix1 e) = a1 (ix2 (1 : Fin 2) e) := by
  unfold dstW
  refine (shapeCast_apply (s := S1x600000) (t := S600000) _ shapeCasts_S1x600000_S600000 (ix1 e) (ix2 (0 : Fin 1) e) ?_).trans ?_
  · rw [Shape.rowMajor_val_two, Shape.rowMajor_val_one]
    show 0 * 600000 + e.val = e.val
    omega
  · exact extractStridedSlice_apply _ _ _ _ (ix2 (1 : Fin 2) e) fun a => match a with
      | ⟨0, _⟩ => rfl
      | ⟨1, _⟩ => by show e.val = 0 + e.val; omega

theorem flatIdx_apply (hi lo : IVec S600000 32) (i : S600000.Idx) : flatIdx hi lo i = hi i * 8#32 + lo i := rfl

theorem colOf_apply (w : IVec S600000 32) (e : Fin 600000) : colOf w (ix2 e (0 : Fin 1)) = w (ix1 e) := by
  unfold colOf
  exact broadcastInDim_apply _ _ _ _ (ix1 e) fun a => match a with
    | ⟨0, _⟩ => rfl

/-- The one-hot row of edge e at relation r is 1 when e carries r, else 0. -/
theorem oneHot_apply (e : Fin 600000) (r : Fin 8) : oneHot a2 (ix2 e r) = hasType a2 e r := by
  have hx : broadcastInDim S600000x8 ![0, 1] bcast_S600000x1_S600000x8_0_1
      (broadcastInDim S600000x1 ![0] bcast_S600000_S600000x1_0 a2) (ix2 e r) = a2 (ix1 e) := by
    refine (broadcastInDim_apply _ _ _ (ix2 e r) (ix2 e (0 : Fin 1)) fun a => match a with
      | ⟨0, _⟩ => rfl
      | ⟨1, _⟩ => rfl).trans ?_
    exact broadcastInDim_apply _ _ _ _ (ix1 e) fun a => match a with
      | ⟨0, _⟩ => rfl
  have hy : broadcastInDim S600000x8 ![0, 1] bcast_S1x8_S600000x8_0_1 (iotaInDim S1x8 32 1) (ix2 e r) = BitVec.ofNat 32 r.val := by
    refine (broadcastInDim_apply _ _ _ (ix2 e r) (ix2 (0 : Fin 1) r) fun a => match a with
      | ⟨0, _⟩ => rfl
      | ⟨1, _⟩ => rfl).trans ?_
    rfl
  unfold oneHot hasType
  show ((((IntOp.cmpi .eq _ _ : BitVec 1).toNat : ℝ)) : EReal) = _
  rw [hx, hy]
  by_cases hc : a2 (ix1 e) = BitVec.ofNat 32 r.val
  · rw [if_pos hc, StableHlo.Predicate.cmpi_eq_iff.mpr hc]; simp
  · rw [if_neg hc, eq_zero_of_ne_one (fun h1 => hc (StableHlo.Predicate.cmpi_eq_iff.mp h1))]; simp

/-- The scattered one-hot rows count, at (n, r), the edges of relation r that end at n. -/
theorem counts_apply (n : Fin 100000) (r : Fin 8) : counts a1 a2 (ix2 n r) = Cert.RelConv.count a1 a2 n r := by
  have hd : scatter_S100000x8_S600000x1_S600000x8_1_0_0_1
      = SegmentScatter.rowDims 100000 8 600000 scatter_S100000x8_S600000x1_S600000x8_1_0_0_1_wf := rfl
  unfold counts Cert.RelConv.count
  show Ideal.hostScatterAdd scatter_S100000x8_S600000x1_S600000x8_1_0_0_1 _ _ _ (ix2 n r) = _
  rw [hd, SegmentScatter.rowScatterAdd_apply]
  have h0 : broadcastInDim S100000x8 ![] bcast_S_S100000x8 (constant (F := Ideal) S_ .f32 0x00000000#32) (ix2 n r) = 0 :=
    Ideal.ofBits_zero_f32
  rw [h0, zero_add]
  refine Finset.sum_congr rfl fun e _ => ?_
  rw [colOf_apply, dstW_apply, oneHot_apply]
  rfl

theorem cntFlat_apply (n : Fin 100000) (r : Fin 8) :
    cntFlat a1 a2 (ix1 (⟨n.val * 8 + r.val, by omega⟩ : Fin 800000)) = Cert.RelConv.count a1 a2 n r := by
  unfold cntFlat
  refine (shapeCast_apply (s := S100000x8) (t := S800000) _ shapeCasts_S100000x8_S800000 _ (ix2 n r) ?_).trans (counts_apply a1 a2 n r)
  rw [Shape.rowMajor_val_two, Shape.rowMajor_val_one]
  rfl

/-- Row s · 8 + r of the message table is row s of the product, column block 1 + r. -/
theorem hTab_apply (s : Fin 100000) (r : Fin 8) (k : Fin 128) :
    hTab h (ix2 (⟨s.val * 8 + r.val, by omega⟩ : Fin 800000) k)
      = h (ix2 s (⟨128 + 128 * r.val + k.val, by omega⟩ : Fin 1152)) := by
  unfold hTab
  refine (shapeCast_apply (s := S100000x8x128) (t := S800000x128) _ shapeCasts_S100000x8x128_S800000x128 _ (ix3 s r k) ?_).trans ?_
  · rw [Shape.rowMajor_val_three, Shape.rowMajor_val_two]
    rfl
  refine (shapeCast_apply (s := S100000x1024) (t := S100000x8x128) _ shapeCasts_S100000x1024_S100000x8x128 (ix3 s r k)
    (ix2 s (⟨128 * r.val + k.val, by omega⟩ : Fin 1024)) ?_).trans ?_
  · rw [Shape.rowMajor_val_two, Shape.rowMajor_val_three]
    show s.val * 1024 + (128 * r.val + k.val) = (s.val * 8 + r.val) * 128 + k.val
    omega
  exact extractStridedSlice_apply _ _ _ _ _ fun a => match a with
    | ⟨0, _⟩ => by show s.val = 0 + s.val; omega
    | ⟨1, _⟩ => by show 128 + 128 * r.val + k.val = 128 + (128 * r.val + k.val); omega

theorem wrapW_apply (w : IVec S600000 32) (i : S600000.Idx) (h0 : 0 ≤ (w i).toInt) : wrapW w i = w i :=
  IndexRange.select_wrap_eq (800000#32) h0

/-- The in-bounds test passes at a row whose index lies in [0, 799999]. -/
theorem inBounds_apply (c : IVec S600000x1 32) (e : Fin 600000) (h0 : 0 ≤ (c (ix2 e (0 : Fin 1))).toInt)
    (h1 : (c (ix2 e (0 : Fin 1))).toInt ≤ 799999) : inBounds c (ix1 e) = 1#1 := by
  unfold inBounds
  rw [Host.reduce_eq_foldl]
  refine IndexRange.foldl_andi_of_forall _ _ fun n hn => ?_
  have hd : reducesTo_S600000x1_S600000_d1.drop n = ix1 e := of_decide_eq_true (List.mem_filter.mp hn).2
  have hn0 : n = ix2 e (0 : Fin 1) := by
    funext a
    match a with
    | ⟨0, _⟩ => exact Fin.ext (congrArg (fun f => (f 0).val) hd)
    | ⟨1, h1⟩ =>
      have hlt : (n ⟨1, h1⟩).val < 1 := (n ⟨1, h1⟩).isLt
      exact Fin.ext (by show (n ⟨1, h1⟩).val = 0; omega)
  rw [hn0]
  show IntOp.andi (IntOp.cmpi .sge (c (ix2 e (0 : Fin 1))) 0#32) (IntOp.cmpi .sle (c (ix2 e (0 : Fin 1))) 799999#32) = 1#1
  rw [IndexRange.sge_zero_eq_one h0, IndexRange.sle_eq_one 799999 (by norm_num) h1]
  rfl

/-- A row taken at an index in [0, 800000) is the table's row there. -/
theorem takeRows_apply (table : FVec Ideal S800000x128 .f32) (w : IVec S600000 32) (e : Fin 600000) (k : Fin 128)
    (h0 : 0 ≤ (w (ix1 e)).toInt) (h1 : (w (ix1 e)).toInt < 800000) :
    takeRows table w (ix2 e k) = table (ix2 (⟨(w (ix1 e)).toInt.toNat, by omega⟩ : Fin 800000) k) := by
  have hc : colOf (wrapW w) (ix2 e (0 : Fin 1)) = w (ix1 e) := by rw [colOf_apply, wrapW_apply _ _ h0]
  have hb : broadcastInDim S600000x128 ![0] bcast_S600000_S600000x128_0 (inBounds (colOf (wrapW w))) (ix2 e k) = 1#1 := by
    refine (broadcastInDim_apply _ _ _ (ix2 e k) (ix1 e) fun a => match a with
      | ⟨0, _⟩ => rfl).trans ?_
    exact inBounds_apply _ e (by rw [hc]; exact h0) (by rw [hc]; omega)
  have hg : gather_S800000x128_S600000x1_S600000x128_1_0_n_n_0_1_1128
      = TakeRows.rowDims 800000 128 600000 gather_S800000x128_S600000x1_S600000x128_1_0_n_n_0_1_1128_wf := rfl
  unfold takeRows
  rw [select_apply, hb, select_one, hg, TakeRows.rowTake_apply (by norm_num)]
  refine congrArg table (congrArg (fun a => ix2 a k) (Fin.ext ?_))
  show min (colOf (wrapW w) (ix2 e (0 : Fin 1))).toInt.toNat (800000 - 1) = (w (ix1 e)).toInt.toNat
  rw [hc]
  omega

/-- An element taken at an index in [0, 800000) is the table's element there. -/
theorem takeElems_apply (table : FVec Ideal S800000 .f32) (w : IVec S600000 32) (e : Fin 600000)
    (h0 : 0 ≤ (w (ix1 e)).toInt) (h1 : (w (ix1 e)).toInt < 800000) :
    takeElems table w (ix1 e) = table (ix1 (⟨(w (ix1 e)).toInt.toNat, by omega⟩ : Fin 800000)) := by
  have hc : colOf (wrapW w) (ix2 e (0 : Fin 1)) = w (ix1 e) := by rw [colOf_apply, wrapW_apply _ _ h0]
  have hb : inBounds (colOf (wrapW w)) (ix1 e) = 1#1 :=
    inBounds_apply _ e (by rw [hc]; exact h0) (by rw [hc]; omega)
  have hg : gather_S800000_S600000x1_S600000_n_0_n_n_0_1_1
      = TakeElems.elemDims 800000 600000 gather_S800000_S600000x1_S600000_n_0_n_n_0_1_1_wf := rfl
  unfold takeElems
  rw [select_apply, hb, select_one, hg, TakeElems.elemTake_apply (by norm_num)]
  refine congrArg table (congrArg (fun a => ix1 a) (Fin.ext ?_))
  show min (colOf (wrapW w) (ix2 e (0 : Fin 1))).toInt.toNat (800000 - 1) = (w (ix1 e)).toInt.toNat
  rw [hc]
  omega

theorem recip_apply (c : FVec Ideal S600000 .f32) (i : S600000.Idx) : recip c i = Ideal.div 1 (max (c i) 1) := by
  show Ideal.div (Ideal.ofBits .f32 0x3F800000#32) (max (c i) (Ideal.ofBits .f32 0x3F800000#32)) = _
  rw [Ideal.ofBits_one_f32]

end Apply

/-! ## The tail read at an index -/

section Final

variable (a1 : IVec S2x600000 32) (a2 : IVec S600000 32) (h : FVec Ideal S100000x1152 .f32) (b : FVec Ideal S128 .f32)

theorem hTab_apply' (i : Fin 800000) (s : Fin 100000) (r : Fin 8) (hi : i.val = s.val * 8 + r.val) (k : Fin 128) :
    hTab h (ix2 i k) = h (ix2 s (⟨128 + 128 * r.val + k.val, by omega⟩ : Fin 1152)) := by
  obtain ⟨v, hv⟩ := i
  have hi' : v = s.val * 8 + r.val := hi
  subst hi'
  exact hTab_apply h s r k

theorem cntFlat_apply' (i : Fin 800000) (n : Fin 100000) (r : Fin 8) (hi : i.val = n.val * 8 + r.val) :
    cntFlat a1 a2 (ix1 i) = Cert.RelConv.count a1 a2 n r := by
  obtain ⟨v, hv⟩ := i
  have hi' : v = n.val * 8 + r.val := hi
  subst hi'
  exact cntFlat_apply a1 a2 n r

/-- A vector laid along the rows of a 600000 × 128 array reads, at (e, j), the vector at e. -/
theorem rowBcast_apply (X : FVec Ideal S600000 .f32) (e : Fin 600000) (j : Fin 128) :
    broadcastInDim S600000x128 ![0, 1] bcast_S600000x1_S600000x128_0_1
      (broadcastInDim S600000x1 ![0] bcast_S600000_S600000x1_0 X) (ix2 e j) = X (ix1 e) := by
  refine (broadcastInDim_apply _ _ _ (ix2 e j) (ix2 e (0 : Fin 1)) fun a => match a with
    | ⟨0, _⟩ => rfl
    | ⟨1, _⟩ => rfl).trans ?_
  exact broadcastInDim_apply _ _ _ _ (ix1 e) fun a => match a with
    | ⟨0, _⟩ => rfl

theorem scatterAdd_eq {s si su : Shape} (d : ScatterDims s si su) {w : Nat} (x : FVec Ideal s .f32) (idx : IVec si w)
    (upd : FVec Ideal su .f32) : Host.scatterAdd d x idx upd = Ideal.hostScatterAdd d x idx upd := rfl

variable (hsrc : ∀ e : Fin 600000, 0 ≤ (a1 (ix2 (0 : Fin 2) e)).toInt ∧ (a1 (ix2 (0 : Fin 2) e)).toInt < 100000)
  (htyp : ∀ e : Fin 600000, 0 ≤ (a2 (ix1 e)).toInt ∧ (a2 (ix1 e)).toInt < 8)

include hsrc htyp in
/-- The weighted message of an edge that ends at n: its source's message for its relation, times the reciprocal of the
    number (at least 1) of edges of that relation that end at n. -/
theorem weighted_apply (e : Fin 600000) (n : Fin 100000) (j : Fin 128) (hen : endsAt a1 e n) :
    weighted a1 a2 h (ix2 e j)
      = h (ix2 (srcOf a1 e) ⟨128 + 128 * (typOf a2 e).val + j.val, by have := (typOf a2 e).isLt; omega⟩)
          * Ideal.div 1 (max (Cert.RelConv.count a1 a2 n (typOf a2 e)) 1) := by
  obtain ⟨hs0, hs1⟩ := hsrc e
  obtain ⟨ht0, ht1⟩ := htyp e
  have hd : (a1 (ix2 (1 : Fin 2) e)).toInt = (n.val : ℤ) := hen
  have hn1 := n.isLt
  have hfs : (flatIdx (srcW a1) a2 (ix1 e)).toInt = (a1 (ix2 (0 : Fin 2) e)).toInt * 8 + (a2 (ix1 e)).toInt := by
    rw [flatIdx_apply, srcW_apply]
    exact flat_toInt hs0 hs1 ht0 ht1
  have hfd : (flatIdx (dstW a1) a2 (ix1 e)).toInt = (n.val : ℤ) * 8 + (a2 (ix1 e)).toInt := by
    rw [flatIdx_apply, dstW_apply, flat_toInt (by rw [hd]; omega) (by rw [hd]; omega) ht0 ht1, hd]
  have hsv : (srcOf a1 e).val = (a1 (ix2 (0 : Fin 2) e)).toInt.toNat := by
    show min (a1 (ix2 (0 : Fin 2) e)).toInt.toNat 99999 = _
    omega
  have htv : (typOf a2 e).val = (a2 (ix1 e)).toInt.toNat := by
    show min (a2 (ix1 e)).toInt.toNat 7 = _
    omega
  unfold weighted
  rw [mulf_apply, takeRows_apply (hTab h) (flatIdx (srcW a1) a2) e j (by rw [hfs]; omega) (by rw [hfs]; omega),
    hTab_apply' h _ (srcOf a1 e) (typOf a2 e) (by show (flatIdx (srcW a1) a2 (ix1 e)).toInt.toNat = _; rw [hfs, hsv, htv]; omega) j,
    rowBcast_apply, recip_apply,
    takeElems_apply (cntFlat a1 a2) (flatIdx (dstW a1) a2) e (by rw [hfd]; omega) (by rw [hfd]; omega),
    cntFlat_apply' a1 a2 _ n (typOf a2 e) (by show (flatIdx (dstW a1) a2 (ix1 e)).toInt.toNat = _; rw [hfd, htv]; omega)]

include hsrc htyp in
/-- The tail at (n, j): the self term and the bias, plus every edge that ends at n with its message times the reciprocal
    of its relation's count at n, rectified. -/
theorem tailOut_apply (n : Fin 100000) (j : Fin 128) :
    tailOut a1 a2 h b (ix2 n j)
      = max ((h (ix2 n ⟨j.val, by omega⟩) + b (ix1 j))
          + ∑ e : Fin 600000, if endsAt a1 e n then
              h (ix2 (srcOf a1 e) ⟨128 + 128 * (typOf a2 e).val + j.val, by have := (typOf a2 e).isLt; omega⟩)
                * Ideal.div 1 (max (Cert.RelConv.count a1 a2 n (typOf a2 e)) 1)
            else 0) 0 := by
  have hd : scatter_S100000x128_S600000x1_S600000x128_1_0_0_1
      = SegmentScatter.rowDims 100000 128 600000 scatter_S100000x128_S600000x1_S600000x128_1_0_0_1_wf := rfl
  have hz : broadcastInDim S100000x128 ![] bcast_S_S100000x128 (constant (F := Ideal) S_ .f32 0x00000000#32) (ix2 n j) = 0 :=
    Ideal.ofBits_zero_f32
  have hs : extractStridedSlice S100000x128 ![0, 0] h slices_S100000x1152_S100000x128_0_0 (ix2 n j)
      = h (ix2 n (⟨j.val, by omega⟩ : Fin 1152)) :=
    extractStridedSlice_apply _ _ _ _ _ fun a => match a with
      | ⟨0, _⟩ => by show n.val = 0 + n.val; omega
      | ⟨1, _⟩ => by show j.val = 0 + j.val; omega
  have hbb : broadcastInDim S100000x128 ![0, 1] bcast_S1x128_S100000x128_0_1
      (broadcastInDim S1x128 ![1] bcast_S128_S1x128_1 b) (ix2 n j) = b (ix1 j) := by
    refine (broadcastInDim_apply _ _ _ (ix2 n j) (ix2 (0 : Fin 1) j) fun a => match a with
      | ⟨0, _⟩ => rfl
      | ⟨1, _⟩ => rfl).trans ?_
    exact broadcastInDim_apply _ _ _ _ (ix1 j) fun a => match a with
      | ⟨0, _⟩ => rfl
  unfold tailOut
  rw [maximumf_apply, addf_apply, addf_apply, hz, hs, hbb, scatterAdd_eq, hd, SegmentScatter.rowScatterAdd_apply, hz, zero_add]
  refine congrArg (fun t => max ((h (ix2 n (⟨j.val, by omega⟩ : Fin 1152)) + b (ix1 j)) + t) 0) ?_
  refine Finset.sum_congr rfl fun e _ => ?_
  rw [colOf_apply, dstW_apply]
  by_cases hen : endsAt a1 e n
  · have hen' : (a1 (ix2 (1 : Fin 2) e)).toInt = (n.val : ℤ) := hen
    rw [if_pos hen', if_pos hen]
    exact weighted_apply a1 a2 h hsrc htyp e n j hen
  · have hen' : ¬ (a1 (ix2 (1 : Fin 2) e)).toInt = (n.val : ℤ) := hen
    rw [if_neg hen', if_neg hen]

end Final

/-- THE HOST TAIL AT AN INDEX: what the ninety-two host operations leave at (n, j) of the result, in terms of the matrix
    product's result, the bias, the edges and the labels, for sources that are node numbers and labels that are relations. -/
theorem tail_value (Wv : Valuation τ sig (Elt Ideal))
    (h4 : FVec Ideal S100000x1152 .f32) (a1 : IVec S2x600000 32) (a2 : IVec S600000 32) (a5 : FVec Ideal S128 .f32)
    (e4 : Wv (Proc.devRef .tc main_v4) = h4) (e1 : Wv (Proc.devRef .tc main_arg1) = a1)
    (e2 : Wv (Proc.devRef .tc main_arg2) = a2) (e5 : Wv (Proc.devRef .tc main_arg5) = a5)
    (hsrc : ∀ e : Fin 600000, 0 ≤ (a1 (ix2 (0 : Fin 2) e)).toInt ∧ (a1 (ix2 (0 : Fin 2) e)).toInt < 100000)
    (htyp : ∀ e : Fin 600000, 0 ≤ (a2 (ix1 e)).toInt ∧ (a2 (ix1 e)).toInt < 8)
    (n : Fin 100000) (j : Fin 128) :
    (StableHlo.after tailList Wv (Proc.devRef .tc main_v40) : FVec Ideal S100000x128 .f32) (ix2 n j)
      = max ((h4 (ix2 n ⟨j.val, by omega⟩) + a5 (ix1 j))
          + ∑ e : Fin 600000, if endsAt a1 e n then
              h4 (ix2 (srcOf a1 e) ⟨128 + 128 * (typOf a2 e).val + j.val, by have := (typOf a2 e).isLt; omega⟩)
                * Ideal.div 1 (max (count a1 a2 n (typOf a2 e)) 1)
            else 0) 0 := by
  subst e4 e1 e2 e5
  exact (congrFun (after_tail Wv) (ix2 n j)).trans (tailOut_apply _ _ _ _ hsrc htyp n j)

end Cert.KernelIdeal.Tail

end
-- ==== Proof.KernelResult.lean ====
/-
  The kernel program's result at a node and a column, as the edge-by-edge arrangement of the six launch arrays.

  The operations after the region start from buffers in which the region's result array is the product of the features with
  the self weight and the eight relation weights laid side by side, and every argument array is as launched. Read at
  (n, j), what those operations compute from that product is
      max(P(n, j) + bias j + Σ_{e ends at n} P(src e, 128 + 128·rel e + j) · (1 / max(count(n, rel e), 1)), 0),
  and column j of the product's first block is x[n]·root[:, j] while column j of relation r's block is x[s]·W[r][:, j].
-/
import proofs.«418642_j27049704030600_1_alg».proof.Proof.KernelIdealFrame
import proofs.«418642_j27049704030600_1_alg».proof.Proof.KernelWeights
import proofs.«418642_j27049704030600_1_alg».proof.Proof.Region
import proofs.«418642_j27049704030600_1_alg».proof.Proof.KernelTail
import proofs.«418642_j27049704030600_1_alg».proof.Proof.Spec

open scoped BigOperators

noncomputable section

namespace Cert.KernelIdeal.Result

open Cert.KernelIdeal Cert.KernelIdeal.Gen Cert.KernelIdeal.Hand Cert.KernelIdeal.Weights Cert.KernelIdeal.Region
open Cert.KernelIdeal.Tail Cert.RelConv
open Idealize.ShloMosaic Idealize.ShloMosaic.TcCoe Idealize.ShloMosaic.ValueIdx Idealize.SL.Sem

variable (m : (ℓ : Loc nD τ sig) → Buf (Elt Ideal) ℓ)

/-- The buffer contents the operations after the region start from: the pipeline's arrays as the region leaves them,
    every other buffer as the region found it. -/
abbrev Wv (c : Dev nD) : Valuation τ sig (Elt Ideal) :=
  Pipeline.withArrays (cfgs 0).spec c (V0 m c) fun w => (dats m 0 c).arrAt w (cfgs 0).N

/-- There the region's result array is the product of the features and the nine weights side by side. -/
theorem Wv_v4 (c : Dev nD) :
    (Wv m c (Proc.devRef .tc main_v4) : FVec Ideal S100000x1152 .f32)
      = prod (m ((c : Thread nD τ).loc main_arg0)) (wcat (m ((c : Thread nD τ).loc main_arg4)) (m ((c : Thread nD τ).loc main_arg3))) := by
  have h := Pipeline.withArrays_arr (cfgs 0).spec launch0.win.arr_inj c (V0 m c)
    (fun w => (dats m 0 c).arrAt w (cfgs 0).N) (2 : Fin 3)
  refine h.trans ((final m c).trans ?_)
  rw [V_main_arg0, V_main_v3]

theorem Wv_arg1 (c : Dev nD) : Wv m c (Proc.devRef .tc main_arg1) = m ((c : Thread nD τ).loc main_arg1) :=
  (Pipeline.withArrays_of_ne (cfgs 0).spec c (V0 m c) _ main_arg1 (by decide)).trans (V_main_arg1 m c)
theorem Wv_arg2 (c : Dev nD) : Wv m c (Proc.devRef .tc main_arg2) = m ((c : Thread nD τ).loc main_arg2) :=
  (Pipeline.withArrays_of_ne (cfgs 0).spec c (V0 m c) _ main_arg2 (by decide)).trans (V_main_arg2 m c)
theorem Wv_arg5 (c : Dev nD) : Wv m c (Proc.devRef .tc main_arg5) = m ((c : Thread nD τ).loc main_arg5) :=
  (Pipeline.withArrays_of_ne (cfgs 0).spec c (V0 m c) _ main_arg5 (by decide)).trans (V_main_arg5 m c)

/-- Column `j` of the product's first block is the self term. -/
theorem prod_self (X : FVec Ideal S100000x128 .f32) (root : FVec Ideal S128x128 .f32) (W : FVec Ideal S8x128x128 .f32)
    (n : Fin 100000) (j : Fin 128) :
    prod X (wcat root W) (ix2 n ⟨j.val, by omega⟩) = selfTerm X root n j := by
  unfold prod selfTerm
  refine Finset.sum_congr rfl fun k _ => ?_
  show X (ix2 n k) * wcat root W (ix2 k ⟨j.val, _⟩) = _
  rw [wcat_root]

/-- Column `j` of relation `r`'s block of the product is that relation's message. -/
theorem prod_rel (X : FVec Ideal S100000x128 .f32) (root : FVec Ideal S128x128 .f32) (W : FVec Ideal S8x128x128 .f32)
    (s : Fin 100000) (r : Fin 8) (j : Fin 128) :
    prod X (wcat root W) (ix2 s ⟨128 + 128 * r.val + j.val, by omega⟩) = msg X W s r j := by
  unfold prod msg
  refine Finset.sum_congr rfl fun k _ => ?_
  show X (ix2 s k) * wcat root W (ix2 k ⟨128 + 128 * r.val + j.val, _⟩) = _
  rw [wcat_rel]

/-- THE KERNEL PROGRAM'S RESULT at node `n`, column `j`: the edge-by-edge arrangement of the six launch arrays. -/
theorem kernel_result (c : Dev nD)
    (hsrc : ∀ e : Fin 600000, 0 ≤ ((m ((c : Thread nD τ).loc main_arg1) : IVec S2x600000 32) (ix2 (0 : Fin 2) e)).toInt
      ∧ ((m ((c : Thread nD τ).loc main_arg1) : IVec S2x600000 32) (ix2 (0 : Fin 2) e)).toInt < 100000)
    (htyp : ∀ e : Fin 600000, 0 ≤ ((m ((c : Thread nD τ).loc main_arg2) : IVec S600000 32) (ix1 e)).toInt
      ∧ ((m ((c : Thread nD τ).loc main_arg2) : IVec S600000 32) (ix1 e)).toInt < 8)
    (n : Fin 100000) (j : Fin 128) :
    (Pipeline.afterTail₀ cfgs (dats m) 0 (V0 m) tailOps c main_v40 : FVec Ideal S100000x128 .f32) (ix2 n j)
      = edgeOut (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) n j := by
  have h := tail_value (Wv m c) _ _ _ _ (Wv_v4 m c) (Wv_arg1 m c) (Wv_arg2 m c) (Wv_arg5 m c) hsrc htyp n j
  refine (show _ = _ from h).trans ?_
  unfold edgeOut
  rw [prod_self]
  simp only [prod_rel]

end Cert.KernelIdeal.Result

end
-- ==== Proof.RefBlock.lean ====
/-
  One relation's block of the reference, as a function of its operands, read at an index.

  The reference handles relation r as follows. It multiplies the node features by the relation's weight (a table hr of
  100000 rows), reads row src(e) of that table for every edge e, multiplies the row by the edge's mask (1 if the edge's
  label is r, else 0), adds the masked rows into the rows their destinations name, adds the masks themselves into a count
  per node, and divides each node's row by max(count, 1). This file reads each of these steps at one index and
  assembles them into Spec's relMean.
-/
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import proofs.«418642_j27049704030600_1_alg».proof.Proof.Spec
import proofs.«418642_j27049704030600_1_alg».proof.Proof.LibSegmentScatter
import proofs.«418642_j27049704030600_1_alg».proof.Proof.LibTakeRows
import proofs.«418642_j27049704030600_1_alg».proof.Proof.LibIndexRange

open scoped BigOperators

noncomputable section

namespace Cert.RelConv.RefBlock

open Idealize.ShloMosaic Idealize.ShloMosaic.ValueIdx

/-! ## Layout reads -/

section Layout
variable {α : Type}

/-- A vector written as a column reads, at (p, 0), the vector at p. -/
theorem col_apply {n : Nat} (h : (⟨1, ![n]⟩ : Shape).BroadcastsInDim ⟨2, ![n, 1]⟩ ![0])
    (v : (⟨1, ![n]⟩ : Shape).Idx → α) (p : Fin n) (z : Fin 1) :
    broadcastInDim ⟨2, ![n, 1]⟩ ![0] h v (ix2 p z) = v (ix1 p) :=
  broadcastInDim_apply _ h v _ (ix1 p) (fun a => match a with
    | ⟨0, _⟩ => by
      show p.val = if n = 1 then 0 else p.val
      have := p.isLt
      split_ifs <;> omega)

/-- A column repeated along every row reads, at (p, q), the column at (p, 0). -/
theorem spread_apply {n m : Nat} (h : (⟨2, ![n, 1]⟩ : Shape).BroadcastsInDim ⟨2, ![n, m]⟩ ![0, 1])
    (v : (⟨2, ![n, 1]⟩ : Shape).Idx → α) (p : Fin n) (q : Fin m) :
    broadcastInDim ⟨2, ![n, m]⟩ ![0, 1] h v (ix2 p q) = v (ix2 p (0 : Fin 1)) :=
  broadcastInDim_apply _ h v _ (ix2 p (0 : Fin 1)) (fun a => match a with
    | ⟨0, _⟩ => by
      show p.val = if n = 1 then 0 else p.val
      have := p.isLt
      split_ifs <;> omega
    | ⟨1, _⟩ => by
      show 0 = if (1 : Nat) = 1 then 0 else q.val
      rw [if_pos rfl])

end Layout

/-! ## Scalars -/

/-- The mask of a label word against a relation's word, as a float: 1 when they agree, else 0. -/
theorem mask_eq (w r : BitVec 32) :
    (FloatOps.uitofp (F := Ideal) .f32 (IntOp.cmpi .eq w r) : EReal) = if w = r then 1 else 0 := by
  show (((IntOp.cmpi .eq w r).toNat : ℝ) : EReal) = _
  by_cases h : w = r
  · rw [if_pos h, (StableHlo.Predicate.cmpi_eq_iff).mpr h]; simp
  · rw [if_neg h]
    have : IntOp.cmpi .eq w r = 0#1 := eq_zero_of_ne_one (fun h1 => h (StableHlo.Predicate.cmpi_eq_iff.mp h1))
    rw [this]; simp

/-! ## The gathered row -/

/-- A signed comparison of words, at an index. -/
theorem cmpi_slt_apply {s : Shape} (a b : IVec s 32) (i : s.Idx) :
    cmpi .slt a b i = IntOp.cmpi .slt (a i) (b i) := rfl

/-- A sum of words, at an index. -/
theorem addi_apply {s : Shape} (a b : IVec s 32) (i : s.Idx) : addi a b i = IntOp.addi (a i) (b i) := rfl

/-- A scalar word constant reads its word. -/
theorem constantI_apply (b : BitVec 32) (i : (⟨0, ![]⟩ : Shape).Idx) : constantI ⟨0, ![]⟩ 32 b i = b := rfl

/-- Row e of the gathered table. The source word of edge e has a non-negative signed value, so the select that makes an
    index counted from the end absolute leaves it alone; the take then clamps it into [0, 99999] exactly as srcOf does. -/
theorem take_src_apply
    (wfG : GatherDims.WF ⟨2, ![100000, 128]⟩ ⟨2, ![600000, 1]⟩ ⟨2, ![600000, 128]⟩ [1] [0] [] [0] [] 1 ![1, 128])
    (bcol : (⟨1, ![600000]⟩ : Shape).BroadcastsInDim ⟨2, ![600000, 1]⟩ ![0])
    (be : (⟨0, ![]⟩ : Shape).BroadcastsInDim ⟨1, ![600000]⟩ ![])
    (hr : (⟨2, ![100000, 128]⟩ : Shape).Idx → EReal) (src1 : IVec ⟨1, ![600000]⟩ 32)
    (ei : (⟨2, ![2, 600000]⟩ : Shape).Idx → BitVec 32)
    (e : Fin 600000) (k : Fin 128)
    (hs : src1 (ix1 e) = ei (ix2 (0 : Fin 2) e)) (h0 : 0 ≤ (ei (ix2 (0 : Fin 2) e)).toInt) :
    Host.gather (TakeRows.rowDims 100000 128 600000 wfG) hr
        (broadcastInDim ⟨2, ![600000, 1]⟩ ![0] bcol
          (select (cmpi .slt src1 (broadcastInDim ⟨1, ![600000]⟩ ![] be (constantI ⟨0, ![]⟩ 32 0#32)))
            (addi src1 (broadcastInDim ⟨1, ![600000]⟩ ![] be (constantI ⟨0, ![]⟩ 32 100000#32))) src1)) (ix2 e k)
      = hr (ix2 (srcOf ei e) k) := by
  have hsel : (select (cmpi .slt src1 (broadcastInDim ⟨1, ![600000]⟩ ![] be (constantI ⟨0, ![]⟩ 32 0#32)))
      (addi src1 (broadcastInDim ⟨1, ![600000]⟩ ![] be (constantI ⟨0, ![]⟩ 32 100000#32))) src1) (ix1 e)
        = ei (ix2 (0 : Fin 2) e) := by
    rw [select_apply, cmpi_slt_apply, addi_apply, broadcastInDim_scalar_apply, broadcastInDim_scalar_apply,
      constantI_apply, constantI_apply, hs]
    exact IndexRange.select_wrap_eq _ h0
  refine (TakeRows.rowTake_apply (by norm_num) wfG hr _ e k).trans ?_
  refine congrArg (fun s => hr (ix2 s k)) (Fin.ext ?_)
  show min (BitVec.toInt _).toNat (100000 - 1) = min (BitVec.toInt _).toNat 99999
  rw [col_apply, hsel]

/-! ## The two accumulations -/

/-- Over the extended reals the host's accumulating scatter is the exact sum, whatever the schedule. -/
theorem scatterAdd_ideal {s si su : Shape} (d : ScatterDims s si su) {w : Nat} (x : s.Idx → EReal) (idx : IVec si w)
    (upd : su.Idx → EReal) :
    Host.scatterAdd (F := Ideal) (φ := .f32) d x idx upd = Ideal.hostScatterAdd d x idx upd := rfl

/-- A float made from a one-bit word, at an index. -/
theorem uitofp_apply {s : Shape} (v : IVec s 1) (i : s.Idx) :
    uitofp (F := Ideal) .f32 v i = FloatOps.uitofp (F := Ideal) .f32 (v i) := rfl

/-- A comparison of words for equality, at an index. -/
theorem cmpi_eq_apply {s : Shape} (a b : IVec s 32) (i : s.Idx) :
    cmpi .eq a b i = IntOp.cmpi .eq (a i) (b i) := rfl

/-- The rows added into node n, at column j: over the edges that end at n, the source's row of the table times the
    edge's mask. -/
theorem rowSum_apply (r : Nat) (hr8 : r < 8)
    (wfS : ScatterDims.WF ⟨2, ![100000, 128]⟩ ⟨2, ![600000, 1]⟩ ⟨2, ![600000, 128]⟩ [1] [0] [0] 1)
    (wfG : GatherDims.WF ⟨2, ![100000, 128]⟩ ⟨2, ![600000, 1]⟩ ⟨2, ![600000, 128]⟩ [1] [0] [] [0] [] 1 ![1, 128])
    (bz : (⟨0, ![]⟩ : Shape).BroadcastsInDim ⟨2, ![100000, 128]⟩ ![])
    (bcol : (⟨1, ![600000]⟩ : Shape).BroadcastsInDim ⟨2, ![600000, 1]⟩ ![0])
    (be : (⟨0, ![]⟩ : Shape).BroadcastsInDim ⟨1, ![600000]⟩ ![])
    (bm : (⟨2, ![600000, 1]⟩ : Shape).BroadcastsInDim ⟨2, ![600000, 128]⟩ ![0, 1])
    (hr : (⟨2, ![100000, 128]⟩ : Shape).Idx → EReal) (src1 dst1 : IVec ⟨1, ![600000]⟩ 32)
    (x : (⟨2, ![100000, 128]⟩ : Shape).Idx → EReal) (ei : (⟨2, ![2, 600000]⟩ : Shape).Idx → BitVec 32)
    (et : (⟨1, ![600000]⟩ : Shape).Idx → BitVec 32) (W : (⟨3, ![8, 128, 128]⟩ : Shape).Idx → EReal)
    (hs : ∀ e, src1 (ix1 e) = ei (ix2 (0 : Fin 2) e)) (hd : ∀ e, dst1 (ix1 e) = ei (ix2 (1 : Fin 2) e))
    (h0 : ∀ e, 0 ≤ (ei (ix2 (0 : Fin 2) e)).toInt)
    (hhr : ∀ s k, hr (ix2 s k) = msg x W s ⟨r, hr8⟩ k)
    (n : Fin 100000) (j : Fin 128) :
    Host.scatterAdd (F := Ideal) (φ := .f32) (SegmentScatter.rowDims 100000 128 600000 wfS)
        (broadcastInDim ⟨2, ![100000, 128]⟩ ![] bz (constant (F := Ideal) ⟨0, ![]⟩ .f32 0x00000000#32))
        (broadcastInDim ⟨2, ![600000, 1]⟩ ![0] bcol dst1)
        (mulf
          (Host.gather (TakeRows.rowDims 100000 128 600000 wfG) hr
            (broadcastInDim ⟨2, ![600000, 1]⟩ ![0] bcol
              (select (cmpi .slt src1 (broadcastInDim ⟨1, ![600000]⟩ ![] be (constantI ⟨0, ![]⟩ 32 0#32)))
                (addi src1 (broadcastInDim ⟨1, ![600000]⟩ ![] be (constantI ⟨0, ![]⟩ 32 100000#32))) src1)))
          (broadcastInDim ⟨2, ![600000, 128]⟩ ![0, 1] bm
            (uitofp (F := Ideal) .f32 (broadcastInDim ⟨2, ![600000, 1]⟩ ![0] bcol
              (cmpi .eq et (broadcastInDim ⟨1, ![600000]⟩ ![] be (constantI ⟨0, ![]⟩ 32 (BitVec.ofNat 32 r))))))))
        (ix2 n j)
      = ∑ e : Fin 600000, if endsAt ei e n then msg x W (srcOf ei e) ⟨r, hr8⟩ j * hasType et e ⟨r, hr8⟩ else 0 := by
  rw [scatterAdd_ideal, SegmentScatter.rowScatterAdd_apply wfS, broadcastInDim_scalar_apply, constant_apply,
    Ideal.ofBits_zero_f32, zero_add]
  refine Finset.sum_congr rfl fun e _ => ?_
  rw [col_apply, hd e]
  refine if_congr Iff.rfl ?_ rfl
  rw [mulf_apply, take_src_apply wfG bcol be hr src1 ei e j (hs e) (h0 e), hhr, spread_apply]
  congr 1
  rw [uitofp_apply, col_apply, cmpi_eq_apply, broadcastInDim_scalar_apply, constantI_apply, mask_eq]
  rfl

/-- The masks added into node n: the number of edges of the relation that end at n. -/
theorem count_apply (r : Nat) (hr8 : r < 8)
    (wfE : ScatterDims.WF ⟨1, ![100000]⟩ ⟨2, ![600000, 1]⟩ ⟨1, ![600000]⟩ [] [0] [0] 1)
    (bz1 : (⟨0, ![]⟩ : Shape).BroadcastsInDim ⟨1, ![100000]⟩ ![])
    (bcol : (⟨1, ![600000]⟩ : Shape).BroadcastsInDim ⟨2, ![600000, 1]⟩ ![0])
    (be : (⟨0, ![]⟩ : Shape).BroadcastsInDim ⟨1, ![600000]⟩ ![])
    (dst1 : IVec ⟨1, ![600000]⟩ 32)
    (ei : (⟨2, ![2, 600000]⟩ : Shape).Idx → BitVec 32) (et : (⟨1, ![600000]⟩ : Shape).Idx → BitVec 32)
    (hd : ∀ e, dst1 (ix1 e) = ei (ix2 (1 : Fin 2) e))
    (n : Fin 100000) :
    Host.scatterAdd (F := Ideal) (φ := .f32) (SegmentScatter.elemDims 100000 600000 wfE)
        (broadcastInDim ⟨1, ![100000]⟩ ![] bz1 (constant (F := Ideal) ⟨0, ![]⟩ .f32 0x00000000#32))
        (broadcastInDim ⟨2, ![600000, 1]⟩ ![0] bcol dst1)
        (uitofp (F := Ideal) .f32
          (cmpi .eq et (broadcastInDim ⟨1, ![600000]⟩ ![] be (constantI ⟨0, ![]⟩ 32 (BitVec.ofNat 32 r)))))
        (ix1 n)
      = count ei et n ⟨r, hr8⟩ := by
  rw [scatterAdd_ideal, SegmentScatter.elemScatterAdd_apply wfE, broadcastInDim_scalar_apply, constant_apply,
    Ideal.ofBits_zero_f32, zero_add]
  unfold count
  refine Finset.sum_congr rfl fun e _ => ?_
  rw [col_apply, hd e]
  refine if_congr Iff.rfl ?_ rfl
  rw [uitofp_apply, cmpi_eq_apply, broadcastInDim_scalar_apply, constantI_apply, mask_eq]
  rfl

/-! ## The mean -/

/-- A table of row sums divided, row by row, by the larger of the row's count and 1. -/
theorem mean_apply
    (bz1 : (⟨0, ![]⟩ : Shape).BroadcastsInDim ⟨1, ![100000]⟩ ![])
    (bc1 : (⟨1, ![100000]⟩ : Shape).BroadcastsInDim ⟨2, ![100000, 1]⟩ ![0])
    (bc2 : (⟨2, ![100000, 1]⟩ : Shape).BroadcastsInDim ⟨2, ![100000, 128]⟩ ![0, 1])
    (S : (⟨2, ![100000, 128]⟩ : Shape).Idx → EReal) (C : (⟨1, ![100000]⟩ : Shape).Idx → EReal)
    (n : Fin 100000) (j : Fin 128) :
    Host.divf (F := Ideal) (φ := .f32) S
        (broadcastInDim ⟨2, ![100000, 128]⟩ ![0, 1] bc2
          (broadcastInDim ⟨2, ![100000, 1]⟩ ![0] bc1
            (maximumf (F := Ideal) (φ := .f32) C
              (broadcastInDim ⟨1, ![100000]⟩ ![] bz1 (constant (F := Ideal) ⟨0, ![]⟩ .f32 0x3F800000#32)))))
        (ix2 n j)
      = Ideal.div (S (ix2 n j)) (max (C (ix1 n)) 1) := by
  rw [hostDivf_apply, spread_apply, col_apply, maximumf_apply, broadcastInDim_scalar_apply, constant_apply,
    Ideal.ofBits_one_f32]

/-! ## The table -/

/-- The dimension numbers of a row-by-column product of a [100000, 128] array by a [128, 128] array. -/
abbrev mmDims (wf : DotDims.WF ⟨2, ![100000, 128]⟩ ⟨2, ![128, 128]⟩ ⟨2, ![100000, 128]⟩ [1] [0] [0] [1] [] []) :
    DotDims ⟨2, ![100000, 128]⟩ ⟨2, ![128, 128]⟩ ⟨2, ![100000, 128]⟩ where
  lhsContracting := [1]
  rhsContracting := [0]
  lhsNonContracting := [0]
  rhsNonContracting := [1]
  lhsBatch := []
  rhsBatch := []
  wf := wf

/-- The left operand is read at the result's row. -/
theorem mm_lhs0 (wf : DotDims.WF ⟨2, ![100000, 128]⟩ ⟨2, ![128, 128]⟩ ⟨2, ![100000, 128]⟩ [1] [0] [0] [1] [] [])
    (i : (⟨2, ![100000, 128]⟩ : Shape).Idx) (q : (mmDims wf).contr.Idx) :
    ((mmDims wf).lhsIdx i q 0).val = (i 0).val := by
  unfold DotDims.lhsIdx
  rw [dif_neg (show ¬(0 : Fin 2) ∈ ([] : List (Fin 2)) from List.not_mem_nil),
    dif_pos (show (0 : Fin 2) ∈ ([0] : List (Fin 2)) from List.mem_singleton.mpr rfl)]
  rfl

/-- The right operand is read at the result's column. -/
theorem mm_rhs1 (wf : DotDims.WF ⟨2, ![100000, 128]⟩ ⟨2, ![128, 128]⟩ ⟨2, ![100000, 128]⟩ [1] [0] [0] [1] [] [])
    (i : (⟨2, ![100000, 128]⟩ : Shape).Idx) (q : (mmDims wf).contr.Idx) :
    ((mmDims wf).rhsIdx i q 1).val = (i 1).val := by
  unfold DotDims.rhsIdx
  rw [dif_neg (show ¬(1 : Fin 2) ∈ ([] : List (Fin 2)) from List.not_mem_nil),
    dif_pos (show (1 : Fin 2) ∈ ([1] : List (Fin 2)) from List.mem_singleton.mpr rfl)]
  rfl

/-- That product at (i, j): row i of the left array against column j of the right. -/
theorem mm_apply (wf : DotDims.WF ⟨2, ![100000, 128]⟩ ⟨2, ![128, 128]⟩ ⟨2, ![100000, 128]⟩ [1] [0] [0] [1] [] [])
    (a : (⟨2, ![100000, 128]⟩ : Shape).Idx → EReal) (b : (⟨2, ![128, 128]⟩ : Shape).Idx → EReal)
    (i : Fin 100000) (j : Fin 128) :
    Host.dotGeneral (F := Ideal) (φ₁ := .f32) (φ₂ := .f32) (mmDims wf) none a b (ix2 i j)
      = ∑ k : Fin 128, a (ix2 i k) * b (ix2 k j) := by
  simp only [Host.dotGeneral]
  rw [Ideal.dotGeneral_apply, ← Equiv.sum_comp (contrEquiv1 (mmDims wf) 128 rfl rfl).symm]
  refine Finset.sum_congr rfl fun k _ => ?_
  have hk := contrEquiv1_symm_val (mmDims wf) 128 rfl rfl k
  have el : (mmDims wf).lhsIdx (ix2 i j) ((contrEquiv1 (mmDims wf) 128 rfl rfl).symm k) = ix2 i k :=
    funext fun c => Fin.ext (by
      match c with
      | ⟨0, _⟩ => exact mm_lhs0 wf _ _
      | ⟨1, _⟩ => exact ((mmDims wf).lhsIdx_val_of_single rfl _ _).trans hk)
  have er : (mmDims wf).rhsIdx (ix2 i j) ((contrEquiv1 (mmDims wf) 128 rfl rfl).symm k) = ix2 k j :=
    funext fun c => Fin.ext (by
      match c with
      | ⟨0, _⟩ => exact ((mmDims wf).rhsIdx_val_of_single rfl _ _).trans hk
      | ⟨1, _⟩ => exact mm_rhs1 wf _ _)
  rw [el, er]

/-- The table of relation r: the node features times slice r of the weights, at (s, j). -/
theorem hr_apply (r : Nat) (hr8 : r < 8)
    (wfD : DotDims.WF ⟨2, ![100000, 128]⟩ ⟨2, ![128, 128]⟩ ⟨2, ![100000, 128]⟩ [1] [0] [0] [1] [] [])
    (hsl : (⟨3, ![8, 128, 128]⟩ : Shape).Slices ![r, 0, 0] ⟨3, ![1, 128, 128]⟩)
    (hsc : (⟨3, ![1, 128, 128]⟩ : Shape).ShapeCasts ⟨2, ![128, 128]⟩)
    (x : (⟨2, ![100000, 128]⟩ : Shape).Idx → EReal) (W : (⟨3, ![8, 128, 128]⟩ : Shape).Idx → EReal)
    (s : Fin 100000) (j : Fin 128) :
    Host.dotGeneral (F := Ideal) (φ₁ := .f32) (φ₂ := .f32) (mmDims wfD) none x
        (shapeCast ⟨2, ![128, 128]⟩ (extractStridedSlice ⟨3, ![1, 128, 128]⟩ ![r, 0, 0] W hsl) hsc) (ix2 s j)
      = msg x W s ⟨r, hr8⟩ j := by
  rw [mm_apply]
  unfold msg
  refine Finset.sum_congr rfl fun k _ => ?_
  congr 1
  refine (shapeCast_apply _ hsc (ix2 k j) (ix3 (0 : Fin 1) k j) ?_).trans ?_
  · rw [Shape.rowMajor_val_three, Shape.rowMajor_val_two]
    show (0 * 128 + k.val) * 128 + j.val = k.val * 128 + j.val
    omega
  · exact extractStridedSlice_apply ![r, 0, 0] W hsl _ (ix3 (⟨r, hr8⟩ : Fin 8) k j) (fun c => match c with
      | ⟨0, _⟩ => by show r = r + 0; omega
      | ⟨1, _⟩ => by show k.val = 0 + k.val; omega
      | ⟨2, _⟩ => by show j.val = 0 + j.val; omega)

end Cert.RelConv.RefBlock

end
-- ==== Proof.RefSide.lean ====
/-
  The reference program read at an index: what each node's output row holds, as sums over the edges that end at the node.

  The program adds eight relation blocks one after the other onto x·root + bias and takes the maximum with 0. Every block
  is the same operations on its own slice of the weights and its own relation word; RefBlock reads one such block as a
  function of its operands, and this file shows that each block of the program is that function.
-/
import proofs.«418642_j27049704030600_1_alg».proof.Proof.Gen.ReferenceIdeal.Run
import proofs.«418642_j27049704030600_1_alg».proof.Proof.Gen.ReferenceIdeal.Read
import proofs.«418642_j27049704030600_1_alg».proof.Proof.Spec
import proofs.«418642_j27049704030600_1_alg».proof.Proof.RefBlock

open scoped BigOperators

noncomputable section

namespace Cert.ReferenceIdeal.RefSide

open Cert.ReferenceIdeal Cert.ReferenceIdeal.Gen Idealize.ShloMosaic Idealize.ShloMosaic.TcCoe Idealize.SL.Sem Idealize.ShloMosaic.StableHlo
open Idealize.ShloMosaic.ValueIdx Cert.RelConv Cert.ReferenceIdeal.Read

section Arrays
variable (x0 : (⟨S100000x128, .f32⟩ : BufTy).Contents (Elt Ideal)) (x1 : (⟨S2x600000, .i32⟩ : BufTy).Contents (Elt Ideal))
  (x2 : (⟨S600000, .i32⟩ : BufTy).Contents (Elt Ideal)) (x3 : (⟨S8x128x128, .f32⟩ : BufTy).Contents (Elt Ideal))
  (x4 : (⟨S128x128, .f32⟩ : BufTy).Contents (Elt Ideal)) (x5 : (⟨S128, .f32⟩ : BufTy).Contents (Elt Ideal))

/-- The source words as a vector: row 0 of the endpoints. -/
theorem src_apply (e : Fin 600000) : val_main_v1 (F := Ideal) x1 (ix1 e) = x1 (ix2 (0 : Fin 2) e) := by
  rw [val_main_v1_apply, val_main_v0_apply]
  refine congrArg x1 (funext fun a => Fin.ext ?_)
  match a with
  | ⟨0, _⟩ => rfl
  | ⟨1, _⟩ => exact Nat.mod_eq_of_lt e.isLt

/-- The destination words as a vector: row 1 of the endpoints. -/
theorem dst_apply (e : Fin 600000) : val_main_v3 (F := Ideal) x1 (ix1 e) = x1 (ix2 (1 : Fin 2) e) := by
  rw [val_main_v3_apply, val_main_v2_apply]
  refine congrArg x1 (funext fun a => Fin.ext ?_)
  match a with
  | ⟨0, _⟩ => rfl
  | ⟨1, _⟩ => exact Nat.mod_eq_of_lt e.isLt

/-- The self term: row n of x times the self weight, plus the bias, at column j. -/
theorem self_apply (n : Fin 100000) (j : Fin 128) :
    val_main_v7 (F := Ideal) x0 x4 x5 (ix2 n j) = selfTerm x0 x4 n j + x5 (ix1 j) := by
  rw [val_main_v7_apply, val_main_v4_apply, val_main_v6_apply, val_main_v5_apply, Ideal.addf_def]
  have hl : ∀ k : Fin 128, lidx_main_v4 (ix2 n j) k = ix2 n k := fun k => funext fun a => by
    match a with
    | ⟨0, _⟩ => rfl
    | ⟨1, _⟩ => rfl
  have hr : ∀ k : Fin 128, ridx_main_v4 (ix2 n j) k = ix2 k j := fun k => funext fun a => by
    match a with
    | ⟨0, _⟩ => rfl
    | ⟨1, _⟩ => rfl
  have h5 : idx_main_v5 (idx_main_v6 (ix2 n j)) = ix1 j := funext fun a => by
    match a with
    | ⟨0, _⟩ => rfl
  simp only [hl, hr, h5]
  rfl

/-- One relation's block. Given that T is the relation's table, S the rows added into the destinations, C the counts and
    M their quotient, each spelt as the program spells it, M at (n, j) is the relation's mean. -/
theorem block (r : Nat) (hr8 : r < 8) (hsl : S8x128x128.Slices ![r, 0, 0] S1x128x128)
    (T S M : (⟨S100000x128, .f32⟩ : BufTy).Contents (Elt Ideal)) (C : (⟨S100000, .f32⟩ : BufTy).Contents (Elt Ideal))
    (hT : T = Host.dotGeneral (F := Ideal) (φ₁ := .f32) (φ₂ := .f32) dot_S100000x128_S128x128_S100000x128_1_0_0_1_n_n none x0
      (shapeCast _ (extractStridedSlice S1x128x128 ![r, 0, 0] x3 hsl) shapeCasts_S1x128x128_S128x128))
    (hS : S = Host.scatterAdd (F := Ideal) (φ := .f32) scatter_S100000x128_S600000x1_S600000x128_1_0_0_1
      (broadcastInDim S100000x128 ![] bcast_S_S100000x128 (constant (F := Ideal) S_ .f32 0x00000000#32))
      (broadcastInDim S600000x1 ![0] bcast_S600000_S600000x1_0 (val_main_v3 (F := Ideal) x1))
      (mulf (F := Ideal) (φ := .f32)
        (Host.gather gather_S100000x128_S600000x1_S600000x128_1_0_n_n_0_1_1128 T
          (broadcastInDim S600000x1 ![0] bcast_S600000_S600000x1_0
            (select (cmpi .slt (val_main_v1 (F := Ideal) x1) (broadcastInDim S600000 ![] bcast_S_S600000 (constantI S_ 32 0#32)))
              (addi (val_main_v1 (F := Ideal) x1) (broadcastInDim S600000 ![] bcast_S_S600000 (constantI S_ 32 100000#32)))
              (val_main_v1 (F := Ideal) x1))))
        (broadcastInDim S600000x128 ![0, 1] bcast_S600000x1_S600000x128_0_1
          (uitofp (F := Ideal) .f32 (broadcastInDim S600000x1 ![0] bcast_S600000_S600000x1_0
            (cmpi .eq x2 (broadcastInDim S600000 ![] bcast_S_S600000 (constantI S_ 32 (BitVec.ofNat 32 r)))))))))
    (hC : C = Host.scatterAdd (F := Ideal) (φ := .f32) scatter_S100000_S600000x1_S600000_n_0_0_1
      (broadcastInDim S100000 ![] bcast_S_S100000 (constant (F := Ideal) S_ .f32 0x00000000#32))
      (broadcastInDim S600000x1 ![0] bcast_S600000_S600000x1_0 (val_main_v3 (F := Ideal) x1))
      (uitofp (F := Ideal) .f32 (cmpi .eq x2 (broadcastInDim S600000 ![] bcast_S_S600000 (constantI S_ 32 (BitVec.ofNat 32 r))))))
    (hM : M = Host.divf (F := Ideal) (φ := .f32) S
      (broadcastInDim S100000x128 ![0, 1] bcast_S100000x1_S100000x128_0_1
        (broadcastInDim S100000x1 ![0] bcast_S100000_S100000x1_0
          (maximumf (F := Ideal) (φ := .f32) C (broadcastInDim S100000 ![] bcast_S_S100000 (constant (F := Ideal) S_ .f32 0x3F800000#32))))))
    (h0 : ∀ e : Fin 600000, 0 ≤ (x1 (ix2 (0 : Fin 2) e)).toInt) (n : Fin 100000) (j : Fin 128) :
    M (ix2 n j) = relMean x0 x1 x2 x3 n j ⟨r, hr8⟩ := by
  have hTv : ∀ (s : Fin 100000) (k : Fin 128), T (ix2 s k) = msg x0 x3 s ⟨r, hr8⟩ k := fun s k => by
    rw [hT]
    exact RefBlock.hr_apply r hr8 dot_S100000x128_S128x128_S100000x128_1_0_0_1_n_n_wf hsl shapeCasts_S1x128x128_S128x128 x0 x3 s k
  have hSv : S (ix2 n j)
      = ∑ e : Fin 600000, if endsAt x1 e n then msg x0 x3 (srcOf x1 e) ⟨r, hr8⟩ j * hasType x2 e ⟨r, hr8⟩ else 0 := by
    rw [hS]
    exact RefBlock.rowSum_apply r hr8 scatter_S100000x128_S600000x1_S600000x128_1_0_0_1_wf
      gather_S100000x128_S600000x1_S600000x128_1_0_n_n_0_1_1128_wf bcast_S_S100000x128 bcast_S600000_S600000x1_0
      bcast_S_S600000 bcast_S600000x1_S600000x128_0_1 T (val_main_v1 (F := Ideal) x1) (val_main_v3 (F := Ideal) x1)
      x0 x1 x2 x3 (src_apply x1) (dst_apply x1) h0 hTv n j
  have hCv : C (ix1 n) = count x1 x2 n ⟨r, hr8⟩ := by
    rw [hC]
    exact RefBlock.count_apply r hr8 scatter_S100000_S600000x1_S600000_n_0_0_1_wf bcast_S_S100000
      bcast_S600000_S600000x1_0 bcast_S_S600000 (val_main_v3 (F := Ideal) x1) x1 x2 (dst_apply x1) n
  rw [hM, RefBlock.mean_apply bcast_S_S100000 bcast_S100000_S100000x1_0 bcast_S100000x1_S100000x128_0_1 S C n j, hSv, hCv]
  rfl

/-! ## The eight blocks of the program -/

/-- Relation 0's block of the program. -/
theorem blk0 (h0 : ∀ e : Fin 600000, 0 ≤ (x1 (ix2 (0 : Fin 2) e)).toInt) (n : Fin 100000) (j : Fin 128) :
    val_main_v35 (F := Ideal) x0 x1 x2 x3 (ix2 n j) = relMean x0 x1 x2 x3 n j 0 :=
  block x0 x1 x2 x3 0 (by norm_num) slices_S8x128x128_S1x128x128_0_0_0 (val_main_v10 (F := Ideal) x0 x3)
    (val_main_v26 (F := Ideal) x0 x1 x2 x3) (val_main_v35 (F := Ideal) x0 x1 x2 x3) (val_main_v30 (F := Ideal) x1 x2)
    rfl rfl rfl rfl h0 n j

/-- Relation 1's block of the program. -/
theorem blk1 (h0 : ∀ e : Fin 600000, 0 ≤ (x1 (ix2 (0 : Fin 2) e)).toInt) (n : Fin 100000) (j : Fin 128) :
    val_main_v64 (F := Ideal) x0 x1 x2 x3 (ix2 n j) = relMean x0 x1 x2 x3 n j 1 :=
  block x0 x1 x2 x3 1 (by norm_num) slices_S8x128x128_S1x128x128_1_0_0 (val_main_v39 (F := Ideal) x0 x3)
    (val_main_v55 (F := Ideal) x0 x1 x2 x3) (val_main_v64 (F := Ideal) x0 x1 x2 x3) (val_main_v59 (F := Ideal) x1 x2)
    rfl rfl rfl rfl h0 n j

/-- Relation 2's block of the program. -/
theorem blk2 (h0 : ∀ e : Fin 600000, 0 ≤ (x1 (ix2 (0 : Fin 2) e)).toInt) (n : Fin 100000) (j : Fin 128) :
    val_main_v93 (F := Ideal) x0 x1 x2 x3 (ix2 n j) = relMean x0 x1 x2 x3 n j 2 :=
  block x0 x1 x2 x3 2 (by norm_num) slices_S8x128x128_S1x128x128_2_0_0 (val_main_v68 (F := Ideal) x0 x3)
    (val_main_v84 (F := Ideal) x0 x1 x2 x3) (val_main_v93 (F := Ideal) x0 x1 x2 x3) (val_main_v88 (F := Ideal) x1 x2)
    rfl rfl rfl rfl h0 n j

/-- Relation 3's block of the program. -/
theorem blk3 (h0 : ∀ e : Fin 600000, 0 ≤ (x1 (ix2 (0 : Fin 2) e)).toInt) (n : Fin 100000) (j : Fin 128) :
    val_main_v122 (F := Ideal) x0 x1 x2 x3 (ix2 n j) = relMean x0 x1 x2 x3 n j 3 :=
  block x0 x1 x2 x3 3 (by norm_num) slices_S8x128x128_S1x128x128_3_0_0 (val_main_v97 (F := Ideal) x0 x3)
    (val_main_v113 (F := Ideal) x0 x1 x2 x3) (val_main_v122 (F := Ideal) x0 x1 x2 x3) (val_main_v117 (F := Ideal) x1 x2)
    rfl rfl rfl rfl h0 n j

/-- Relation 4's block of the program. -/
theorem blk4 (h0 : ∀ e : Fin 600000, 0 ≤ (x1 (ix2 (0 : Fin 2) e)).toInt) (n : Fin 100000) (j : Fin 128) :
    val_main_v151 (F := Ideal) x0 x1 x2 x3 (ix2 n j) = relMean x0 x1 x2 x3 n j 4 :=
  block x0 x1 x2 x3 4 (by norm_num) slices_S8x128x128_S1x128x128_4_0_0 (val_main_v126 (F := Ideal) x0 x3)
    (val_main_v142 (F := Ideal) x0 x1 x2 x3) (val_main_v151 (F := Ideal) x0 x1 x2 x3) (val_main_v146 (F := Ideal) x1 x2)
    rfl rfl rfl rfl h0 n j

/-- Relation 5's block of the program. -/
theorem blk5 (h0 : ∀ e : Fin 600000, 0 ≤ (x1 (ix2 (0 : Fin 2) e)).toInt) (n : Fin 100000) (j : Fin 128) :
    val_main_v180 (F := Ideal) x0 x1 x2 x3 (ix2 n j) = relMean x0 x1 x2 x3 n j 5 :=
  block x0 x1 x2 x3 5 (by norm_num) slices_S8x128x128_S1x128x128_5_0_0 (val_main_v155 (F := Ideal) x0 x3)
    (val_main_v171 (F := Ideal) x0 x1 x2 x3) (val_main_v180 (F := Ideal) x0 x1 x2 x3) (val_main_v175 (F := Ideal) x1 x2)
    rfl rfl rfl rfl h0 n j

/-- Relation 6's block of the program. -/
theorem blk6 (h0 : ∀ e : Fin 600000, 0 ≤ (x1 (ix2 (0 : Fin 2) e)).toInt) (n : Fin 100000) (j : Fin 128) :
    val_main_v209 (F := Ideal) x0 x1 x2 x3 (ix2 n j) = relMean x0 x1 x2 x3 n j 6 :=
  block x0 x1 x2 x3 6 (by norm_num) slices_S8x128x128_S1x128x128_6_0_0 (val_main_v184 (F := Ideal) x0 x3)
    (val_main_v200 (F := Ideal) x0 x1 x2 x3) (val_main_v209 (F := Ideal) x0 x1 x2 x3) (val_main_v204 (F := Ideal) x1 x2)
    rfl rfl rfl rfl h0 n j

/-- Relation 7's block of the program. -/
theorem blk7 (h0 : ∀ e : Fin 600000, 0 ≤ (x1 (ix2 (0 : Fin 2) e)).toInt) (n : Fin 100000) (j : Fin 128) :
    val_main_v238 (F := Ideal) x0 x1 x2 x3 (ix2 n j) = relMean x0 x1 x2 x3 n j 7 :=
  block x0 x1 x2 x3 7 (by norm_num) slices_S8x128x128_S1x128x128_7_0_0 (val_main_v213 (F := Ideal) x0 x3)
    (val_main_v229 (F := Ideal) x0 x1 x2 x3) (val_main_v238 (F := Ideal) x0 x1 x2 x3) (val_main_v233 (F := Ideal) x1 x2)
    rfl rfl rfl rfl h0 n j

end Arrays

/-- The reference's result at (n, j), for source words that are node numbers: the relation-by-relation arrangement. -/
theorem ref_value (m : (ℓ : Loc nD τ sig) → Buf (Elt Ideal) ℓ) (c : Dev nD)
    (hsrc : ∀ e : Fin 600000, 0 ≤ ((m ((c.tc : Thread nD τ).loc main_arg1) : IVec S2x600000 32) (ix2 (0 : Fin 2) e)).toInt
      ∧ ((m ((c.tc : Thread nD τ).loc main_arg1) : IVec S2x600000 32) (ix2 (0 : Fin 2) e)).toInt < 100000)
    (n : Fin 100000) (j : Fin 128) :
    (Cert.ReferenceIdeal.Value.res_out0 (F := Ideal) m c : FVec Ideal S100000x128 .f32) (ix2 n j)
      = Cert.RelConv.relOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) n j := by
  have h0 : ∀ e : Fin 600000,
      0 ≤ ((m ((c.tc : Thread nD τ).loc main_arg1) : IVec S2x600000 32) (ix2 (0 : Fin 2) e)).toInt := fun e => (hsrc e).1
  show (Cert.ReferenceIdeal.Value.res_main_v240 (F := Ideal) m c : FVec Ideal S100000x128 .f32) (ix2 n j) = _
  rw [val_main_v240_eq, val_main_v240_apply, val_main_v239_apply, val_main_v210_apply, val_main_v181_apply,
    val_main_v152_apply, val_main_v123_apply, val_main_v94_apply, val_main_v65_apply, val_main_v36_apply,
    blk7 _ _ _ _ h0, blk6 _ _ _ _ h0, blk5 _ _ _ _ h0, blk4 _ _ _ _ h0, blk3 _ _ _ _ h0, blk2 _ _ _ _ h0,
    blk1 _ _ _ _ h0, blk0 _ _ _ _ h0, self_apply, val_main_call0_v0_apply, val_main_call0_cst_apply,
    Ideal.ofBits_def, Ideal.ofBits_zero_f32]
  simp only [Ideal.addf_def, Ideal.maximumf_def]
  rfl

end Cert.ReferenceIdeal.RefSide

end
-- ==== Proof.LibERealCoe.lean ====
/-
  Real numbers inside the extended reals: the embedding commutes with finite sums, with division by a nonzero real
  as the ideal instance defines it, and with a choice between a value and zero.
-/
import Idealize.ShloMosaic.PureOps.Ideal

noncomputable section

namespace Cert.LibERealCoe

open Idealize.ShloMosaic

/-- The embedding of a finite sum of reals is the sum of the embeddings. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The ideal instance's quotient of a real by a nonzero real is the real quotient. -/
theorem div_coe_coe (x y : ℝ) (hy : y ≠ 0) : Ideal.div (x : EReal) (y : EReal) = ((x / y : ℝ) : EReal) := by
  rw [Ideal.div_coe hy, ← EReal.coe_mul, div_eq_mul_one_div x y]

/-- The embedding of "this real or zero" is "its embedding or zero". -/
theorem coe_ite_zero (c : Prop) [Decidable c] (x : ℝ) :
    (((if c then x else 0 : ℝ)) : EReal) = if c then (x : EReal) else 0 := by
  split_ifs <;> simp

end Cert.LibERealCoe

end
-- ==== Proof.Algebra.lean ====
/-
  The two arrangements of the mean aggregation agree when the node features and the relation weights are real numbers
  and every relation label is one of the eight relations.

  Fix a node n and a column j, write E for the edges that end at n, a(e, r) for x[src e]·W[r][:, j] and m(r) ≥ 1 for
  max(#{e ∈ E of relation r}, 1). EDGE BY EDGE adds  Σ_{e ∈ E} a(e, rel e) · (1 / m(rel e));  RELATION BY RELATION adds
  Σ_r (Σ_{e ∈ E} a(e, r)·[rel e = r]) / m(r).  Dividing inside the inner sum, exchanging the two sums, and noting that
  for a fixed edge only r = rel e survives, the second is the first. Everything here is a finite real number, so the
  identity is one of real arithmetic; the self term and the bias, to which both arrangements add their aggregate, may be
  any extended reals, since addition of extended reals is associative.
-/
import proofs.«418642_j27049704030600_1_alg».proof.Proof.Spec
import proofs.«418642_j27049704030600_1_alg».proof.Proof.LibERealCoe
import Mathlib.Data.EReal.Operations
import Mathlib.Algebra.BigOperators.Fin
import Mathlib.Algebra.BigOperators.Ring.Finset
import Mathlib.Algebra.BigOperators.Field

open scoped BigOperators

noncomputable section

namespace Cert.RelConv

open Idealize.ShloMosaic Idealize.ShloMosaic.ValueIdx Cert.LibERealCoe

variable (x' : (⟨2, ![100000, 128]⟩ : Shape).Idx → ℝ) (ei : (⟨2, ![2, 600000]⟩ : Shape).Idx → BitVec 32)
  (et : (⟨1, ![600000]⟩ : Shape).Idx → BitVec 32) (W' : (⟨3, ![8, 128, 128]⟩ : Shape).Idx → ℝ)

/-! ## The real counterparts -/

/-- Row `s` of the features times relation `r`'s weight at column `j`, as a real number. -/
def msgR (s : Fin 100000) (r : Fin 8) (j : Fin 128) : ℝ := ∑ k : Fin 128, x' (ix2 s k) * W' (ix3 r k j)

/-- 1 if edge `e` carries relation `r`, else 0, as a real number. -/
def hasTypeR (e : Fin 600000) (r : Fin 8) : ℝ := if et (ix1 e) = BitVec.ofNat 32 r.val then 1 else 0

/-- The number of edges of relation `r` that end at `n`, as a real number. -/
def countR (n : Fin 100000) (r : Fin 8) : ℝ := ∑ e : Fin 600000, if endsAt ei e n then hasTypeR et e r else 0

theorem msg_coe (s : Fin 100000) (r : Fin 8) (j : Fin 128) :
    msg (fun i => (x' i : EReal)) (fun i => (W' i : EReal)) s r j = ((msgR x' W' s r j : ℝ) : EReal) := by
  unfold msg msgR
  rw [coe_sum]
  exact Finset.sum_congr rfl fun k _ => (EReal.coe_mul _ _).symm

theorem hasType_coe (e : Fin 600000) (r : Fin 8) : hasType et e r = ((hasTypeR et e r : ℝ) : EReal) := by
  unfold hasType hasTypeR
  split_ifs <;> simp

theorem count_coe (n : Fin 100000) (r : Fin 8) : count ei et n r = ((countR ei et n r : ℝ) : EReal) := by
  unfold count countR
  rw [coe_sum]
  refine Finset.sum_congr rfl fun e _ => ?_
  split_ifs
  · exact hasType_coe et e r
  · simp

theorem max_count_coe (n : Fin 100000) (r : Fin 8) :
    max (count ei et n r) 1 = ((max (countR ei et n r) 1 : ℝ) : EReal) := by
  rw [count_coe, ← EReal.coe_one]
  exact (EReal.coe_strictMono.monotone.map_max).symm

theorem max_countR_ne_zero (n : Fin 100000) (r : Fin 8) : max (countR ei et n r) 1 ≠ 0 :=
  (lt_of_lt_of_le one_pos (le_max_right _ _)).ne'

/-! ## The identity over the reals -/

/-- For an edge whose label is the relation `typOf` reads, "the edge carries relation `r`" is "`r` is that relation". -/
theorem hasTypeR_eq (htyp : ∀ e : Fin 600000, et (ix1 e) = BitVec.ofNat 32 (typOf et e).val) (e : Fin 600000) (r : Fin 8) :
    hasTypeR et e r = if r = typOf et e then 1 else 0 := by
  unfold hasTypeR
  have hiff : (et (ix1 e) = BitVec.ofNat 32 r.val) ↔ r = typOf et e := by
    constructor
    · intro h
      have h2 := (htyp e).symm.trans h
      have h3 := congrArg BitVec.toNat h2
      rw [BitVec.toNat_ofNat, BitVec.toNat_ofNat] at h3
      have hr := r.isLt
      have ht := (typOf et e).isLt
      exact Fin.ext (by omega)
    · intro h
      rw [h]; exact htyp e
  by_cases h : r = typOf et e
  · rw [if_pos (hiff.mpr h), if_pos h]
  · rw [if_neg (fun h' => h (hiff.mp h')), if_neg h]

theorem real_identity (htyp : ∀ e : Fin 600000, et (ix1 e) = BitVec.ofNat 32 (typOf et e).val)
    (n : Fin 100000) (j : Fin 128) :
    (∑ e : Fin 600000, if endsAt ei e n then
        msgR x' W' (srcOf ei e) (typOf et e) j * (1 / max (countR ei et n (typOf et e)) 1) else 0)
      = ∑ r : Fin 8, (∑ e : Fin 600000, if endsAt ei e n then msgR x' W' (srcOf ei e) r j * hasTypeR et e r else 0)
          / max (countR ei et n r) 1 := by
  simp_rw [Finset.sum_div]
  rw [Finset.sum_comm]
  refine Finset.sum_congr rfl fun e _ => ?_
  by_cases h : endsAt ei e n
  · simp only [h, if_true, hasTypeR_eq et htyp]
    rw [Finset.sum_eq_single (typOf et e)]
    · rw [if_pos rfl, mul_one, mul_one_div]
    · intro r _ hr
      rw [if_neg hr, mul_zero, zero_div]
    · intro hne; exact absurd (Finset.mem_univ _) hne
  · simp only [h, if_false, zero_div, Finset.sum_const_zero]

/-! ## The two arrangements agree -/

theorem edgeOut_eq_relOut (x : (⟨2, ![100000, 128]⟩ : Shape).Idx → EReal) (W : (⟨3, ![8, 128, 128]⟩ : Shape).Idx → EReal)
    (root : (⟨2, ![128, 128]⟩ : Shape).Idx → EReal) (bias : (⟨1, ![128]⟩ : Shape).Idx → EReal)
    (hx : ∀ i, ∃ r : ℝ, x i = (r : EReal)) (hW : ∀ i, ∃ r : ℝ, W i = (r : EReal))
    (htyp : ∀ e : Fin 600000, et (ix1 e) = BitVec.ofNat 32 (typOf et e).val) (n : Fin 100000) (j : Fin 128) :
    edgeOut x ei et W root bias n j = relOut x ei et W root bias n j := by
  choose x' hx' using hx
  choose W' hW' using hW
  obtain rfl : x = fun i => (x' i : EReal) := funext hx'
  obtain rfl : W = fun i => (W' i : EReal) := funext hW'
  have hE : (∑ e : Fin 600000, if endsAt ei e n then
        msg (fun i => (x' i : EReal)) (fun i => (W' i : EReal)) (srcOf ei e) (typOf et e) j
          * Ideal.div 1 (max (count ei et n (typOf et e)) 1) else 0)
      = ((∑ e : Fin 600000, if endsAt ei e n then
          msgR x' W' (srcOf ei e) (typOf et e) j * (1 / max (countR ei et n (typOf et e)) 1) else 0 : ℝ) : EReal) := by
    rw [coe_sum]
    refine Finset.sum_congr rfl fun e _ => ?_
    split_ifs
    · rw [msg_coe, max_count_coe, ← EReal.coe_one, div_coe_coe _ _ (max_countR_ne_zero ei et n _), ← EReal.coe_mul]
    · simp
  have hR : ∀ r : Fin 8, relMean (fun i => (x' i : EReal)) ei et (fun i => (W' i : EReal)) n j r
      = (((∑ e : Fin 600000, if endsAt ei e n then msgR x' W' (srcOf ei e) r j * hasTypeR et e r else 0)
          / max (countR ei et n r) 1 : ℝ) : EReal) := by
    intro r
    unfold relMean
    have hs : (∑ e : Fin 600000, if endsAt ei e n then
          msg (fun i => (x' i : EReal)) (fun i => (W' i : EReal)) (srcOf ei e) r j * hasType et e r else 0)
        = ((∑ e : Fin 600000, if endsAt ei e n then msgR x' W' (srcOf ei e) r j * hasTypeR et e r else 0 : ℝ) : EReal) := by
      rw [coe_sum]
      refine Finset.sum_congr rfl fun e _ => ?_
      split_ifs
      · rw [msg_coe, hasType_coe, ← EReal.coe_mul]
      · simp
    rw [hs, max_count_coe, div_coe_coe _ _ (max_countR_ne_zero ei et n r)]
  unfold edgeOut relOut
  rw [hE, hR 0, hR 1, hR 2, hR 3, hR 4, hR 5, hR 6, hR 7, real_identity x' ei et W' htyp n j, Fin.sum_univ_eight]
  simp only [EReal.coe_add, add_assoc]

end Cert.RelConv

end
-- ==== Proof.PreDecode.lean ====
/-
  What the precondition says of the arrays, read back from its printed form: a conjunction of eight "every element
  passes" tests. From the four tests |v| < +∞ (of which the features' and the relation weights' are used): every entry
  of those arrays is a real number (an extended real whose absolute value is below +∞ is neither infinity). From the
  four word tests: every edge's source word, read signed, lies in [0, 100000), and every relation label in [0, 8).
-/
import proofs.«418642_j27049704030600_1_alg».proof.Pre_finite_inputs
import proofs.«418642_j27049704030600_1_alg».proof.Proof.LibIndexRange
import Idealize.ShloMosaic.Lib.ValueIdx
import Idealize.ShloMosaic.Lib.Pipeline.Value
import Idealize.ShloMosaic.PureOps.Ideal.Laws

noncomputable section

namespace Cert.PreDecode

open Idealize.ShloMosaic Idealize.ShloMosaic.ValueIdx Cert.Pre_finite_inputs

instance : Subsingleton S_.Idx := ⟨fun a b => funext fun d => d.elim0⟩

/-- The pattern 0x7F800000 denotes +∞. -/
theorem ofBits_inf : Ideal.ofBits .f32 0x7F800000#32 = (⊤ : EReal) := by
  simp [Ideal.ofBits, Ideal.ieee]

/-- An extended real whose absolute value max(x, -x) is below +∞ is a real number. -/
theorem real_of_abs_lt_inf (x : EReal)
    (h : Ideal.cmp .olt (max x (-x)) (Ideal.ofBits .f32 0x7F800000#32) = 1#1) : ∃ r : ℝ, x = (r : EReal) := by
  rw [ofBits_inf] at h
  unfold Ideal.cmp at h
  simp only at h
  have h1 : max x (-x) < ⊤ := by
    by_contra hc
    rw [decide_eq_false hc] at h
    exact absurd h (by decide)
  have hx : x < ⊤ := lt_of_le_of_lt (le_max_left _ _) h1
  have hnx : -x < ⊤ := lt_of_le_of_lt (le_max_right _ _) h1
  induction x using EReal.rec with
  | bot => simp at hnx
  | coe r => exact ⟨r, rfl⟩
  | top => exact absurd hx (lt_irrefl _)

variable [Facts]
open Facts

/-- Row 0 of the endpoints array, sliced off and flattened, read at edge `e`: the source word of `e`. -/
theorem src_word (a1 : IVec S2x600000 32) (e : Fin 600000) :
    shapeCast S600000 (extractStridedSlice S1x600000 ![0, 0] a1 slices_S2x600000_S1x600000_0_0)
      shapeCasts_S1x600000_S600000 (ix1 e) = a1 (ix2 (0 : Fin 2) e) := by
  rw [shapeCast_apply _ _ (ix1 e) (ix2 (0 : Fin 1) e)
    (by rw [Shape.rowMajor_val_two, Shape.rowMajor_val_one]; simp)]
  refine extractStridedSlice_apply _ _ _ _ (ix2 (0 : Fin 2) e) fun a => ?_
  match a with
  | ⟨0, _⟩ => rfl
  | ⟨1, _⟩ => simp

/-- The precondition, decoded. -/
theorem decode (a0 : FVec Ideal S100000x128 .f32) (a1 : IVec S2x600000 32) (a2 : IVec S600000 32)
    (a3 : FVec Ideal S8x128x128 .f32) (a4 : FVec Ideal S128x128 .f32) (a5 : FVec Ideal S128 .f32)
    (h : fn (F := Ideal) a0 a1 a2 a3 a4 a5 = fun _ => 1#1) :
    (∀ i, ∃ r : ℝ, a0 i = (r : EReal)) ∧ (∀ i, ∃ r : ℝ, a3 i = (r : EReal))
      ∧ (∀ e : Fin 600000, 0 ≤ (a1 (ix2 (0 : Fin 2) e)).toInt ∧ (a1 (ix2 (0 : Fin 2) e)).toInt < 100000)
      ∧ (∀ e : Fin 600000, 0 ≤ (a2 (ix1 e)).toInt ∧ (a2 (ix1 e)).toInt < 8) := by
  have h0 := congrFun h ix0
  dsimp only [fn, fn_part1, fn_part2] at h0
  simp only [Idealize.ShloMosaic.andi, IntOp.andi_eq_one] at h0
  obtain ⟨⟨⟨⟨⟨⟨⟨hx, hW⟩, -⟩, -⟩, hs0⟩, hs1⟩, ht0⟩, ht1⟩ := h0
  refine ⟨fun i => ?_, fun i => ?_, fun e => ?_, fun e => ?_⟩
  · exact real_of_abs_lt_inf _ (Host.reduce_andi_all _ _ _ _ ix0 hx i)
  · exact real_of_abs_lt_inf _ (Host.reduce_andi_all _ _ _ _ ix0 hW i)
  · have g0 := Host.reduce_andi_all _ _ _ _ ix0 hs0 (ix1 e)
    have g1 := Host.reduce_andi_all _ _ _ _ ix0 hs1 (ix1 e)
    unfold cmpi at g0 g1
    rw [src_word] at g0 g1
    exact IndexRange.toInt_mem_of_cmpi 100000 (by norm_num) g0 g1
  · have g0 := Host.reduce_andi_all _ _ _ _ ix0 ht0 (ix1 e)
    have g1 := Host.reduce_andi_all _ _ _ _ ix0 ht1 (ix1 e)
    exact IndexRange.toInt_mem_of_cmpi 8 (by norm_num) g0 g1

end Cert.PreDecode

end
-- ==== Proof.lean ====
/-
  A relational graph convolution with mean aggregation and a rectifier: the kernel program against its reference.

  Both programs compute, for node n and column j,
      max(x[n]·root[:, j] + bias j + Σ_r mean over the edges e of relation r that end at n of x[src e]·W[r][:, j], 0).
  The kernel program multiplies the features once by the self weight and the eight relation weights laid side by side (its
  one region, 50 row bands of 2000 rows), gathers for every edge the column block of its own relation at its source, weights
  it by the reciprocal of the number of edges of that relation ending at the same node, and adds the weighted messages up at
  the destinations. The reference goes relation by relation: it masks the messages of the other relations to zero, adds
  up, and divides each total by the count. Over the real numbers — the features and the relation weights are finite by the
  precondition — the two are one sum, once every source word is a node and every label one of the eight relations (also
  the precondition: outside those ranges the reference clamps a source and ignores a label where the kernel program's
  flattened index src·8 + label reads another entry).

  Frames: the kernel program's, at both instances, from the run of its one region between its host operations
  (Proof/KernelFrame.lean, Proof/KernelIdealFrame.lean); the reference's from its run. The ideal pass rewrote nothing, so
  the idealization claim is trivial. Values: the region's result array (Proof/Region.lean, Proof/KernelWeights.lean), the
  operations after the region (Proof/KernelTail.lean, Proof/KernelResult.lean), the reference (Proof/RefSide.lean), the
  identity between the two arrangements (Proof/Spec.lean, Proof/Algebra.lean), and what the precondition says of the arrays
  (Proof/PreDecode.lean).
-/
import proofs.«418642_j27049704030600_1_alg».proof.Defs
import proofs.«418642_j27049704030600_1_alg».proof.Proof.KernelFrame
import proofs.«418642_j27049704030600_1_alg».proof.Proof.KernelIdealFrame
import proofs.«418642_j27049704030600_1_alg».proof.Proof.KernelResult
import proofs.«418642_j27049704030600_1_alg».proof.Proof.RefSide
import proofs.«418642_j27049704030600_1_alg».proof.Proof.Algebra
import proofs.«418642_j27049704030600_1_alg».proof.Proof.PreDecode
import proofs.«418642_j27049704030600_1_alg».proof.Proof.Gen.Kernel
import proofs.«418642_j27049704030600_1_alg».proof.Proof.Gen.KernelIdeal
import proofs.«418642_j27049704030600_1_alg».proof.Proof.Gen.ReferenceIdeal
import proofs.«418642_j27049704030600_1_alg».proof.Proof.Gen.Pre_finite_inputs
import Idealize.ShloMosaic.Adequacy
import Idealize.ShloMosaic.Init

open scoped BigOperators

noncomputable section

namespace Cert.Proof

open Idealize.ShloMosaic Idealize.ShloMosaic.TcCoe Idealize.ShloMosaic.ValueIdx Idealize.SL.Sem Cert.RelConv

/-! ## Labels in range -/

/-- A word whose signed value is non-negative is the word of that value. -/
theorem ofNat_toInt_toNat (w : BitVec 32) (h : 0 ≤ w.toInt) : BitVec.ofNat 32 w.toInt.toNat = w := by
  apply BitVec.eq_of_toNat_eq
  rw [BitVec.toNat_ofNat]
  have hw := w.isLt
  rw [BitVec.toInt_eq_toNat_cond] at h ⊢
  split at h <;> omega

/-- A label in `[0, 8)` is the word of the relation read off it. -/
theorem label_eq (et : (⟨1, ![600000]⟩ : Shape).Idx → BitVec 32)
    (htyp : ∀ e : Fin 600000, 0 ≤ (et (ix1 e)).toInt ∧ (et (ix1 e)).toInt < 8) (e : Fin 600000) :
    et (ix1 e) = BitVec.ofNat 32 (typOf et e).val := by
  obtain ⟨h0, h1⟩ := htyp e
  have hv : (typOf et e).val = (et (ix1 e)).toInt.toNat := by
    show min (et (ix1 e)).toInt.toNat 7 = _
    omega
  rw [hv, ofNat_toInt_toNat _ h0]

/-! ## The claims -/

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with one array: the kernel program's, which is the edge-by-edge arrangement of its launch arrays; the
    reference's is the relation-by-relation arrangement of the same arrays, and under the precondition the two agree. -/
theorem algebraic : Cert.algebraic_KernelIdeal_ReferenceIdeal := by
  intro m ρ m' ρ' hpre hagree
  refine ⟨fun c => Pipeline.afterTail₀ Cert.KernelIdeal.cfgs (Cert.KernelIdeal.Hand.dats m) 0 (Cert.KernelIdeal.Hand.V0 m)
    Cert.KernelIdeal.Hand.tailOps c Cert.KernelIdeal.main_v40, ?_, ?_⟩
  · refine (θ_run Cert.KernelIdeal.defs _ _).mono (fun r h c => ?_) (Cert.KernelIdeal.Hand.run_main (F := Ideal) m ρ)
    exact ⟨(h c).2 Cert.KernelIdeal.main_v40 (Pipeline.mem_restRefs_of Cert.KernelIdeal.main_v40 (by decide) (by decide)),
      ((h c).1 0).trans (((Cert.KernelIdeal.Hand.dats m 0 c).arrAt_in 0 rfl _).trans
        ((Cert.KernelIdeal.Hand.A_eq m c 0).trans (Cert.KernelIdeal.Hand.V_main_arg0 m c))),
      ((h c).2 Cert.KernelIdeal.main_arg1 (Pipeline.mem_restRefs_of Cert.KernelIdeal.main_arg1 (by decide) (by decide))).trans (Cert.KernelIdeal.Hand.W_main_arg1 m c),
      ((h c).2 Cert.KernelIdeal.main_arg2 (Pipeline.mem_restRefs_of Cert.KernelIdeal.main_arg2 (by decide) (by decide))).trans (Cert.KernelIdeal.Hand.W_main_arg2 m c),
      ((h c).2 Cert.KernelIdeal.main_arg3 (Pipeline.mem_restRefs_of Cert.KernelIdeal.main_arg3 (by decide) (by decide))).trans (Cert.KernelIdeal.Hand.W_main_arg3 m c),
      ((h c).2 Cert.KernelIdeal.main_arg4 (Pipeline.mem_restRefs_of Cert.KernelIdeal.main_arg4 (by decide) (by decide))).trans (Cert.KernelIdeal.Hand.W_main_arg4 m c),
      ((h c).2 Cert.KernelIdeal.main_arg5 (Pipeline.mem_restRefs_of Cert.KernelIdeal.main_arg5 (by decide) (by decide))).trans (Cert.KernelIdeal.Hand.W_main_arg5 m c)⟩
  · refine (θ_run Cert.ReferenceIdeal.defs _ _).mono (fun r h c => ⟨(h c).1.trans ?_, (h c).2⟩)
      (Cert.ReferenceIdeal.Value.run (F := Ideal) m' ρ')
    obtain ⟨hx, hW, hsrc, htyp⟩ := Cert.PreDecode.decode _ _ _ _ _ _ (hpre c)
    obtain ⟨g0, g1, g2, g3, g4, g5⟩ := hagree c
    funext i
    obtain ⟨n, j, rfl⟩ : ∃ (n : Fin 100000) (j : Fin 128), i = ix2 n j := ⟨i 0, i 1, eq_ix2 i⟩
    refine (Cert.ReferenceIdeal.RefSide.ref_value m' c (by rw [g1]; exact hsrc) n j).trans ?_
    rw [g0, g1, g2, g3, g4, g5]
    refine Eq.trans ?_ (Cert.KernelIdeal.Result.kernel_result m c hsrc htyp n j).symm
    exact (edgeOut_eq_relOut _ _ _ _ _ _ hx hW (label_eq _ htyp) n j).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
